-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v111)) (v2 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_v113) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v151) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S2097152x3 : Shape := ⟨2, ![2097152, 3]⟩
abbrev S262144 : Shape := ⟨1, ![262144]⟩
abbrev S57344 : Shape := ⟨1, ![57344]⟩
abbrev S2x2097152 : Shape := ⟨2, ![2, 2097152]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg11 : FVec F S128x128 .f32) (main_arg12 : FVec F S128 .f32) (main_arg13 : FVec F S128 .f32) (main_arg14 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S262144x128 .f32) (main_arg1 : FVec F S262144x128 .f32) (main_arg2 : FVec F S2097152x3 .f32) (main_arg3 : IVec S262144 32) (main_arg4 : IVec S57344 32) (main_arg5 : IVec S262144 32) (main_arg6 : IVec S2x2097152 32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S2097152x3 .f32 := Host.absf main_arg2
  let main_cst_2 : FVec F S_ .f32 := constant S_ .f32 0x7F800000#32
  let main_v10 : FVec F S2097152x3 .f32 := broadcastInDim S2097152x3 ![] bcast_S_S2097152x3 main_cst_2
  let main_v11 : IVec S2097152x3 1 := cmpf .olt main_v9 main_v10
  let main_c_3 : IVec S_ 1 := constantI S_ 1 1#1
  let main_v12 : IVec S_ 1 := (fun x v => Host.reduce IntOp.andi x v reducesTo_S2097152x3_S_d0_1 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg8 main_arg9 main_arg10 main_arg11 main_arg12 main_arg13 main_arg14 main_v13 main_v16
-- ==== Kernel.lean ====
abbrev S262144x128 : Shape := ⟨2, ![262144, 128]⟩
abbrev S2097152x3 : Shape := ⟨2, ![2097152, 3]⟩
abbrev S262144 : Shape := ⟨1, ![262144]⟩
abbrev S57344 : Shape := ⟨1, ![57344]⟩
abbrev S2x2097152 : Shape := ⟨2, ![2, 2097152]⟩
abbrev S256x128 : Shape := ⟨2, ![256, 128]⟩
abbrev S128 : Shape := ⟨1, ![128]⟩
abbrev S128x128 : Shape := ⟨2, ![128, 128]⟩
abbrev S2048x128 : Shape := ⟨2, ![2048, 128]⟩
abbrev S2048x256 : Shape := ⟨2, ![2048, 256]⟩
abbrev S1x128 : Shape := ⟨2, ![1, 128]⟩
abbrev S2048 : Shape := ⟨1, ![2048]⟩
abbrev S2048x1 : Shape := ⟨2, ![2048, 1]⟩
abbrev S_ : Shape := ⟨0, ![]⟩
abbrev S65536x128 : Shape := ⟨2, ![65536, 128]⟩
abbrev S262144x1 : Shape := ⟨2, ![262144, 1]⟩
abbrev S65536 : Shape := ⟨1, ![65536]⟩
abbrev S65536x1 : Shape := ⟨2, ![65536, 1]⟩
abbrev S57344x1 : Shape := ⟨2, ![57344, 1]⟩
abbrev S57344x128 : Shape := ⟨2, ![57344, 128]⟩
abbrev S1x2097152 : Shape := ⟨2, ![1, 2097152]⟩
abbrev S2097152 : Shape := ⟨1, ![2097152]⟩
abbrev S2097152x1 : Shape := ⟨2, ![2097152, 1]⟩
abbrev S1 : Shape := ⟨1, ![1]⟩
abbrev S2097151 : Shape := ⟨1, ![2097151]⟩

abbrev nBuf : Space → Nat
  | .hbm => 179
  | .vmem => 14
  | .smem => 0
  | _ => 0

abbrev hbmTy0_0 (i : Nat) : BufTy := match i % 128 with
  | 0 => ⟨S262144x128, .f32⟩
  | 1 => ⟨S262144x128, .f32⟩
  | 2 => ⟨S2097152x3, .f32⟩
  | 3 => ⟨S262144, .i32⟩
  | 4 => ⟨S57344, .i32⟩
  | 5 => ⟨S262144, .i32⟩
  | 6 => ⟨S2x2097152, .i32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S262144x128, .f32⟩
  | 16 => ⟨S_, .f32⟩
  | 17 => ⟨S65536x128, .f32⟩
  | 18 => ⟨S262144x1, .i32⟩
  | 19 => ⟨S65536x128, .f32⟩
  | 20 => ⟨S_, .f32⟩
  | 21 => ⟨S262144, .f32⟩
  | 22 => ⟨S_, .f32⟩
  | 23 => ⟨S65536, .f32⟩
  | 24 => ⟨S262144x1, .i32⟩
  | 25 => ⟨S65536, .f32⟩
  | 26 => ⟨S_, .f32⟩
  | 27 => ⟨S65536, .f32⟩
  | 28 => ⟨S65536, .f32⟩
  | 29 => ⟨S65536x1, .f32⟩
  | 30 => ⟨S65536x128, .f32⟩
  | 31 => ⟨S65536x128, .f32⟩
  | 32 => ⟨S_, .i32⟩
  | 33 => ⟨S57344, .i32⟩
  | 34 => ⟨S57344, .i1⟩
  | 35 => ⟨S_, .i32⟩
  | 36 => ⟨S57344, .i32⟩
  | 37 => ⟨S57344, .i32⟩
  | 38 => ⟨S57344, .i32⟩
  | 39 => ⟨S57344x1, .i32⟩
  | 40 => ⟨S57344x128, .f32⟩
  | 41 => ⟨S1x2097152, .i32⟩
  | 42 => ⟨S2097152, .i32⟩
  | 43 => ⟨S_, .i32⟩
  | 44 => ⟨S2097152, .i32⟩
  | 45 => ⟨S2097152, .i1⟩
  | 46 => ⟨S_, .i32⟩
  | 47 => ⟨S2097152, .i32⟩
  | 48 => ⟨S2097152, .i32⟩
  | 49 => ⟨S2097152, .i32⟩
  | 50 => ⟨S2097152x1, .i32⟩
  | 51 => ⟨S2097152, .i32⟩
  | 52 => ⟨S1x2097152, .i32⟩
  | 53 => ⟨S2097152, .i32⟩
  | 54 => ⟨S_, .i32⟩
  | 55 => ⟨S2097152, .i32⟩
  | 56 => ⟨S2097152, .i1⟩
  | 57 => ⟨S_, .i32⟩
  | 58 => ⟨S2097152, .i32⟩
  | 59 => ⟨S2097152, .i32⟩
  | 60 => ⟨S2097152, .i32⟩
  | 61 => ⟨S2097152x1, .i32⟩
  | 62 => ⟨S2097152, .i32⟩
  | 63 => ⟨S2097152, .i1⟩
  | 64 => ⟨S_, .i32⟩
  | 65 => ⟨S_, .i32⟩
  | 66 => ⟨S2097152, .i32⟩
  | 67 => ⟨S2097152, .i32⟩
  | 68 => ⟨S_, .i32⟩
  | 69 => ⟨S_, .i32⟩
  | 70 => ⟨S2097152, .i32⟩
  | 71 => ⟨S2097152, .i32⟩
  | 72 => ⟨S2097152, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152, .i32⟩
  | 85 => ⟨S_, .i32⟩
  | 86 => ⟨S2097152, .i32⟩
  | 87 => ⟨S2097152, .i1⟩
  | 88 => ⟨S_, .i32⟩
  | 89 => ⟨S2097152, .i32⟩
  | 90 => ⟨S2097152, .i32⟩
  | 91 => ⟨S2097152, .i32⟩
  | 92 => ⟨S2097152x1, .i32⟩
  | 93 => ⟨S2097152, .i32⟩
  | 94 => ⟨S_, .i32⟩
  | 95 => ⟨S1, .i32⟩
  | 96 => ⟨S2097151, .i32⟩
  | 97 => ⟨S2097151, .i32⟩
  | 98 => ⟨S2097151, .i1⟩
  | 99 => ⟨S2097151, .i32⟩
  | 100 => ⟨S2097151, .i32⟩
  | 101 => ⟨S2097151, .i1⟩
  | 102 => ⟨S2097151, .i1⟩
  | 103 => ⟨S2097151, .i32⟩
  | 104 => ⟨S2097152, .i32⟩
  | 105 => ⟨S_, .i32⟩
  | 106 => ⟨S_, .i32⟩
  | 107 => ⟨S2097152, .i32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S2097152x1, .i32⟩
  | 116 => ⟨S2097152x3, .f32⟩
  | 117 => ⟨S_, .f32⟩
  | 118 => ⟨S2097152x3, .f32⟩
  | 119 => ⟨S2097152x1, .i32⟩
  | 120 => ⟨S2097152x3, .f32⟩
  | 121 => ⟨S_, .f32⟩
  | 122 => ⟨S2097152, .f32⟩
  | 123 => ⟨S_, .f32⟩
  | 124 => ⟨S2097152, .f32⟩
  | 125 => ⟨S2097152x1, .i32⟩
  | 126 => ⟨S2097152, .f32⟩
  | 127 => ⟨S_, .f32⟩
  | _ => ⟨S262144x128, .f32⟩

abbrev hbmTy0_1 (i : Nat) : BufTy := match i % 128 with
  | 0 => ⟨S2097152, .f32⟩
  | 1 => ⟨S2097152, .f32⟩
  | 2 => ⟨S2097152x1, .f32⟩
  | 3 => ⟨S2097152x3, .f32⟩
  | 4 => ⟨S2097152x3, .f32⟩
  | 5 => ⟨S_, .i32⟩
  | 6 => ⟨S2097152, .i32⟩
  | 7 => ⟨S_, .i32⟩
  | 8 => ⟨S2097152, .i32⟩
  | 9 => ⟨S2097152, .i1⟩
  | 10 => ⟨S_, .i32⟩
  | 11 => ⟨S2097152, .i32⟩
  | 12 => ⟨S2097152, .i32⟩
  | 13 => ⟨S2097152, .i32⟩
  | 14 => ⟨S2097152x1, .i32⟩
  | 15 => ⟨S2097152, .i32⟩
  | 16 => ⟨S_, .i32⟩
  | 17 => ⟨S2097152, .i32⟩
  | 18 => ⟨S_, .i32⟩
  | 19 => ⟨S2097152, .i32⟩
  | 20 => ⟨S2097152, .i1⟩
  | 21 => ⟨S_, .i32⟩
  | 22 => ⟨S2097152, .i32⟩
  | 23 => ⟨S2097152, .i32⟩
  | 24 => ⟨S2097152, .i32⟩
  | 25 => ⟨S2097152x1, .i32⟩
  | 26 => ⟨S2097152, .i32⟩
  | 27 => ⟨S_, .i32⟩
  | 28 => ⟨S2097152, .i32⟩
  | 29 => ⟨S2097152, .i1⟩
  | 30 => ⟨S_, .i32⟩
  | 31 => ⟨S2097152, .i32⟩
  | 32 => ⟨S2097152, .i1⟩
  | 33 => ⟨S2097152, .i1⟩
  | 34 => ⟨S_, .i32⟩
  | 35 => ⟨S_, .i32⟩
  | 36 => ⟨S2097152, .i32⟩
  | 37 => ⟨S2097152, .i32⟩
  | 38 => ⟨S_, .i32⟩
  | 39 => ⟨S_, .i32⟩
  | 40 => ⟨S2097152, .i32⟩
  | 41 => ⟨S2097152, .i32⟩
  | 42 => ⟨S1x2097152, .i32⟩
  | 43 => ⟨S1x2097152, .i32⟩
  | 44 => ⟨S2x2097152, .i32⟩
  | 45 => ⟨S2097152x1, .i1⟩
  | 46 => ⟨S_, .f32⟩
  | 47 => ⟨S_, .f32⟩
  | 48 => ⟨S2097152x3, .i1⟩
  | 49 => ⟨S2097152x3, .f32⟩
  | 50 => ⟨S2097152x3, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S256x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S2048x128, .f32⟩
  | .local _ .vmem, ⟨13, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_call0_v0 : Ref sig .tc := ⟨.hbm, 65, rfl⟩
abbrev main_call0_v1 : Ref sig .tc := ⟨.hbm, 66, rfl⟩
abbrev main_v39 : Ref sig .tc := ⟨.hbm, 67, rfl⟩
abbrev main_c_9 : Ref sig .tc := ⟨.hbm, 68, rfl⟩
abbrev main_call1_v0 : Ref sig .tc := ⟨.hbm, 69, rfl⟩
abbrev main_call1_v1 : Ref sig .tc := ⟨.hbm, 70, rfl⟩
abbrev main_v40 : Ref sig .tc := ⟨.hbm, 71, rfl⟩
abbrev main_call2_v0 : Ref sig .tc := ⟨.hbm, 72, rfl⟩
abbrev main_call2_v1_0 : Ref sig .tc := ⟨.hbm, 73, rfl⟩
abbrev main_call2_v1_1 : Ref sig .tc := ⟨.hbm, 74, rfl⟩
abbrev main_v41 : Ref sig .tc := ⟨.hbm, 75, rfl⟩
abbrev main_c_10 : Ref sig .tc := ⟨.hbm, 76, rfl⟩
abbrev main_v42 : Ref sig .tc := ⟨.hbm, 77, rfl⟩
abbrev main_v43 : Ref sig .tc := ⟨.hbm, 78, rfl⟩
abbrev main_c_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_12 : Ref sig .tc := ⟨.hbm, 85, rfl⟩
abbrev main_v49 : Ref sig .tc := ⟨.hbm, 86, rfl⟩
abbrev main_v50 : Ref sig .tc := ⟨.hbm, 87, rfl⟩
abbrev main_c_13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_14 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call3_call0_c : Ref sig .tc := ⟨.hbm, 105, rfl⟩
abbrev main_call3_call0_v0 : Ref sig .tc := ⟨.hbm, 106, rfl⟩
abbrev main_v66 : Ref sig .tc := ⟨.hbm, 107, rfl⟩
abbrev main_c_15 : Ref sig .tc := ⟨.hbm, 108, rfl⟩
abbrev main_v67 : Ref sig .tc := ⟨.hbm, 109, rfl⟩
abbrev main_v68 : Ref sig .tc := ⟨.hbm, 110, rfl⟩
abbrev main_c_16 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_18 : Ref sig .tc := ⟨.hbm, 121, rfl⟩
abbrev main_v77 : Ref sig .tc := ⟨.hbm, 122, rfl⟩
abbrev main_cst_19 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_20 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_21 : Ref sig .tc := ⟨.hbm, 133, rfl⟩
abbrev main_v86 : Ref sig .tc := ⟨.hbm, 134, rfl⟩
abbrev main_c_22 : Ref sig .tc := ⟨.hbm, 135, rfl⟩
abbrev main_v87 : Ref sig .tc := ⟨.hbm, 136, rfl⟩
abbrev main_v88 : Ref sig .tc := ⟨.hbm, 137, rfl⟩
abbrev main_c_23 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_24 : Ref sig .tc := ⟨.hbm, 144, rfl⟩
abbrev main_v94 : Ref sig .tc := ⟨.hbm, 145, rfl⟩
abbrev main_c_25 : Ref sig .tc := ⟨.hbm, 146, rfl⟩
abbrev main_v95 : Ref sig .tc := ⟨.hbm, 147, rfl⟩
abbrev main_v96 : Ref sig .tc := ⟨.hbm, 148, rfl⟩
abbrev main_c_26 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_27 : Ref sig .tc := ⟨.hbm, 155, rfl⟩
abbrev main_v102 : Ref sig .tc := ⟨.hbm, 156, rfl⟩
abbrev main_v103 : Ref sig .tc := ⟨.hbm, 157, rfl⟩
abbrev main_c_28 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_29 : Ref sig .tc := ⟨.hbm, 162, rfl⟩
abbrev main_call4_v0 : Ref sig .tc := ⟨.hbm, 163, rfl⟩
abbrev main_call4_v1 : Ref sig .tc := ⟨.hbm, 164, rfl⟩
abbrev main_v107 : Ref sig .tc := ⟨.hbm, 165, rfl⟩
abbrev main_c_30 : Ref sig .tc := ⟨.hbm, 166, rfl⟩
abbrev main_call5_v0 : Ref sig .tc := ⟨.hbm, 167, rfl⟩
abbrev main_call5_v1 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_31 : Ref sig .tc := ⟨.hbm, 174, rfl⟩
abbrev main_call6_v0 : Ref sig .tc := ⟨.hbm, 175, rfl⟩
abbrev main_call6_v1 : Ref sig .tc := ⟨.hbm, 176, rfl⟩
abbrev main_call6_v2 : Ref sig .tc := ⟨.hbm, 177, rfl⟩
abbrev main_v113 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  reduces_S2048x128_S2048 : S2048x128.Reduces [1] S2048
  shapeCasts_S2048_S2048x1 : S2048.ShapeCasts S2048x1
  broadcasts_S2048x1_S2048x128 : S2048x1.Broadcasts S2048x128
  bcast_S_S65536x128 : S_.BroadcastsInDim S65536x128 (![] : Fin 0 → Fin S65536x128.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S_S57344 : S_.BroadcastsInDim S57344 (![] : Fin 0 → Fin S57344.rank)
  bcast_S57344_S57344x1_0 : S57344.BroadcastsInDim S57344x1 (![0] : Fin 1 → Fin S57344x1.rank)
  slices_S2x2097152_S1x2097152_0_0 : S2x2097152.Slices ![0, 0] S1x2097152
  shapeCasts_S1x2097152_S2097152 : S1x2097152.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2x2097152_S1x2097152_1_0 : S2x2097152.Slices ![1, 0] S1x2097152
  bcast_S_S1 : S_.BroadcastsInDim S1 (![] : Fin 0 → Fin S1.rank)
  slices_S2097152_S2097151_1 : S2097152.Slices ![1] S2097151
  slices_S2097152_S2097151_0 : S2097152.Slices ![0] S2097151
  natLt_1_32 : 1 < 32
  concatenates_S1_S2097151_S2097152_d0 : Shape.Concatenates [S1, S2097151] S2097152 0
  bcast_S_S_ : S_.BroadcastsInDim S_ (![] : Fin 0 → Fin S_.rank)
  reduceWindows_S2097152_S2097152_w2097152s1p2097151_0 : S2097152.ReduceWindows (![2097152] : Fin 1 → Nat) ![1] ![2097151] ![0] S2097152
  h_S_ : 0 < S_.numel
  bcast_S_S2097152x3 : S_.BroadcastsInDim S2097152x3 (![] : Fin 0 → Fin S2097152x3.rank)
  bcast_S2097152x1_S2097152x3_0_1 : S2097152x1.BroadcastsInDim S2097152x3 (![0, 1] : Fin 2 → Fin S2097152x3.rank)
  bcast_S2097152_S1x2097152_1 : S2097152.BroadcastsInDim S1x2097152 (![1] : Fin 1 → Fin S1x2097152.rank)
  concatenates_S1x2097152_S1x2097152_S2x2097152_d0 : Shape.Concatenates [S1x2097152, S1x2097152] S2x2097152 0
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  scatter_S65536x128_S262144x1_S262144x128_1_0_0_1_wf : ScatterDims.WF S65536x128 S262144x1 S262144x128 [1] [0] [0] 1
  scatter_S65536_S262144x1_S262144_n_0_0_1_wf : ScatterDims.WF S65536 S262144x1 S262144 [] [0] [0] 1
  gather_S65536x128_S57344x1_S57344x128_1_0_n_n_0_1_1128_wf : GatherDims.WF S65536x128 S57344x1 S57344x128 [1] [0] [] [0] [] 1 ![1, 128]
  gather_S262144_S2097152x1_S2097152_n_0_n_n_0_1_1_wf : GatherDims.WF S262144 S2097152x1 S2097152 [] [0] [] [0] [] 1 ![1]
  gather_S2097152_S2097152x1_S2097152_n_0_n_n_0_1_1_wf : GatherDims.WF S2097152 S2097152x1 S2097152 [] [0] [] [0] [] 1 ![1]
  gather_S2097152x3_S2097152x1_S2097152x3_1_0_n_n_0_1_13_wf : GatherDims.WF S2097152x3 S2097152x1 S2097152x3 [1] [0] [] [0] [] 1 ![1, 3]
  scatter_S2097152x3_S2097152x1_S2097152x3_1_0_0_1_wf : ScatterDims.WF S2097152x3 S2097152x1 S2097152x3 [1] [0] [0] 1
  scatter_S2097152_S2097152x1_S2097152_n_0_0_1_wf : ScatterDims.WF S2097152 S2097152x1 S2097152 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S262144x128.size a
  hwx0_10 : ∀ i : grid0.Coords, EltTy.bits .f32 = 32 ∨ (Rect.block (s := S262144x128) S2048x128.size (cc0_transform_10 i) (hinb0_10 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def scatter_S65536_S262144x1_S262144_n_0_0_1 : ScatterDims S65536 S262144x1 S262144 where
  updateWindowDims := []
  insertedWindowDims := [0]
  scatterDimsToOperandDims := [0]
  indexVectorDim := 1
  wf := scatter_S65536_S262144x1_S262144_n_0_0_1_wf
def gather_S65536x128_S57344x1_S57344x128_1_0_n_n_0_1_1128 : GatherDims S65536x128 S57344x1 S57344x128 where
  offsetDims := [1]
  collapsedSliceDims := [0]
  operandBatchingDims := []
  startIndicesBatchingDims := []
  startIndexMap := [0]
  indexVectorDim := 1
  sliceSizes := ![1, 128]
  wf := gather_S65536x128_S57344x1_S57344x128_1_0_n_n_0_1_1128_wf
def gather_S262144_S2097152x1_S2097152_n_0_n_n_0_1_1 : GatherDims S262144 S2097152x1 S2097152 where
  offsetDims := []
  collapsedSliceDims := [0]
  operandBatchingDims := []
  startIndicesBatchingDims := []
  startIndexMap := [0]
  indexVectorDim := 1
  sliceSizes := ![1]
  wf := gather_S262144_S2097152x1_S2097152_n_0_n_n_0_1_1_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S2097152_S2097152x1_S2097152_n_0_n_n_0_1_1 : GatherDims S2097152 S2097152x1 S2097152 where
  offsetDims := []
  collapsedSliceDims := [0]
  operandBatchingDims := []
  startIndicesBatchingDims := []
  startIndexMap := [0]
  indexVectorDim := 1
  sliceSizes := ![1]
  wf := gather_S2097152_S2097152x1_S2097152_n_0_n_n_0_1_1_wf
def gather_S2097152x3_S2097152x1_S2097152x3_1_0_n_n_0_1_13 : GatherDims S2097152x3 S2097152x1 S2097152x3 where
  offsetDims := [1]
  collapsedSliceDims := [0]
  operandBatchingDims := []
  startIndicesBatchingDims := []
  startIndexMap := [0]
  indexVectorDim := 1
  sliceSizes := ![1, 3]
  wf := gather_S2097152x3_S2097152x1_S2097152x3_1_0_n_n_0_1_13_wf
def scatter_S2097152x3_S2097152x1_S2097152x3_1_0_0_1 : ScatterDims S2097152x3 S2097152x1 S2097152x3 where
  updateWindowDims := [1]
  insertedWindowDims := [0]
  scatterDimsToOperandDims := [0]
  indexVectorDim := 1
  wf := scatter_S2097152x3_S2097152x1_S2097152x3_1_0_0_1_wf
def scatter_S2097152_S2097152x1_S2097152_n_0_0_1 : ScatterDims S2097152 S2097152x1 S2097152 where
  updateWindowDims := []
  insertedWindowDims := [0]
  scatterDimsToOperandDims := [0]
  indexVectorDim := 1
  wf := scatter_S2097152_S2097152x1_S2097152_n_0_0_1_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x128 : Shape := ⟨2, ![262144, 128]⟩
abbrev S2097152x3 : Shape := ⟨2, ![2097152, 3]⟩
abbrev S262144 : Shape := ⟨1, ![262144]⟩
abbrev S57344 : Shape := ⟨1, ![57344]⟩
abbrev S2x2097152 : Shape := ⟨2, ![2, 2097152]⟩
abbrev S256x128 : Shape := ⟨2, ![256, 128]⟩
abbrev S128 : Shape := ⟨1, ![128]⟩
abbrev S128x128 : Shape := ⟨2, ![128, 128]⟩
abbrev S262144x256 : Shape := ⟨2, ![262144, 256]⟩
abbrev S1x128 : Shape := ⟨2, ![1, 128]⟩
abbrev S_ : Shape := ⟨0, ![]⟩
abbrev S262144x1 : Shape := ⟨2, ![262144, 1]⟩
abbrev S65536x128 : Shape := ⟨2, ![65536, 128]⟩
abbrev S65536 : Shape := ⟨1, ![65536]⟩
abbrev S65536x1 : Shape := ⟨2, ![65536, 1]⟩
abbrev S57344x1 : Shape := ⟨2, ![57344, 1]⟩
abbrev S57344x128 : Shape := ⟨2, ![57344, 128]⟩
abbrev S1x2097152 : Shape := ⟨2, ![1, 2097152]⟩
abbrev S2097152 : Shape := ⟨1, ![2097152]⟩
abbrev S2097152x1 : Shape := ⟨2, ![2097152, 1]⟩
abbrev S1 : Shape := ⟨1, ![1]⟩
abbrev S2097151 : Shape := ⟨1, ![2097151]⟩

abbrev nBuf : Space → Nat
  | .hbm => 258
  | .vmem => 0
  | .smem => 0
  | _ => 0

abbrev hbmTy0_0 (i : Nat) : BufTy := match i % 128 with
  | 0 => ⟨S262144x128, .f32⟩
  | 1 => ⟨S262144x128, .f32⟩
  | 2 => ⟨S2097152x3, .f32⟩
  | 3 => ⟨S262144, .i32⟩
  | 4 => ⟨S57344, .i32⟩
  | 5 => ⟨S262144, .i32⟩
  | 6 => ⟨S2x2097152, .i32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S262144x256, .f32⟩
  | 16 => ⟨S262144x128, .f32⟩
  | 17 => ⟨S1x128, .f32⟩
  | 18 => ⟨S262144x128, .f32⟩
  | 19 => ⟨S262144x128, .f32⟩
  | 20 => ⟨S_, .f32⟩
  | 21 => ⟨S_, .f32⟩
  | 22 => ⟨S262144x128, .f32⟩
  | 23 => ⟨S262144x128, .i1⟩
  | 24 => ⟨S_, .f32⟩
  | 25 => ⟨S262144x128, .f32⟩
  | 26 => ⟨S262144x128, .i1⟩
  | 27 => ⟨S_, .f32⟩
  | 28 => ⟨S_, .f32⟩
  | 29 => ⟨S262144x128, .f32⟩
  | 30 => ⟨S262144x128, .f32⟩
  | 31 => ⟨S262144x128, .f32⟩
  | 32 => ⟨S_, .f32⟩
  | 33 => ⟨S262144x128, .f32⟩
  | 34 => ⟨S262144x128, .f32⟩
  | 35 => ⟨S262144x128, .f32⟩
  | 36 => ⟨S_, .f32⟩
  | 37 => ⟨S262144x128, .f32⟩
  | 38 => ⟨S262144x128, .f32⟩
  | 39 => ⟨S262144x128, .f32⟩
  | 40 => ⟨S1x128, .f32⟩
  | 41 => ⟨S262144x128, .f32⟩
  | 42 => ⟨S262144x128, .f32⟩
  | 43 => ⟨S_, .f32⟩
  | 44 => ⟨S_, .f32⟩
  | 45 => ⟨S262144x128, .f32⟩
  | 46 => ⟨S262144x128, .i1⟩
  | 47 => ⟨S_, .f32⟩
  | 48 => ⟨S262144x128, .f32⟩
  | 49 => ⟨S262144x128, .i1⟩
  | 50 => ⟨S_, .f32⟩
  | 51 => ⟨S_, .f32⟩
  | 52 => ⟨S262144x128, .f32⟩
  | 53 => ⟨S262144x128, .f32⟩
  | 54 => ⟨S262144x128, .f32⟩
  | 55 => ⟨S_, .f32⟩
  | 56 => ⟨S262144x128, .f32⟩
  | 57 => ⟨S262144x128, .f32⟩
  | 58 => ⟨S262144x128, .f32⟩
  | 59 => ⟨S_, .f32⟩
  | 60 => ⟨S262144x128, .f32⟩
  | 61 => ⟨S262144x128, .f32⟩
  | 62 => ⟨S262144x128, .f32⟩
  | 63 => ⟨S1x128, .f32⟩
  | 64 => ⟨S262144x128, .f32⟩
  | 65 => ⟨S262144x128, .f32⟩
  | 66 => ⟨S_, .f32⟩
  | 67 => ⟨S262144, .f32⟩
  | 68 => ⟨S262144x1, .f32⟩
  | 69 => ⟨S_, .f32⟩
  | 70 => ⟨S262144x1, .f32⟩
  | 71 => ⟨S262144x1, .f32⟩
  | 72 => ⟨S262144x128, .f32⟩
  | 73 => ⟨S262144x128, .f32⟩
  | 74 => ⟨S262144x128, .f32⟩
  | 75 => ⟨S_, .f32⟩
  | 76 => ⟨S262144, .f32⟩
  | 77 => ⟨S262144x1, .f32⟩
  | 78 => ⟨S_, .f32⟩
  | 79 => ⟨S262144x1, .f32⟩
  | 80 => ⟨S262144x1, .f32⟩
  | 81 => ⟨S262144x128, .f32⟩
  | 82 => ⟨S262144x128, .f32⟩
  | 83 => ⟨S_, .f32⟩
  | 84 => ⟨S262144x1, .f32⟩
  | 85 => ⟨S262144x1, .f32⟩
  | 86 => ⟨S262144x1, .f32⟩
  | 87 => ⟨S262144x128, .f32⟩
  | 88 => ⟨S262144x128, .f32⟩
  | 89 => ⟨S1x128, .f32⟩
  | 90 => ⟨S262144x128, .f32⟩
  | 91 => ⟨S262144x128, .f32⟩
  | 92 => ⟨S1x128, .f32⟩
  | 93 => ⟨S262144x128, .f32⟩
  | 94 => ⟨S262144x128, .f32⟩
  | 95 => ⟨S_, .f32⟩
  | 96 => ⟨S65536x128, .f32⟩
  | 97 => ⟨S262144x1, .i32⟩
  | 98 => ⟨S65536x128, .f32⟩
  | 99 => ⟨S_, .f32⟩
  | 100 => ⟨S262144, .f32⟩
  | 101 => ⟨S_, .f32⟩
  | 102 => ⟨S65536, .f32⟩
  | 103 => ⟨S262144x1, .i32⟩
  | 104 => ⟨S65536, .f32⟩
  | 105 => ⟨S_, .f32⟩
  | 106 => ⟨S65536, .f32⟩
  | 107 => ⟨S65536, .f32⟩
  | 108 => ⟨S65536x1, .f32⟩
  | 109 => ⟨S65536x128, .f32⟩
  | 110 => ⟨S65536x128, .f32⟩
  | 111 => ⟨S_, .i32⟩
  | 112 => ⟨S57344, .i32⟩
  | 113 => ⟨S57344, .i1⟩
  | 114 => ⟨S_, .i32⟩
  | 115 => ⟨S57344, .i32⟩
  | 116 => ⟨S57344, .i32⟩
  | 117 => ⟨S57344, .i32⟩
  | 118 => ⟨S57344x1, .i32⟩
  | 119 => ⟨S57344x128, .f32⟩
  | 120 => ⟨S1x2097152, .i32⟩
  | 121 => ⟨S2097152, .i32⟩
  | 122 => ⟨S_, .i32⟩
  | 123 => ⟨S2097152, .i32⟩
  | 124 => ⟨S2097152, .i1⟩
  | 125 => ⟨S_, .i32⟩
  | 126 => ⟨S2097152, .i32⟩
  | 127 => ⟨S2097152, .i32⟩
  | _ => ⟨S262144x128, .f32⟩

abbrev hbmTy0_1 (i : Nat) : BufTy := match i % 128 with
  | 0 => ⟨S2097152, .i32⟩
  | 1 => ⟨S2097152x1, .i32⟩
  | 2 => ⟨S2097152, .i32⟩
  | 3 => ⟨S1x2097152, .i32⟩
  | 4 => ⟨S2097152, .i32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i32⟩
  | 11 => ⟨S2097152, .i32⟩
  | 12 => ⟨S2097152x1, .i32⟩
  | 13 => ⟨S2097152, .i32⟩
  | 14 => ⟨S2097152, .i1⟩
  | 15 => ⟨S_, .i32⟩
  | 16 => ⟨S_, .i32⟩
  | 17 => ⟨S2097152, .i32⟩
  | 18 => ⟨S2097152, .i32⟩
  | 19 => ⟨S_, .i32⟩
  | 20 => ⟨S_, .i32⟩
  | 21 => ⟨S2097152, .i32⟩
  | 22 => ⟨S2097152, .i32⟩
  | 23 => ⟨S2097152, .i32⟩
  | 24 => ⟨S2097152, .i32⟩
  | 25 => ⟨S2097152, .i32⟩
  | 26 => ⟨S2097152, .i32⟩
  | 27 => ⟨S_, .i32⟩
  | 28 => ⟨S2097152, .i32⟩
  | 29 => ⟨S2097152, .i1⟩
  | 30 => ⟨S_, .i32⟩
  | 31 => ⟨S2097152, .i32⟩
  | 32 => ⟨S2097152, .i32⟩
  | 33 => ⟨S2097152, .i32⟩
  | 34 => ⟨S2097152x1, .i32⟩
  | 35 => ⟨S2097152, .i32⟩
  | 36 => ⟨S_, .i32⟩
  | 37 => ⟨S2097152, .i32⟩
  | 38 => ⟨S2097152, .i1⟩
  | 39 => ⟨S_, .i32⟩
  | 40 => ⟨S2097152, .i32⟩
  | 41 => ⟨S2097152, .i32⟩
  | 42 => ⟨S2097152, .i32⟩
  | 43 => ⟨S2097152x1, .i32⟩
  | 44 => ⟨S2097152, .i32⟩
  | 45 => ⟨S_, .i32⟩
  | 46 => ⟨S1, .i32⟩
  | 47 => ⟨S2097151, .i32⟩
  | 48 => ⟨S2097151, .i32⟩
  | 49 => ⟨S2097151, .i1⟩
  | 50 => ⟨S2097151, .i32⟩
  | 51 => ⟨S2097151, .i32⟩
  | 52 => ⟨S2097151, .i1⟩
  | 53 => ⟨S2097151, .i1⟩
  | 54 => ⟨S2097151, .i32⟩
  | 55 => ⟨S2097152, .i32⟩
  | 56 => ⟨S_, .i32⟩
  | 57 => ⟨S_, .i32⟩
  | 58 => ⟨S2097152, .i32⟩
  | 59 => ⟨S_, .i32⟩
  | 60 => ⟨S2097152, .i32⟩
  | 61 => ⟨S2097152, .i1⟩
  | 62 => ⟨S_, .i32⟩
  | 63 => ⟨S2097152, .i32⟩
  | 64 => ⟨S2097152, .i32⟩
  | 65 => ⟨S2097152, .i32⟩
  | 66 => ⟨S2097152x1, .i32⟩
  | 67 => ⟨S2097152x3, .f32⟩
  | 68 => ⟨S_, .f32⟩
  | 69 => ⟨S2097152x3, .f32⟩
  | 70 => ⟨S2097152x1, .i32⟩
  | 71 => ⟨S2097152x3, .f32⟩
  | 72 => ⟨S_, .f32⟩
  | 73 => ⟨S2097152, .f32⟩
  | 74 => ⟨S_, .f32⟩
  | 75 => ⟨S2097152, .f32⟩
  | 76 => ⟨S2097152x1, .i32⟩
  | 77 => ⟨S2097152, .f32⟩
  | 78 => ⟨S_, .f32⟩
  | 79 => ⟨S2097152, .f32⟩
  | 80 => ⟨S2097152, .f32⟩
  | 81 => ⟨S2097152x1, .f32⟩
  | 82 => ⟨S2097152x3, .f32⟩
  | 83 => ⟨S2097152x3, .f32⟩
  | 84 => ⟨S_, .i32⟩
  | 85 => ⟨S2097152, .i32⟩
  | 86 => ⟨S_, .i32⟩
  | 87 => ⟨S2097152, .i32⟩
  | 88 => ⟨S2097152, .i1⟩
  | 89 => ⟨S_, .i32⟩
  | 90 => ⟨S2097152, .i32⟩
  | 91 => ⟨S2097152, .i32⟩
  | 92 => ⟨S2097152, .i32⟩
  | 93 => ⟨S2097152x1, .i32⟩
  | 94 => ⟨S2097152, .i32⟩
  | 95 => ⟨S_, .i32⟩
  | 96 => ⟨S2097152, .i32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S2097152x1, .i32⟩
  | 105 => ⟨S2097152, .i32⟩
  | 106 => ⟨S_, .i32⟩
  | 107 => ⟨S2097152, .i32⟩
  | 108 => ⟨S2097152, .i1⟩
  | 109 => ⟨S_, .i32⟩
  | 110 => ⟨S2097152, .i32⟩
  | 111 => ⟨S2097152, .i1⟩
  | 112 => ⟨S2097152, .i1⟩
  | 113 => ⟨S_, .i32⟩
  | 114 => ⟨S_, .i32⟩
  | 115 => ⟨S2097152, .i32⟩
  | 116 => ⟨S2097152, .i32⟩
  | 117 => ⟨S_, .i32⟩
  | 118 => ⟨S_, .i32⟩
  | 119 => ⟨S2097152, .i32⟩
  | 120 => ⟨S2097152, .i32⟩
  | 121 => ⟨S1x2097152, .i32⟩
  | 122 => ⟨S1x2097152, .i32⟩
  | 123 => ⟨S2x2097152, .i32⟩
  | 124 => ⟨S2097152x1, .i1⟩
  | 125 => ⟨S_, .f32⟩
  | 126 => ⟨S_, .f32⟩
  | 127 => ⟨S2097152x3, .i1⟩
  | _ => ⟨S262144x128, .f32⟩

abbrev hbmTy0_2 (i : Nat) : BufTy := match i % 128 with
  | 0 => ⟨S2097152x3, .f32⟩
  | 1 => ⟨S2097152x3, .f32⟩
  | _ => ⟨S262144x128, .f32⟩

abbrev hbmTy (i : Nat) : BufTy := match i / 128 with
  | 0 => hbmTy0_0 i
  | 1 => hbmTy0_1 i
  | 2 => hbmTy0_2 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_cst_1 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_v0 : Ref sig .tc := ⟨.hbm, 35, rfl⟩
abbrev main_call0_cst_0 : Ref sig .tc := ⟨.hbm, 36, rfl⟩
abbrev main_call0_v1 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_call1_cst : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_cst_0 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_cst_1 : Ref sig .tc := ⟨.hbm, 50, rfl⟩
abbrev main_call1_call0_call0_v0 : Ref sig .tc := ⟨.hbm, 51, rfl⟩
abbrev main_call1_call0_call0_v1 : Ref sig .tc := ⟨.hbm, 52, rfl⟩
abbrev main_call1_call0_v4 : Ref sig .tc := ⟨.hbm, 53, rfl⟩
abbrev main_call1_call0_v5 : Ref sig .tc := ⟨.hbm, 54, rfl⟩
abbrev main_call1_call0_v6 : Ref sig .tc := ⟨.hbm, 55, rfl⟩
abbrev main_call1_call0_v7 : Ref sig .tc := ⟨.hbm, 56, rfl⟩
abbrev main_call1_call0_v8 : Ref sig .tc := ⟨.hbm, 57, rfl⟩
abbrev main_call1_v0 : Ref sig .tc := ⟨.hbm, 58, rfl⟩
abbrev main_call1_cst_0 : Ref sig .tc := ⟨.hbm, 59, rfl⟩
abbrev main_call1_v1 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst : Ref sig .tc := ⟨.hbm, 66, rfl⟩
abbrev main_v15 : Ref sig .tc := ⟨.hbm, 67, rfl⟩
abbrev main_v16 : Ref sig .tc := ⟨.hbm, 68, rfl⟩
abbrev main_cst_0 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_cst_1 : Ref sig .tc := ⟨.hbm, 75, rfl⟩
abbrev main_v22 : Ref sig .tc := ⟨.hbm, 76, rfl⟩
abbrev main_v23 : Ref sig .tc := ⟨.hbm, 77, rfl⟩
abbrev main_cst_2 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_cst_3 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_4 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_5 : Ref sig .tc := ⟨.hbm, 99, rfl⟩
abbrev main_v42 : Ref sig .tc := ⟨.hbm, 100, rfl⟩
abbrev main_cst_6 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_7 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_c : Ref sig .tc := ⟨.hbm, 111, rfl⟩
abbrev main_v51 : Ref sig .tc := ⟨.hbm, 112, rfl⟩
abbrev main_v52 : Ref sig .tc := ⟨.hbm, 113, rfl⟩
abbrev main_c_8 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_c_9 : Ref sig .tc := ⟨.hbm, 122, rfl⟩
abbrev main_v60 : Ref sig .tc := ⟨.hbm, 123, rfl⟩
abbrev main_v61 : Ref sig .tc := ⟨.hbm, 124, rfl⟩
abbrev main_c_10 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_c_11 : Ref sig .tc := ⟨.hbm, 133, rfl⟩
abbrev main_v69 : Ref sig .tc := ⟨.hbm, 134, rfl⟩
abbrev main_v70 : Ref sig .tc := ⟨.hbm, 135, rfl⟩
abbrev main_c_12 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_c_13 : Ref sig .tc := ⟨.hbm, 143, rfl⟩
abbrev main_call2_v0 : Ref sig .tc := ⟨.hbm, 144, rfl⟩
abbrev main_call2_v1 : Ref sig .tc := ⟨.hbm, 145, rfl⟩
abbrev main_v77 : Ref sig .tc := ⟨.hbm, 146, rfl⟩
abbrev main_c_14 : Ref sig .tc := ⟨.hbm, 147, rfl⟩
abbrev main_call3_v0 : Ref sig .tc := ⟨.hbm, 148, rfl⟩
abbrev main_call3_v1 : Ref sig .tc := ⟨.hbm, 149, rfl⟩
abbrev main_v78 : Ref sig .tc := ⟨.hbm, 150, rfl⟩
abbrev main_call4_v0 : Ref sig .tc := ⟨.hbm, 151, rfl⟩
abbrev main_call4_v1_0 : Ref sig .tc := ⟨.hbm, 152, rfl⟩
abbrev main_call4_v1_1 : Ref sig .tc := ⟨.hbm, 153, rfl⟩
abbrev main_v79 : Ref sig .tc := ⟨.hbm, 154, rfl⟩
abbrev main_c_15 : Ref sig .tc := ⟨.hbm, 155, rfl⟩
abbrev main_v80 : Ref sig .tc := ⟨.hbm, 156, rfl⟩
abbrev main_v81 : Ref sig .tc := ⟨.hbm, 157, rfl⟩
abbrev main_c_16 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_c_17 : Ref sig .tc := ⟨.hbm, 164, rfl⟩
abbrev main_v87 : Ref sig .tc := ⟨.hbm, 165, rfl⟩
abbrev main_v88 : Ref sig .tc := ⟨.hbm, 166, rfl⟩
abbrev main_c_18 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_c_19 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_call5_call0_c : Ref sig .tc := ⟨.hbm, 184, rfl⟩
abbrev main_call5_call0_v0 : Ref sig .tc := ⟨.hbm, 185, rfl⟩
abbrev main_v104 : Ref sig .tc := ⟨.hbm, 186, rfl⟩
abbrev main_c_20 : Ref sig .tc := ⟨.hbm, 187, rfl⟩
abbrev main_v105 : Ref sig .tc := ⟨.hbm, 188, rfl⟩
abbrev main_v106 : Ref sig .tc := ⟨.hbm, 189, rfl⟩
abbrev main_c_21 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_cst_22 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_cst_23 : Ref sig .tc := ⟨.hbm, 200, rfl⟩
abbrev main_v115 : Ref sig .tc := ⟨.hbm, 201, rfl⟩
abbrev main_cst_24 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_cst_25 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_c_26 : Ref sig .tc := ⟨.hbm, 212, rfl⟩
abbrev main_v124 : Ref sig .tc := ⟨.hbm, 213, rfl⟩
abbrev main_c_27 : Ref sig .tc := ⟨.hbm, 214, rfl⟩
abbrev main_v125 : Ref sig .tc := ⟨.hbm, 215, rfl⟩
abbrev main_v126 : Ref sig .tc := ⟨.hbm, 216, rfl⟩
abbrev main_c_28 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_c_29 : Ref sig .tc := ⟨.hbm, 223, rfl⟩
abbrev main_v132 : Ref sig .tc := ⟨.hbm, 224, rfl⟩
abbrev main_c_30 : Ref sig .tc := ⟨.hbm, 225, rfl⟩
abbrev main_v133 : Ref sig .tc := ⟨.hbm, 226, rfl⟩
abbrev main_v134 : Ref sig .tc := ⟨.hbm, 227, rfl⟩
abbrev main_c_31 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_c_32 : Ref sig .tc := ⟨.hbm, 234, rfl⟩
abbrev main_v140 : Ref sig .tc := ⟨.hbm, 235, rfl⟩
abbrev main_v141 : Ref sig .tc := ⟨.hbm, 236, rfl⟩
abbrev main_c_33 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_c_34 : Ref sig .tc := ⟨.hbm, 241, rfl⟩
abbrev main_call6_v0 : Ref sig .tc := ⟨.hbm, 242, rfl⟩
abbrev main_call6_v1 : Ref sig .tc := ⟨.hbm, 243, rfl⟩
abbrev main_v145 : Ref sig .tc := ⟨.hbm, 244, rfl⟩
abbrev main_c_35 : Ref sig .tc := ⟨.hbm, 245, rfl⟩
abbrev main_call7_v0 : Ref sig .tc := ⟨.hbm, 246, rfl⟩
abbrev main_call7_v1 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_cst_36 : Ref sig .tc := ⟨.hbm, 253, rfl⟩
abbrev main_call8_v0 : Ref sig .tc := ⟨.hbm, 254, rfl⟩
abbrev main_call8_v1 : Ref sig .tc := ⟨.hbm, 255, rfl⟩
abbrev main_call8_v2 : Ref sig .tc := ⟨.hbm, 256, rfl⟩
abbrev main_v151 : Ref sig .tc := ⟨.hbm, 257, rfl⟩

abbrev nD : Nat := 1
abbrev τ : Topo := Topo.v7x

variable {F : FTy → Type} [FloatOps F]

class Facts₀ : Prop where
  concatenates_S262144x128_S262144x128_S262144x256_d1 : Shape.Concatenates [S262144x128, S262144x128] S262144x256 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  bcast_S_S65536x128 : S_.BroadcastsInDim S65536x128 (![] : Fin 0 → Fin S65536x128.rank)
  bcast_S_S262144 : S_.BroadcastsInDim S262144 (![] : Fin 0 → Fin S262144.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S_S57344 : S_.BroadcastsInDim S57344 (![] : Fin 0 → Fin S57344.rank)
  bcast_S57344_S57344x1_0 : S57344.BroadcastsInDim S57344x1 (![0] : Fin 1 → Fin S57344x1.rank)
  slices_S2x2097152_S1x2097152_0_0 : S2x2097152.Slices ![0, 0] S1x2097152
  shapeCasts_S1x2097152_S2097152 : S1x2097152.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2x2097152_S1x2097152_1_0 : S2x2097152.Slices ![1, 0] S1x2097152
  bcast_S_S1 : S_.BroadcastsInDim S1 (![] : Fin 0 → Fin S1.rank)
  slices_S2097152_S2097151_1 : S2097152.Slices ![1] S2097151
  slices_S2097152_S2097151_0 : S2097152.Slices ![0] S2097151
  natLt_1_32 : 1 < 32
  concatenates_S1_S2097151_S2097152_d0 : Shape.Concatenates [S1, S2097151] S2097152 0
  bcast_S_S_ : S_.BroadcastsInDim S_ (![] : Fin 0 → Fin S_.rank)
  reduceWindows_S2097152_S2097152_w2097152s1p2097151_0 : S2097152.ReduceWindows (![2097152] : Fin 1 → Nat) ![1] ![2097151] ![0] S2097152
  bcast_S_S2097152x3 : S_.BroadcastsInDim S2097152x3 (![] : Fin 0 → Fin S2097152x3.rank)
  bcast_S2097152x1_S2097152x3_0_1 : S2097152x1.BroadcastsInDim S2097152x3 (![0, 1] : Fin 2 → Fin S2097152x3.rank)
  bcast_S2097152_S1x2097152_1 : S2097152.BroadcastsInDim S1x2097152 (![1] : Fin 1 → Fin S1x2097152.rank)
  concatenates_S1x2097152_S1x2097152_S2x2097152_d0 : Shape.Concatenates [S1x2097152, S1x2097152] S2x2097152 0
  dot_S262144x256_S256x128_S262144x128_1_0_0_1_n_n_wf : DotDims.WF S262144x256 S256x128 S262144x128 [1] [0] [0] [1] [] []
  dot_S262144x128_S128x128_S262144x128_1_0_0_1_n_n_wf : DotDims.WF S262144x128 S128x128 S262144x128 [1] [0] [0] [1] [] []
  scatter_S65536x128_S262144x1_S262144x128_1_0_0_1_wf : ScatterDims.WF S65536x128 S262144x1 S262144x128 [1] [0] [0] 1
  scatter_S65536_S262144x1_S262144_n_0_0_1_wf : ScatterDims.WF S65536 S262144x1 S262144 [] [0] [0] 1
  gather_S65536x128_S57344x1_S57344x128_1_0_n_n_0_1_1128_wf : GatherDims.WF S65536x128 S57344x1 S57344x128 [1] [0] [] [0] [] 1 ![1, 128]
  gather_S262144_S2097152x1_S2097152_n_0_n_n_0_1_1_wf : GatherDims.WF S262144 S2097152x1 S2097152 [] [0] [] [0] [] 1 ![1]
  gather_S2097152_S2097152x1_S2097152_n_0_n_n_0_1_1_wf : GatherDims.WF S2097152 S2097152x1 S2097152 [] [0] [] [0] [] 1 ![1]
  gather_S2097152x3_S2097152x1_S2097152x3_1_0_n_n_0_1_13_wf : GatherDims.WF S2097152x3 S2097152x1 S2097152x3 [1] [0] [] [0] [] 1 ![1, 3]
  scatter_S2097152x3_S2097152x1_S2097152x3_1_0_0_1_wf : ScatterDims.WF S2097152x3 S2097152x1 S2097152x3 [1] [0] [0] 1
  scatter_S2097152_S2097152x1_S2097152_n_0_0_1_wf : ScatterDims.WF S2097152 S2097152x1 S2097152 [] [0] [0] 1

variable [Facts₀]

def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def scatter_S65536_S262144x1_S262144_n_0_0_1 : ScatterDims S65536 S262144x1 S262144 where
  updateWindowDims := []
  insertedWindowDims := [0]
  scatterDimsToOperandDims := [0]
  indexVectorDim := 1
  wf := scatter_S65536_S262144x1_S262144_n_0_0_1_wf
def gather_S65536x128_S57344x1_S57344x128_1_0_n_n_0_1_1128 : GatherDims S65536x128 S57344x1 S57344x128 where
  offsetDims := [1]
  collapsedSliceDims := [0]
  operandBatchingDims := []
  startIndicesBatchingDims := []
  startIndexMap := [0]
  indexVectorDim := 1
  sliceSizes := ![1, 128]
  wf := gather_S65536x128_S57344x1_S57344x128_1_0_n_n_0_1_1128_wf
def gather_S262144_S2097152x1_S2097152_n_0_n_n_0_1_1 : GatherDims S262144 S2097152x1 S2097152 where
  offsetDims := []
  collapsedSliceDims := [0]
  operandBatchingDims := []
  startIndicesBatchingDims := []
  startIndexMap := [0]
  indexVectorDim := 1
  sliceSizes := ![1]
  wf := gather_S262144_S2097152x1_S2097152_n_0_n_n_0_1_1_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S2097152_S2097152x1_S2097152_n_0_n_n_0_1_1 : GatherDims S2097152 S2097152x1 S2097152 where
  offsetDims := []
  collapsedSliceDims := [0]
  operandBatchingDims := []
  startIndicesBatchingDims := []
  startIndexMap := [0]
  indexVectorDim := 1
  sliceSizes := ![1]
  wf := gather_S2097152_S2097152x1_S2097152_n_0_n_n_0_1_1_wf
def gather_S2097152x3_S2097152x1_S2097152x3_1_0_n_n_0_1_13 : GatherDims S2097152x3 S2097152x1 S2097152x3 where
  offsetDims := [1]
  collapsedSliceDims := [0]
  operandBatchingDims := []
  startIndicesBatchingDims := []
  startIndexMap := [0]
  indexVectorDim := 1
  sliceSizes := ![1, 3]
  wf := gather_S2097152x3_S2097152x1_S2097152x3_1_0_n_n_0_1_13_wf
def scatter_S2097152x3_S2097152x1_S2097152x3_1_0_0_1 : ScatterDims S2097152x3 S2097152x1 S2097152x3 where
  updateWindowDims := [1]
  insertedWindowDims := [0]
  scatterDimsToOperandDims := [0]
  indexVectorDim := 1
  wf := scatter_S2097152x3_S2097152x1_S2097152x3_1_0_0_1_wf
def scatter_S2097152_S2097152x1_S2097152_n_0_0_1 : ScatterDims S2097152 S2097152x1 S2097152 where
  updateWindowDims := []
  insertedWindowDims := [0]
  scatterDimsToOperandDims := [0]
  indexVectorDim := 1
  wf := scatter_S2097152_S2097152x1_S2097152_n_0_0_1_wf

class Facts : Prop extends Facts₀ where

variable [Facts]
-- ==== Proof.KFrameTail.lean ====
/-
  The launch side of the program's frame, at any instance of the float values: @main is one pipelined region followed by straight lines of host
  operations.  Here: the contents the region finds (nothing runs before it, so they are the launch contents); that the
  later lines touch only unscoped buffers, allocate nothing and write none of the region's arrays; that none of them
  writes an argument (an argument a window stages is an input array, which the region keeps), so every argument ends as launched; each window's block at a grid point; and the frame claim's
  post from any frame run of the region continued by those lines.
-/
import proofs.«128313_j69415261438102_1_alg».proof.Proof.Gen.Kernel.Launch
import proofs.«128313_j69415261438102_1_alg».proof.Proof.Gen.Kernel.Skeleton
import proofs.«128313_j69415261438102_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: no host operation runs before it. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-! ### Facts about every later line -/

/-- A property of every operation of every stretch, as a statement about members. -/
private theorem tail_mem {P : HloOp τ sig (Elt F) → Prop}
    (h : (tailOps : List (List (HloOp τ sig (Elt F)))).Forall fun ops => ops.Forall P) :
    ∀ ops ∈ (tailOps : List (List (HloOp τ sig (Elt F)))), ∀ op ∈ ops, P op :=
  fun ops hops op hop => (List.forall_iff_forall_mem.mp ((List.forall_iff_forall_mem.mp h) ops hops)) op hop

/-- Each later line touches TensorCore references only: the thirteen stretches' own facts, side by side. -/
private theorem tail_sub : (tailOps : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub, hostOps1_5_sub, hostOps1_6_sub,
    hostOps1_7_sub, hostOps1_8_sub, hostOps1_9_sub, hostOps1_10_sub, hostOps1_11_sub, hostOps1_12_sub⟩

/-- Each later line is a plain operation: it allocates nothing. -/
private theorem tail_fresh : (tailOps : List (List (HloOp τ sig (Elt F)))).Forall fun ops =>
    ops.Forall fun op => op.fresh = ∅ := by
  simp only [tailOps, List.Forall]; repeat' constructor

/-- The buffers the frame claim speaks of: the fifteen arguments and the region's output array (every array of the
    pipeline is one of them). -/
private def kept : List (Ref sig .tc) :=
  [main_arg0, main_arg1, main_arg2, main_arg3, main_arg4, main_arg5, main_arg6, main_arg7, main_arg8, main_arg9,
   main_arg10, main_arg11, main_arg12, main_arg13, main_arg14, main_v0]

/-- An operation whose one written buffer is none of those writes none of them. -/
private theorem keeps_of {op : HloOp τ sig (Elt F)} {y : Ref sig .tc} (hw : op.writes = {Proc.devRef .tc y})
    (hy : y ∉ kept) : ∀ b ∈ kept, Proc.devRef (τ := τ) .tc b ∉ op.writes := by
  intro b hb
  rw [hw, Finset.mem_singleton]
  exact StableHlo.devRef_ne_of_ne (fun e => hy (e ▸ hb))

/-- Each later line writes its own result buffer only, a value of the host program that is no argument and not the
    region's output: so no later line writes an argument or the region's output array. -/
private theorem tail_keeps : (tailOps : List (List (HloOp τ sig (Elt F)))).Forall fun ops =>
    ops.Forall fun op => ∀ b ∈ kept, Proc.devRef (τ := τ) .tc b ∉ op.writes := by
  simp only [tailOps, List.Forall]
  repeat' apply And.intro
  all_goals exact keeps_of rfl (by decide)

/-- So such a buffer holds after the later lines what it held before them, whatever that was. -/
private theorem tail_after (W : Valuation τ sig (Elt F)) {b : Ref sig .tc} (hb : b ∈ kept) :
    StableHlo.after (tailOps (F := F)).flatten W (Proc.devRef .tc b) = W (Proc.devRef .tc b) :=
  StableHlo.after_of_forall_not_mem _ _ fun op hop => by
    obtain ⟨ops, hops, hop'⟩ := List.mem_flatten.mp hop
    exact tail_mem tail_keeps ops hops op hop' b hb

/-- Nothing runs before the region: it finds every buffer as launched. -/
theorem V_eq (c : Dev nD) (b : Ref sig .tc) : V m c b = m ((c : Thread nD τ).loc b) := by
  rfl

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) := by
  exact Pipeline.hmain_around cfgs 0 defs₀ 𝒱₀ m main [] tailOps trivial trivial main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (tail_mem tail_sub ops hops op hop)

/-- They allocate nothing. -/
theorem sfx_fresh : ∀ ops ∈ (tailOps : List (List (HloOp τ sig (Elt F)))), ∀ op ∈ ops, op.fresh = ∅ := by
  exact tail_mem tail_fresh

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_mem tail_keeps ops hops op hop _ ((by decide : ∀ w, Pipeline.arrRef spec0 w ∈ kept) w)

/-- No line after the region writes argument 2: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [tail_after (b := main_arg2) _ (by decide),
    Pipeline.withArrays_of_ne _ c (V0 m c) _ main_arg2 (by exact (by decide : ∀ w, Pipeline.arrRef spec0 w ≠ main_arg2))]
  exact V_eq m c main_arg2

/-- No line after the region writes argument 3: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [tail_after (b := main_arg3) _ (by decide),
    Pipeline.withArrays_of_ne _ c (V0 m c) _ main_arg3 (by exact (by decide : ∀ w, Pipeline.arrRef spec0 w ≠ main_arg3))]
  exact V_eq m c main_arg3

/-- No line after the region writes argument 4: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [tail_after (b := main_arg4) _ (by decide),
    Pipeline.withArrays_of_ne _ c (V0 m c) _ main_arg4 (by exact (by decide : ∀ w, Pipeline.arrRef spec0 w ≠ main_arg4))]
  exact V_eq m c main_arg4

/-- No line after the region writes argument 5: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [tail_after (b := main_arg5) _ (by decide),
    Pipeline.withArrays_of_ne _ c (V0 m c) _ main_arg5 (by exact (by decide : ∀ w, Pipeline.arrRef spec0 w ≠ main_arg5))]
  exact V_eq m c main_arg5

/-- No line after the region writes argument 6: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [tail_after (b := main_arg6) _ (by decide),
    Pipeline.withArrays_of_ne _ c (V0 m c) _ main_arg6 (by exact (by decide : ∀ w, Pipeline.arrRef spec0 w ≠ main_arg6))]
  exact V_eq m c main_arg6

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  exact (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  exact (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  exact (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t := by
  exact (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t := by
  exact (dat.before_in_eq_fetched 5 rfl (fun _ => rfl) (fun _ _ _ => rfl)
      (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t := by
  exact (dat.before_in_eq_fetched 6 rfl (fun _ => rfl) (fun _ _ _ => rfl)
      (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t := by
  exact (dat.before_in_eq_fetched 7 rfl (fun _ => rfl) (fun _ _ _ => rfl)
      (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t := by
  exact (dat.before_in_eq_fetched 8 rfl (fun _ => rfl) (fun _ _ _ => rfl)
      (fun t => by rw [hafter]; unfold Dat.blockOf iblk; rw [hA]; try rfl) t d).trans
    (by unfold Dat.fetched Dat.blockOf iblk; rw [hA]; try rfl)

/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t := by
  exact (dat.before_in_eq_fetched 9 rfl (fun _ => rfl) (fun _ _ _ => rfl)
      (fun t => by rw [hafter]; unfold Dat.blockOf iblk; rw [hA]; try rfl) t d).trans
    (by unfold Dat.fetched Dat.blockOf iblk; rw [hA]; try rfl)

/-! ## The frame claim's post, and the results named, from a frame run -/

/-- From any frame run of the region continued by the later lines (proof data whose arrays are the region-entry
    contents): every argument ends as launched, and each of the three results is what the later lines compute from the
    region's exit contents. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v19) = Pipeline.afterTail₀ cfgs dats 0 (V0 m) tailOps c main_v19
      ∧ r.2.mem ((c.tc : Thread nD τ).loc main_v111) = Pipeline.afterTail₀ cfgs dats 0 (V0 m) tailOps c main_v111
      ∧ r.2.mem ((c.tc : Thread nD τ).loc main_v113) = Pipeline.afterTail₀ cfgs dats 0 (V0 m) tailOps c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  exact (θ_run defs _ _).mono (fun _ h c =>
    ⟨(h c).2 main_v19 (Pipeline.mem_restRefs_of main_v19 (by decide) (by decide)),
     (h c).2 main_v111 (Pipeline.mem_restRefs_of main_v111 (by decide) (by decide)),
     (h c).2 main_v113 (Pipeline.mem_restRefs_of main_v113 (by decide) (by decide)),
     ((h c).1 0).trans (((dats 0 c).arrAt_in 0 rfl _).trans ((hA c 0).trans (V_eq m c main_arg0))),
     ((h c).1 1).trans (((dats 0 c).arrAt_in 1 rfl _).trans ((hA c 1).trans (V_eq m c main_arg1))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).1 2).trans (((dats 0 c).arrAt_in 2 rfl _).trans ((hA c 2).trans (V_eq m c main_arg7))),
     ((h c).1 3).trans (((dats 0 c).arrAt_in 3 rfl _).trans ((hA c 3).trans (V_eq m c main_arg8))),
     ((h c).1 4).trans (((dats 0 c).arrAt_in 4 rfl _).trans ((hA c 4).trans (V_eq m c main_arg9))),
     ((h c).1 5).trans (((dats 0 c).arrAt_in 5 rfl _).trans ((hA c 5).trans (V_eq m c main_arg10))),
     ((h c).1 6).trans (((dats 0 c).arrAt_in 6 rfl _).trans ((hA c 6).trans (V_eq m c main_arg11))),
     ((h c).1 7).trans (((dats 0 c).arrAt_in 7 rfl _).trans ((hA c 7).trans (V_eq m c main_arg12))),
     ((h c).1 8).trans (((dats 0 c).arrAt_in 8 rfl _).trans ((hA c 8).trans (V_eq m c main_arg13))),
     ((h c).1 9).trans (((dats 0 c).arrAt_in 9 rfl _).trans ((hA c 9).trans (V_eq m c main_arg14)))⟩) h

end Cert.Kernel.Hand

end
-- ==== Proof.KFrameBody.lean ====
/-
  The body side of the program's frame, at any instance of the float values.  The kernel body loads its ten input blocks whole, computes, and stores one
  whole output block (it also loads the output buffer first, a value it never uses).  So after the body the output's
  staging buffer holds the one stored value, a function of the ten input blocks; the inputs' buffers are as they were.
  With that as the proof data the region runs, the later lines run from its exit, and the frame follows.
-/
import proofs.«128313_j69415261438102_1_alg».proof.Proof.KFrameTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rA : Rect S2048x128 := Rect.unit (s := S2048x128) ![0, 0] S2048x128.size inb_S2048x128_S2048x128_0_0
abbrev rB : Rect S256x128 := Rect.unit (s := S256x128) ![0, 0] S256x128.size inb_S256x128_S256x128_0_0
abbrev rC : Rect S128 := Rect.unit (s := S128) ![0] S128.size inb_S128_S128_0
abbrev rD : Rect S128x128 := Rect.unit (s := S128x128) ![0, 0] S128x128.size inb_S128x128_S128x128_0_0

/-- The output's staging buffer after the body, from the ten input blocks: its one store. -/
def out0_10 (x0 : Vec F S2048x128 .f32) (x1 : Vec F S2048x128 .f32) (x2 : Vec F S256x128 .f32) (x3 : Vec F S128 .f32) (x4 : Vec F S128x128 .f32) (x5 : Vec F S128 .f32) (x6 : Vec F S128x128 .f32) (x7 : Vec F S128 .f32) (x8 : Vec F S128 .f32) (x9 : Vec F S128 .f32) : Vec F S2048x128 .f32 :=
  View.canon [⟨rA, k0_pay1 (k0_pay2 (View.ld x0 rA) (View.ld x1 rA) (View.ld x2 rB) (View.ld x3 rC) (View.ld x4 rD) (View.ld x5 rC)) (View.ld x6 rD) (View.ld x7 rC) (View.ld x8 rC) (View.ld x9 rC)⟩]

/-- The one store covers the buffer. -/
theorem cover0_10 (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

/-! ## The body's triple -/

set_option maxHeartbeats 1000000 in
/-- The kernel body on whole staging memrefs, the inputs' at contents x0 … x9 and the output's at anything, runs to the
    continuation holding the inputs' as they were and the output's at out0_10 of them. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S2048x128 .f32) (harg11 : arg11.IsWhole)
    (x0 : Vec F S2048x128 .f32) (x1 : Vec F S2048x128 .f32) (x2 : Vec F S256x128 .f32) (x3 : Vec F S128 .f32) (x4 : Vec F S128x128 .f32) (x5 : Vec F S128 .f32) (x6 : Vec F S128x128 .f32) (x7 : Vec F S128 .f32) (x8 : Vec F S128 .f32) (x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The pipeline's proof data -/

/-- The arrays as the region finds them; after the body at point t each input's buffer at its block and the output's
    at out0_10 of the input blocks; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
private theorem before0_0 (c : Dev nD) (t : Fin cfg0.N) (d) : (dats m 0 c).before 0 t d = iblk m c 0 t :=
  before0_0_of m (dats m 0 c) (A_eq m c 0) (after0_0 m c) t d
private theorem before0_1 (c : Dev nD) (t : Fin cfg0.N) (d) : (dats m 0 c).before 1 t d = iblk m c 1 t :=
  before0_1_of m (dats m 0 c) (A_eq m c 1) (after0_1 m c) t d
private theorem before0_2 (c : Dev nD) (t : Fin cfg0.N) (d) : (dats m 0 c).before 2 t d = iblk m c 2 t :=
  before0_2_of m (dats m 0 c) (A_eq m c 2) (after0_2 m c) t d
private theorem before0_3 (c : Dev nD) (t : Fin cfg0.N) (d) : (dats m 0 c).before 3 t d = iblk m c 3 t :=
  before0_3_of m (dats m 0 c) (A_eq m c 3) (after0_3 m c) t d
private theorem before0_4 (c : Dev nD) (t : Fin cfg0.N) (d) : (dats m 0 c).before 4 t d = iblk m c 4 t :=
  before0_4_of m (dats m 0 c) (A_eq m c 4) (after0_4 m c) t d
private theorem before0_5 (c : Dev nD) (t : Fin cfg0.N) (d) : (dats m 0 c).before 5 t d = iblk m c 5 t :=
  before0_5_of m (dats m 0 c) (A_eq m c 5) (after0_5 m c) t d
private theorem before0_6 (c : Dev nD) (t : Fin cfg0.N) (d) : (dats m 0 c).before 6 t d = iblk m c 6 t :=
  before0_6_of m (dats m 0 c) (A_eq m c 6) (after0_6 m c) t d
private theorem before0_7 (c : Dev nD) (t : Fin cfg0.N) (d) : (dats m 0 c).before 7 t d = iblk m c 7 t :=
  before0_7_of m (dats m 0 c) (A_eq m c 7) (after0_7 m c) t d
private theorem before0_8 (c : Dev nD) (t : Fin cfg0.N) (d) : (dats m 0 c).before 8 t d = iblk m c 8 t :=
  before0_8_of m (dats m 0 c) (A_eq m c 8) (after0_8 m c) t d
private theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point t: the invariant, what the core owes, and each window's current staging
    buffer, an input's at its block and the output's at anything, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns: the same with each buffer at what the proof data say the body leaves. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and what
    the core owes pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := by
  intro t
  rw [bigSep_W0, bigSep_W0]
  exact sound_body m c t

/-! ## The run and the frame -/

set_option backward.isDefEq.respectTransparency.types false in
/-- Every weakly fair execution of @main terminates, every array of the pipeline at what the proof data give and every
    other unscoped buffer as the later lines leave it. -/
theorem run_main : θ_run defs (onTc (τ := τ) (main (F := F))) (s₀ m ρ) (Pipeline.FramePost cfgs (dats m) 0 (Pipeline.afterTail₀ cfgs (dats m) 0 (V0 m) tailOps)) := by
  exact Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The same with the three results named and every argument as launched. -/
theorem run_full : θ_run defs (onTc (τ := τ) (main (F := F))) ⟨m, fun _ => 0, ρ⟩ (fun r => ∀ c : Dev nD,
      r.2.mem ((c.tc : Thread nD τ).loc main_v19) = Pipeline.afterTail₀ cfgs (dats m) 0 (V0 m) tailOps c main_v19
      ∧ r.2.mem ((c.tc : Thread nD τ).loc main_v111) = Pipeline.afterTail₀ cfgs (dats m) 0 (V0 m) tailOps c main_v111
      ∧ r.2.mem ((c.tc : Thread nD τ).loc main_v113) = Pipeline.afterTail₀ cfgs (dats m) 0 (V0 m) tailOps c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  post_of m ρ (dats m) (A_eq m) (run_main m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2.2) (run_full m ρ)

end Cert.Kernel.Hand

end
-- ==== Proof.KIFrameTail.lean ====
/-
  The launch side of the program's frame, at any instance of the float values: @main is one pipelined region followed by straight lines of host
  operations.  Here: the contents the region finds (nothing runs before it, so they are the launch contents); that the
  later lines touch only unscoped buffers, allocate nothing and write none of the region's arrays; that none of them
  writes an argument (an argument a window stages is an input array, which the region keeps), so every argument ends as launched; each window's block at a grid point; and the frame claim's
  post from any frame run of the region continued by those lines.
-/
import proofs.«128313_j69415261438102_1_alg».proof.Proof.Gen.KernelIdeal.Launch
import proofs.«128313_j69415261438102_1_alg».proof.Proof.Gen.KernelIdeal.Skeleton
import proofs.«128313_j69415261438102_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: no host operation runs before it. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-! ### Facts about every later line -/

/-- A property of every operation of every stretch, as a statement about members. -/
private theorem tail_mem {P : HloOp τ sig (Elt F) → Prop}
    (h : (tailOps : List (List (HloOp τ sig (Elt F)))).Forall fun ops => ops.Forall P) :
    ∀ ops ∈ (tailOps : List (List (HloOp τ sig (Elt F)))), ∀ op ∈ ops, P op :=
  fun ops hops op hop => (List.forall_iff_forall_mem.mp ((List.forall_iff_forall_mem.mp h) ops hops)) op hop

/-- Each later line touches TensorCore references only: the thirteen stretches' own facts, side by side. -/
private theorem tail_sub : (tailOps : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub, hostOps1_5_sub, hostOps1_6_sub,
    hostOps1_7_sub, hostOps1_8_sub, hostOps1_9_sub, hostOps1_10_sub, hostOps1_11_sub, hostOps1_12_sub⟩

/-- Each later line is a plain operation: it allocates nothing. -/
private theorem tail_fresh : (tailOps : List (List (HloOp τ sig (Elt F)))).Forall fun ops =>
    ops.Forall fun op => op.fresh = ∅ := by
  simp only [tailOps, List.Forall]; repeat' constructor

/-- The buffers the frame claim speaks of: the fifteen arguments and the region's output array (every array of the
    pipeline is one of them). -/
private def kept : List (Ref sig .tc) :=
  [main_arg0, main_arg1, main_arg2, main_arg3, main_arg4, main_arg5, main_arg6, main_arg7, main_arg8, main_arg9,
   main_arg10, main_arg11, main_arg12, main_arg13, main_arg14, main_v0]

/-- An operation whose one written buffer is none of those writes none of them. -/
private theorem keeps_of {op : HloOp τ sig (Elt F)} {y : Ref sig .tc} (hw : op.writes = {Proc.devRef .tc y})
    (hy : y ∉ kept) : ∀ b ∈ kept, Proc.devRef (τ := τ) .tc b ∉ op.writes := by
  intro b hb
  rw [hw, Finset.mem_singleton]
  exact StableHlo.devRef_ne_of_ne (fun e => hy (e ▸ hb))

/-- Each later line writes its own result buffer only, a value of the host program that is no argument and not the
    region's output: so no later line writes an argument or the region's output array. -/
private theorem tail_keeps : (tailOps : List (List (HloOp τ sig (Elt F)))).Forall fun ops =>
    ops.Forall fun op => ∀ b ∈ kept, Proc.devRef (τ := τ) .tc b ∉ op.writes := by
  simp only [tailOps, List.Forall]
  repeat' apply And.intro
  all_goals exact keeps_of rfl (by decide)

/-- So such a buffer holds after the later lines what it held before them, whatever that was. -/
private theorem tail_after (W : Valuation τ sig (Elt F)) {b : Ref sig .tc} (hb : b ∈ kept) :
    StableHlo.after (tailOps (F := F)).flatten W (Proc.devRef .tc b) = W (Proc.devRef .tc b) :=
  StableHlo.after_of_forall_not_mem _ _ fun op hop => by
    obtain ⟨ops, hops, hop'⟩ := List.mem_flatten.mp hop
    exact tail_mem tail_keeps ops hops op hop' b hb

/-- Nothing runs before the region: it finds every buffer as launched. -/
theorem V_eq (c : Dev nD) (b : Ref sig .tc) : V m c b = m ((c : Thread nD τ).loc b) := by
  rfl

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) := by
  exact Pipeline.hmain_around cfgs 0 defs₀ 𝒱₀ m main [] tailOps trivial trivial main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (tail_mem tail_sub ops hops op hop)

/-- They allocate nothing. -/
theorem sfx_fresh : ∀ ops ∈ (tailOps : List (List (HloOp τ sig (Elt F)))), ∀ op ∈ ops, op.fresh = ∅ := by
  exact tail_mem tail_fresh

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_mem tail_keeps ops hops op hop _ ((by decide : ∀ w, Pipeline.arrRef spec0 w ∈ kept) w)

/-- No line after the region writes argument 2: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [tail_after (b := main_arg2) _ (by decide),
    Pipeline.withArrays_of_ne _ c (V0 m c) _ main_arg2 (by exact (by decide : ∀ w, Pipeline.arrRef spec0 w ≠ main_arg2))]
  exact V_eq m c main_arg2

/-- No line after the region writes argument 3: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [tail_after (b := main_arg3) _ (by decide),
    Pipeline.withArrays_of_ne _ c (V0 m c) _ main_arg3 (by exact (by decide : ∀ w, Pipeline.arrRef spec0 w ≠ main_arg3))]
  exact V_eq m c main_arg3

/-- No line after the region writes argument 4: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [tail_after (b := main_arg4) _ (by decide),
    Pipeline.withArrays_of_ne _ c (V0 m c) _ main_arg4 (by exact (by decide : ∀ w, Pipeline.arrRef spec0 w ≠ main_arg4))]
  exact V_eq m c main_arg4

/-- No line after the region writes argument 5: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [tail_after (b := main_arg5) _ (by decide),
    Pipeline.withArrays_of_ne _ c (V0 m c) _ main_arg5 (by exact (by decide : ∀ w, Pipeline.arrRef spec0 w ≠ main_arg5))]
  exact V_eq m c main_arg5

/-- No line after the region writes argument 6: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [tail_after (b := main_arg6) _ (by decide),
    Pipeline.withArrays_of_ne _ c (V0 m c) _ main_arg6 (by exact (by decide : ∀ w, Pipeline.arrRef spec0 w ≠ main_arg6))]
  exact V_eq m c main_arg6

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  exact (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  exact (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  exact (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t := by
  exact (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t := by
  exact (dat.before_in_eq_fetched 5 rfl (fun _ => rfl) (fun _ _ _ => rfl)
      (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t := by
  exact (dat.before_in_eq_fetched 6 rfl (fun _ => rfl) (fun _ _ _ => rfl)
      (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t := by
  exact (dat.before_in_eq_fetched 7 rfl (fun _ => rfl) (fun _ _ _ => rfl)
      (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t := by
  exact (dat.before_in_eq_fetched 8 rfl (fun _ => rfl) (fun _ _ _ => rfl)
      (fun t => by rw [hafter]; unfold Dat.blockOf iblk; rw [hA]; try rfl) t d).trans
    (by unfold Dat.fetched Dat.blockOf iblk; rw [hA]; try rfl)

/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t := by
  exact (dat.before_in_eq_fetched 9 rfl (fun _ => rfl) (fun _ _ _ => rfl)
      (fun t => by rw [hafter]; unfold Dat.blockOf iblk; rw [hA]; try rfl) t d).trans
    (by unfold Dat.fetched Dat.blockOf iblk; rw [hA]; try rfl)

/-! ## The frame claim's post, and the results named, from a frame run -/

/-- From any frame run of the region continued by the later lines (proof data whose arrays are the region-entry
    contents): every argument ends as launched, and each of the three results is what the later lines compute from the
    region's exit contents. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v19) = Pipeline.afterTail₀ cfgs dats 0 (V0 m) tailOps c main_v19
      ∧ r.2.mem ((c.tc : Thread nD τ).loc main_v111) = Pipeline.afterTail₀ cfgs dats 0 (V0 m) tailOps c main_v111
      ∧ r.2.mem ((c.tc : Thread nD τ).loc main_v113) = Pipeline.afterTail₀ cfgs dats 0 (V0 m) tailOps c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  exact (θ_run defs _ _).mono (fun _ h c =>
    ⟨(h c).2 main_v19 (Pipeline.mem_restRefs_of main_v19 (by decide) (by decide)),
     (h c).2 main_v111 (Pipeline.mem_restRefs_of main_v111 (by decide) (by decide)),
     (h c).2 main_v113 (Pipeline.mem_restRefs_of main_v113 (by decide) (by decide)),
     ((h c).1 0).trans (((dats 0 c).arrAt_in 0 rfl _).trans ((hA c 0).trans (V_eq m c main_arg0))),
     ((h c).1 1).trans (((dats 0 c).arrAt_in 1 rfl _).trans ((hA c 1).trans (V_eq m c main_arg1))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).1 2).trans (((dats 0 c).arrAt_in 2 rfl _).trans ((hA c 2).trans (V_eq m c main_arg7))),
     ((h c).1 3).trans (((dats 0 c).arrAt_in 3 rfl _).trans ((hA c 3).trans (V_eq m c main_arg8))),
     ((h c).1 4).trans (((dats 0 c).arrAt_in 4 rfl _).trans ((hA c 4).trans (V_eq m c main_arg9))),
     ((h c).1 5).trans (((dats 0 c).arrAt_in 5 rfl _).trans ((hA c 5).trans (V_eq m c main_arg10))),
     ((h c).1 6).trans (((dats 0 c).arrAt_in 6 rfl _).trans ((hA c 6).trans (V_eq m c main_arg11))),
     ((h c).1 7).trans (((dats 0 c).arrAt_in 7 rfl _).trans ((hA c 7).trans (V_eq m c main_arg12))),
     ((h c).1 8).trans (((dats 0 c).arrAt_in 8 rfl _).trans ((hA c 8).trans (V_eq m c main_arg13))),
     ((h c).1 9).trans (((dats 0 c).arrAt_in 9 rfl _).trans ((hA c 9).trans (V_eq m c main_arg14)))⟩) h

end Cert.KernelIdeal.Hand

end
-- ==== Proof.KIFrameBody.lean ====
/-
  The body side of the program's frame, at any instance of the float values.  The kernel body loads its ten input blocks whole, computes, and stores one
  whole output block (it also loads the output buffer first, a value it never uses).  So after the body the output's
  staging buffer holds the one stored value, a function of the ten input blocks; the inputs' buffers are as they were.
  With that as the proof data the region runs, the later lines run from its exit, and the frame follows.
-/
import proofs.«128313_j69415261438102_1_alg».proof.Proof.KIFrameTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rA : Rect S2048x128 := Rect.unit (s := S2048x128) ![0, 0] S2048x128.size inb_S2048x128_S2048x128_0_0
abbrev rB : Rect S256x128 := Rect.unit (s := S256x128) ![0, 0] S256x128.size inb_S256x128_S256x128_0_0
abbrev rC : Rect S128 := Rect.unit (s := S128) ![0] S128.size inb_S128_S128_0
abbrev rD : Rect S128x128 := Rect.unit (s := S128x128) ![0, 0] S128x128.size inb_S128x128_S128x128_0_0

/-- The output's staging buffer after the body, from the ten input blocks: its one store. -/
def out0_10 (x0 : Vec F S2048x128 .f32) (x1 : Vec F S2048x128 .f32) (x2 : Vec F S256x128 .f32) (x3 : Vec F S128 .f32) (x4 : Vec F S128x128 .f32) (x5 : Vec F S128 .f32) (x6 : Vec F S128x128 .f32) (x7 : Vec F S128 .f32) (x8 : Vec F S128 .f32) (x9 : Vec F S128 .f32) : Vec F S2048x128 .f32 :=
  View.canon [⟨rA, k0_pay1 (k0_pay2 (View.ld x0 rA) (View.ld x1 rA) (View.ld x2 rB) (View.ld x3 rC) (View.ld x4 rD) (View.ld x5 rC)) (View.ld x6 rD) (View.ld x7 rC) (View.ld x8 rC) (View.ld x9 rC)⟩]

/-- The one store covers the buffer. -/
theorem cover0_10 (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

/-! ## The body's triple -/

set_option maxHeartbeats 1000000 in
/-- The kernel body on whole staging memrefs, the inputs' at contents x0 … x9 and the output's at anything, runs to the
    continuation holding the inputs' as they were and the output's at out0_10 of them. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S2048x128 .f32) (harg11 : arg11.IsWhole)
    (x0 : Vec F S2048x128 .f32) (x1 : Vec F S2048x128 .f32) (x2 : Vec F S256x128 .f32) (x3 : Vec F S128 .f32) (x4 : Vec F S128x128 .f32) (x5 : Vec F S128 .f32) (x6 : Vec F S128x128 .f32) (x7 : Vec F S128 .f32) (x8 : Vec F S128 .f32) (x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The pipeline's proof data -/

/-- The arrays as the region finds them; after the body at point t each input's buffer at its block and the output's
    at out0_10 of the input blocks; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
private theorem before0_0 (c : Dev nD) (t : Fin cfg0.N) (d) : (dats m 0 c).before 0 t d = iblk m c 0 t :=
  before0_0_of m (dats m 0 c) (A_eq m c 0) (after0_0 m c) t d
private theorem before0_1 (c : Dev nD) (t : Fin cfg0.N) (d) : (dats m 0 c).before 1 t d = iblk m c 1 t :=
  before0_1_of m (dats m 0 c) (A_eq m c 1) (after0_1 m c) t d
private theorem before0_2 (c : Dev nD) (t : Fin cfg0.N) (d) : (dats m 0 c).before 2 t d = iblk m c 2 t :=
  before0_2_of m (dats m 0 c) (A_eq m c 2) (after0_2 m c) t d
private theorem before0_3 (c : Dev nD) (t : Fin cfg0.N) (d) : (dats m 0 c).before 3 t d = iblk m c 3 t :=
  before0_3_of m (dats m 0 c) (A_eq m c 3) (after0_3 m c) t d
private theorem before0_4 (c : Dev nD) (t : Fin cfg0.N) (d) : (dats m 0 c).before 4 t d = iblk m c 4 t :=
  before0_4_of m (dats m 0 c) (A_eq m c 4) (after0_4 m c) t d
private theorem before0_5 (c : Dev nD) (t : Fin cfg0.N) (d) : (dats m 0 c).before 5 t d = iblk m c 5 t :=
  before0_5_of m (dats m 0 c) (A_eq m c 5) (after0_5 m c) t d
private theorem before0_6 (c : Dev nD) (t : Fin cfg0.N) (d) : (dats m 0 c).before 6 t d = iblk m c 6 t :=
  before0_6_of m (dats m 0 c) (A_eq m c 6) (after0_6 m c) t d
private theorem before0_7 (c : Dev nD) (t : Fin cfg0.N) (d) : (dats m 0 c).before 7 t d = iblk m c 7 t :=
  before0_7_of m (dats m 0 c) (A_eq m c 7) (after0_7 m c) t d
private theorem before0_8 (c : Dev nD) (t : Fin cfg0.N) (d) : (dats m 0 c).before 8 t d = iblk m c 8 t :=
  before0_8_of m (dats m 0 c) (A_eq m c 8) (after0_8 m c) t d
private theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point t: the invariant, what the core owes, and each window's current staging
    buffer, an input's at its block and the output's at anything, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns: the same with each buffer at what the proof data say the body leaves. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and what
    the core owes pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := by
  intro t
  rw [bigSep_W0, bigSep_W0]
  exact sound_body m c t

/-! ## The run and the frame -/

set_option backward.isDefEq.respectTransparency.types false in
/-- Every weakly fair execution of @main terminates, every array of the pipeline at what the proof data give and every
    other unscoped buffer as the later lines leave it. -/
theorem run_main : θ_run defs (onTc (τ := τ) (main (F := F))) (s₀ m ρ) (Pipeline.FramePost cfgs (dats m) 0 (Pipeline.afterTail₀ cfgs (dats m) 0 (V0 m) tailOps)) := by
  exact Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The same with the three results named and every argument as launched. -/
theorem run_full : θ_run defs (onTc (τ := τ) (main (F := F))) ⟨m, fun _ => 0, ρ⟩ (fun r => ∀ c : Dev nD,
      r.2.mem ((c.tc : Thread nD τ).loc main_v19) = Pipeline.afterTail₀ cfgs (dats m) 0 (V0 m) tailOps c main_v19
      ∧ r.2.mem ((c.tc : Thread nD τ).loc main_v111) = Pipeline.afterTail₀ cfgs (dats m) 0 (V0 m) tailOps c main_v111
      ∧ r.2.mem ((c.tc : Thread nD τ).loc main_v113) = Pipeline.afterTail₀ cfgs (dats m) 0 (V0 m) tailOps c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  post_of m ρ (dats m) (A_eq m) (run_main m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2.2) (run_full m ρ)

end Cert.KernelIdeal.Hand

end
-- ==== Proof.RowSpec.lean ====
/-
  The edge network as ONE function of a row, on the extended reals.

  A row of the two node arrays, laid side by side (256 entries), goes through three affine maps, the first two followed
  by the scaled exponential linear unit, and a layer normalisation over its 128 entries: the mean, the mean of the
  squared deviations, and the deviations scaled by the reciprocal square root of that (plus a small constant), by a gain
  and shifted by a bias.  Every constant is kept as the f32 word both programs carry; only the unit subtracted from the
  exponential is the number one itself.  The function is stated for any number of rows, so that one block of rows and the
  whole array are two readings of the same definition.
-/
import Idealize.ShloMosaic.Lib.ValueIdx
import Idealize.ShloMosaic.PureOps.Ideal

noncomputable section

open scoped BigOperators

namespace EdgeMlp

open Idealize.ShloMosaic Idealize.ShloMosaic.ValueIdx

/-- The scaled exponential linear unit: the argument itself above zero, a scaled exponential less one otherwise, the
    whole scaled again. -/
def selu (x : EReal) : EReal :=
  Ideal.ofBits .f32 0x3F867D5F#32 * (if 0 < x then x else Ideal.ofBits .f32 0x3FD62D7D#32 * (Ideal.exp x - 1))

/-- An affine map into 128 entries: a row times a matrix, plus a bias. -/
def affine {n : Nat} (x : Fin n → EReal) (W : Fin n → Fin 128 → EReal) (b : Fin 128 → EReal) (j : Fin 128) : EReal :=
  (∑ k : Fin n, x k * W k j) + b j

/-- Two rows of 128 entries side by side. -/
def catRow (a b : Fin 128 → EReal) (k : Fin 256) : EReal :=
  if h : k.val < 128 then a ⟨k.val, h⟩ else b ⟨k.val - 128, by omega⟩

/-- The mean of 128 entries: their sum over the f32 word of 128. -/
def mean128 (v : Fin 128 → EReal) : EReal :=
  Ideal.div (∑ j : Fin 128, v j) (Ideal.ofBits .f32 0x43000000#32)

/-- Layer normalisation of a row of 128 entries, with gain g and bias b. -/
def layerNorm (h g b : Fin 128 → EReal) (j : Fin 128) : EReal :=
  (h j - mean128 h) * Ideal.rsqrt (mean128 (fun k => (h k - mean128 h) * (h k - mean128 h)) + Ideal.ofBits .f32 0x3727C5AC#32) * g j + b j

/-- The network on one row. -/
def mlpRow (x : Fin 256 → EReal) (W1 : Fin 256 → Fin 128 → EReal) (b1 : Fin 128 → EReal)
    (W2 : Fin 128 → Fin 128 → EReal) (b2 : Fin 128 → EReal) (W3 : Fin 128 → Fin 128 → EReal) (b3 : Fin 128 → EReal)
    (g b : Fin 128 → EReal) : Fin 128 → EReal :=
  layerNorm (affine (fun k => selu (affine (fun k => selu (affine x W1 b1 k)) W2 b2 k)) W3 b3) g b

/-- The network at entry (p, q) of an array of R rows: row p of the two node arrays, the weights as arrays. -/
def mlpAt {R : Nat} (e f : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (W3 : (⟨2, ![128, 128]⟩ : Shape).Idx → EReal) (b3 g b : (⟨1, ![128]⟩ : Shape).Idx → EReal) (p : Fin R) (q : Fin 128) : EReal :=
  mlpRow (catRow (fun k => e (ix2 p k)) (fun k => f (ix2 p k))) (fun k j => W1 (ix2 k j)) (fun j => b1 (ix1 j))
    (fun k j => W2 (ix2 k j)) (fun j => b2 (ix1 j)) (fun k j => W3 (ix2 k j)) (fun j => b3 (ix1 j))
    (fun j => g (ix1 j)) (fun j => b (ix1 j)) q

/-- The network as a whole array. -/
def mlpArr {R : Nat} (e f : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (W3 : (⟨2, ![128, 128]⟩ : Shape).Idx → EReal) (b3 g b : (⟨1, ![128]⟩ : Shape).Idx → EReal) :
    (⟨2, ![R, 128]⟩ : Shape).Idx → EReal :=
  fun i => mlpAt e f W1 b1 W2 b2 W3 b3 g b (i 0) (i 1)

theorem mlpArr_apply {R : Nat} (e f : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (W3 : (⟨2, ![128, 128]⟩ : Shape).Idx → EReal) (b3 g b : (⟨1, ![128]⟩ : Shape).Idx → EReal) (p : Fin R) (q : Fin 128) :
    mlpArr e f W1 b1 W2 b2 W3 b3 g b (ix2 p q) = mlpAt e f W1 b1 W2 b2 W3 b3 g b p q := rfl

/-- The network on a block of rows of a larger array is the network on the array, read at the block's rows: it looks at
    its own row only. -/
theorem mlpAt_block {R R' : Nat} (e f : (⟨2, ![R, 128]⟩ : Shape).Idx → EReal) (e' f' : (⟨2, ![R', 128]⟩ : Shape).Idx → EReal)
    (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (W3 : (⟨2, ![128, 128]⟩ : Shape).Idx → EReal) (b3 g b : (⟨1, ![128]⟩ : Shape).Idx → EReal) (p : Fin R) (p' : Fin R') (q : Fin 128)
    (he : ∀ k : Fin 128, e' (ix2 p' k) = e (ix2 p k)) (hf : ∀ k : Fin 128, f' (ix2 p' k) = f (ix2 p k)) :
    mlpAt e' f' W1 b1 W2 b2 W3 b3 g b p' q = mlpAt e f W1 b1 W2 b2 W3 b3 g b p q := by
  unfold mlpAt
  rw [show (fun k => e' (ix2 p' k)) = (fun k => e (ix2 p k)) from funext he,
    show (fun k => f' (ix2 p' k)) = (fun k => f (ix2 p k)) from funext hf]

end EdgeMlp

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.KIPayload.lean ====
/-
  The kernel body's arithmetic at one entry.  The body's stored value is a pure function of the ten loaded blocks: two
  matrix products each followed by the scaled exponential linear unit, a third product, and a layer normalisation of
  each row.  Read at entry (p, q) at the exact instance it is the edge network on row p of the two node blocks.
-/
import proofs.«128313_j69415261438102_1_alg».proof.Proof.Gen.KernelIdeal.Skeleton
import proofs.«128313_j69415261438102_1_alg».proof.Proof.RowSpec
import proofs.«128313_j69415261438102_1_alg».proof.Proof.LibPlainDot
import proofs.«128313_j69415261438102_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The words and the pointwise unit -/

/-- The f32 word of one is the number one. -/
private theorem one_f32 : Ideal.ofBits .f32 0x3F800000#32 = 1 :=
  IdealRules.sign_bit.ideal_onePat .f32

/-- The scaled exponential linear unit as the body spells it, at one value: the comparison with zero picks the branch. -/
private theorem selu_scalar (x : EReal) :
    Ideal.ofBits .f32 0x3F867D5F#32 *
        Scalar.select (Ideal.cmp .ogt x (Ideal.ofBits .f32 0x00000000#32)) x
          (Ideal.ofBits .f32 0x3FD62D7D#32 * (Ideal.exp x - Ideal.ofBits .f32 0x3F800000#32))
      = EdgeMlp.selu x := by
  unfold EdgeMlp.selu
  rw [one_f32, Ideal.ofBits_zero_f32]
  by_cases h : 0 < x
  · rw [if_pos h]
    have : Ideal.cmp .ogt x 0 = 1#1 := by simp [Ideal.cmp, h]
    rw [this, select_one]
  · rw [if_neg h]
    have : Ideal.cmp .ogt x 0 = 0#1 := by simp [Ideal.cmp, h]
    rw [this, select_zero]

/-- The body's scaled exponential linear unit on a [2048, 128] block. -/
private def seluVec (v : FVec Ideal S2048x128 .f32) : FVec Ideal S2048x128 .f32 :=
  mulf (broadcast S2048x128 (Scalar.ofBits (F := Ideal) .f32 0x3F867D5F#32))
    (select (cmpf .ogt v (broadcast S2048x128 (Scalar.ofBits (F := Ideal) .f32 0x00000000#32))) v
      (mulf (broadcast S2048x128 (Scalar.ofBits (F := Ideal) .f32 0x3FD62D7D#32))
        (subf (exp v) (broadcast S2048x128 (Scalar.ofBits (F := Ideal) .f32 0x3F800000#32)))))

/-- It acts entry by entry. -/
private theorem seluVec_at (v : FVec Ideal S2048x128 .f32) (i : S2048x128.Idx) :
    seluVec v i = EdgeMlp.selu (v i) :=
  selu_scalar (v i)

/-! ## A product plus a bias row -/

/-- The first product's dimension numbers are a plain product's. -/
private theorem plain256 : PlainDot.IsPlain dot_S2048x256_S256x128_S2048x128_1_0_0_1_n_n := ⟨rfl, rfl, rfl, rfl, rfl, rfl⟩

/-- The other two products' dimension numbers are a plain product's. -/
private theorem plain128 : PlainDot.IsPlain dot_S2048x128_S128x128_S2048x128_1_0_0_1_n_n := ⟨rfl, rfl, rfl, rfl, rfl, rfl⟩

/-- A vector of 128 entries cast to one row and broadcast down 2048 rows. -/
private def rowVec (b : FVec Ideal S128 .f32) : FVec Ideal S2048x128 .f32 :=
  broadcastTo S2048x128 (shapeCast S1x128 b shapeCasts_S128_S1x128) broadcasts_S1x128_S2048x128

/-- At (p, q) it reads the vector at q. -/
private theorem rowVec_at (b : FVec Ideal S128 .f32) (p : Fin 2048) (q : Fin 128) : rowVec b (ix2 p q) = b (ix1 q) := by
  unfold rowVec
  rw [broadcastTo_1b_ab_apply, shapeCast_a_1a_apply]

/-- A product of the operands, both truncated, into the zero accumulator, plus a bias row. -/
private def affVec {K : Nat} (d : DotDims ⟨2, ![2048, K]⟩ ⟨2, ![K, 128]⟩ ⟨2, ![2048, 128]⟩)
    (A : FVec Ideal ⟨2, ![2048, K]⟩ .f32) (W : FVec Ideal ⟨2, ![K, 128]⟩ .f32) (b : FVec Ideal S128 .f32) :
    FVec Ideal S2048x128 .f32 :=
  addf (matmul d none (truncf .bf16 A bitsLt_bf16_f32) (truncf .bf16 W bitsLt_bf16_f32)
      (constant ⟨2, ![2048, 128]⟩ .f32 0x00000000#32)) (rowVec b)

/-- Read at (p, q) it is the affine map of row p: the truncations are the identity at the exact instance. -/
private theorem affVec_at {K : Nat} (d : DotDims ⟨2, ![2048, K]⟩ ⟨2, ![K, 128]⟩ ⟨2, ![2048, 128]⟩) (hd : PlainDot.IsPlain d)
    (A : FVec Ideal ⟨2, ![2048, K]⟩ .f32) (W : FVec Ideal ⟨2, ![K, 128]⟩ .f32) (b : FVec Ideal S128 .f32)
    (p : Fin 2048) (q : Fin 128) :
    affVec d A W b (ix2 p q)
      = EdgeMlp.affine (fun k => A (ix2 p k)) (fun k j => W (ix2 k j)) (fun j => b (ix1 j)) q := by
  unfold affVec
  rw [addf_apply, PlainDot.matmul_zero_apply hd, rowVec_at]
  rfl

/-! ## The two node blocks side by side -/

/-- Two blocks of 128 columns side by side, read at (p, k), are the two rows p side by side at k. -/
private theorem cat_at (x0 x1 : FVec Ideal S2048x128 .f32) (p : Fin 2048) (k : Fin 256) :
    concatenate S2048x256 1 [⟨S2048x128, x0⟩, ⟨S2048x128, x1⟩] concatenates_S2048x128_S2048x128_S2048x256_d1 (ix2 p k)
      = EdgeMlp.catRow (fun k => x0 (ix2 p k)) (fun k => x1 (ix2 p k)) k := by
  unfold EdgeMlp.catRow
  split
  · next h =>
    refine concatenate_pair_apply_left 1 x0 x1 _ (ix2 p k) rfl (ix2 p ⟨k.val, h⟩) fun b => ?_
    match b with
    | ⟨0, _⟩ => rfl
    | ⟨1, _⟩ => rfl
  · next h =>
    refine concatenate_pair_apply_right 1 x0 x1 _ (ix2 p k) rfl rfl (ix2 p ⟨k.val - 128, by omega⟩) (fun b hb => ?_) ?_
    · match b with
      | ⟨0, _⟩ => rfl
      | ⟨1, _⟩ => exact absurd rfl hb
    · show k.val - 128 + 128 = k.val
      omega

/-! ## The layer normalisation -/

/-- The sum along the lanes of a [2048, 128] block, read at row p: the inserted index is (p, k). -/
private theorem rowSum_at (v : FVec Ideal S2048x128 .f32) (p : Fin 2048) :
    multiReduction (F := Ideal) .add [1] S2048 v 0x00000000#32 reduces_S2048x128_S2048 (.inl rfl) rfl (ix1 p)
      = ∑ k : Fin 128, v (ix2 p k) := by
  refine (Ideal.multiReduction_add_single v 0x00000000#32 reduces_S2048x128_S2048 (.inl rfl) rfl (ix1 p)).trans ?_
  refine Finset.sum_congr rfl fun k _ => congrArg v ?_
  funext c
  refine Fin.ext ?_
  match c with
  | ⟨0, _⟩ => rfl
  | ⟨1, _⟩ => rfl

/-- The mean along the lanes, kept as a column: the lane sum over the word of 128. -/
private def meanCol (v : FVec Ideal S2048x128 .f32) : FVec Ideal S2048x1 .f32 :=
  divf (shapeCast S2048x1 (multiReduction (F := Ideal) .add [1] S2048 v 0x00000000#32 reduces_S2048x128_S2048 (.inl rfl) rfl)
      shapeCasts_S2048_S2048x1)
    (broadcast S2048x1 (Scalar.ofBits (F := Ideal) .f32 0x43000000#32))

/-- At (p, 0) it is the mean of row p. -/
private theorem meanCol_at (v : FVec Ideal S2048x128 .f32) (p : Fin 2048) :
    meanCol v (ix2 p (0 : Fin 1)) = EdgeMlp.mean128 (fun k => v (ix2 p k)) := by
  unfold meanCol
  rw [divf_apply, KeepdimsLayout.shapeCast_a_a1_apply, rowSum_at]
  rfl

/-- A block less its rows' means. -/
private def centred (v : FVec Ideal S2048x128 .f32) : FVec Ideal S2048x128 .f32 :=
  subf v (broadcastTo S2048x128 (meanCol v) broadcasts_S2048x1_S2048x128)

/-- At (p, q): the entry less the mean of row p. -/
private theorem centred_at (v : FVec Ideal S2048x128 .f32) (p : Fin 2048) (q : Fin 128) :
    centred v (ix2 p q) = v (ix2 p q) - EdgeMlp.mean128 (fun k => v (ix2 p k)) := by
  unfold centred
  rw [subf_apply, KeepdimsLayout.broadcastTo_a1_ab_apply, meanCol_at]

/-- The body's layer normalisation of a block, with gain and bias vectors. -/
private def normVec (h : FVec Ideal S2048x128 .f32) (g b : FVec Ideal S128 .f32) : FVec Ideal S2048x128 .f32 :=
  addf
    (mulf
      (mulf (centred h)
        (broadcastTo S2048x128
          (rsqrt (addf (meanCol (mulf (centred h) (centred h)))
            (broadcast S2048x1 (Scalar.ofBits (F := Ideal) .f32 0x3727C5AC#32))))
          broadcasts_S2048x1_S2048x128))
      (rowVec g))
    (rowVec b)

/-- Read at (p, q) it is the layer normalisation of row p at q. -/
private theorem normVec_at (h : FVec Ideal S2048x128 .f32) (g b : FVec Ideal S128 .f32) (p : Fin 2048) (q : Fin 128) :
    normVec h g b (ix2 p q)
      = EdgeMlp.layerNorm (fun k => h (ix2 p k)) (fun j => g (ix1 j)) (fun j => b (ix1 j)) q := by
  have hsq : (fun k : Fin 128 => mulf (centred h) (centred h) (ix2 p k))
      = fun k => (h (ix2 p k) - EdgeMlp.mean128 (fun k => h (ix2 p k)))
          * (h (ix2 p k) - EdgeMlp.mean128 (fun k => h (ix2 p k))) := by
    funext k
    rw [mulf_apply, centred_at]
  unfold normVec
  rw [addf_apply, mulf_apply, mulf_apply, rowVec_at, rowVec_at, centred_at, KeepdimsLayout.broadcastTo_a1_ab_apply]
  show (h (ix2 p q) - EdgeMlp.mean128 (fun k => h (ix2 p k)))
      * Ideal.rsqrt (meanCol (mulf (centred h) (centred h)) (ix2 p (0 : Fin 1)) + Ideal.ofBits .f32 0x3727C5AC#32)
      * g (ix1 q) + b (ix1 q) = _
  rw [meanCol_at, hsq]
  rfl

/-! ## The two payloads and the whole -/

/-- The second payload is two rounds of product, bias and unit on the two node blocks side by side. -/
private theorem pay2_eq (x0 x1 : Vec Ideal S2048x128 .f32) (x2 : Vec Ideal S256x128 .f32) (x3 : Vec Ideal S128 .f32)
    (x4 : Vec Ideal S128x128 .f32) (x5 : Vec Ideal S128 .f32) :
    k0_pay2 (F := Ideal) x0 x1 x2 x3 x4 x5
      = seluVec (affVec dot_S2048x128_S128x128_S2048x128_1_0_0_1_n_n
          (seluVec (affVec dot_S2048x256_S256x128_S2048x128_1_0_0_1_n_n
            (concatenate S2048x256 1 [⟨S2048x128, x0⟩, ⟨S2048x128, x1⟩] concatenates_S2048x128_S2048x128_S2048x256_d1) x2 x3))
          x4 x5) := rfl

/-- The first payload is a third product and bias, then the layer normalisation. -/
private theorem pay1_eq (v : FVec Ideal S2048x128 .f32) (x6 : Vec Ideal S128x128 .f32) (x7 x8 x9 : Vec Ideal S128 .f32) :
    k0_pay1 (F := Ideal) v x6 x7 x8 x9
      = normVec (affVec dot_S2048x128_S128x128_S2048x128_1_0_0_1_n_n v x6 x7) x8 x9 := rfl

/-- The second payload at (p, k): the second layer's output on row p. -/
private theorem pay2_at (x0 x1 : Vec Ideal S2048x128 .f32) (x2 : Vec Ideal S256x128 .f32) (x3 : Vec Ideal S128 .f32)
    (x4 : Vec Ideal S128x128 .f32) (x5 : Vec Ideal S128 .f32) (p : Fin 2048) (k : Fin 128) :
    k0_pay2 (F := Ideal) x0 x1 x2 x3 x4 x5 (ix2 p k)
      = EdgeMlp.selu (EdgeMlp.affine
          (fun k => EdgeMlp.selu (EdgeMlp.affine
            (EdgeMlp.catRow (fun k => x0 (ix2 p k)) (fun k => x1 (ix2 p k)))
            (fun k j => x2 (ix2 k j)) (fun j => x3 (ix1 j)) k))
          (fun k j => x4 (ix2 k j)) (fun j => x5 (ix1 j)) k) := by
  rw [pay2_eq, seluVec_at, affVec_at _ plain128]
  congr 2
  funext k'
  rw [seluVec_at, affVec_at _ plain256]
  congr 2
  funext k''
  exact cat_at x0 x1 p k''

/-- The body's stored value at entry (p, q), at the exact instance, is the edge network at (p, q) of the loaded blocks. -/
theorem pay_at (x0 x1 : Vec Ideal S2048x128 .f32) (x2 : Vec Ideal S256x128 .f32) (x3 : Vec Ideal S128 .f32)
    (x4 : Vec Ideal S128x128 .f32) (x5 : Vec Ideal S128 .f32) (x6 : Vec Ideal S128x128 .f32) (x7 x8 x9 : Vec Ideal S128 .f32)
    (p : Fin 2048) (q : Fin 128) :
    k0_pay1 (F := Ideal) (k0_pay2 (F := Ideal) x0 x1 x2 x3 x4 x5) x6 x7 x8 x9 (ix2 p q)
      = EdgeMlp.mlpAt (R := 2048) x0 x1 x2 x3 x4 x5 x6 x7 x8 x9 p q := by
  rw [pay1_eq, normVec_at]
  unfold EdgeMlp.mlpAt EdgeMlp.mlpRow
  congr 1
  funext j
  rw [affVec_at _ plain128]
  congr 1
  funext k
  exact pay2_at x0 x1 x2 x3 x4 x5 p k

end Cert.KernelIdeal.Pay

end
-- ==== Proof.KIValue.lean ====
/-
  From blocks to the array.  Grid point t writes back rows 2048·t … 2048·t + 2047 of the output array; what it writes is
  the edge network on those rows of the two node arrays (the body's value at an entry, and each input block read where
  the output's rows say).  The 128 points cover every row, so after the region the output array is the edge network of
  the argument arrays, entry by entry.
-/
import proofs.«128313_j69415261438102_1_alg».proof.Proof.KIFrameBody
import proofs.«128313_j69415261438102_1_alg».proof.Proof.KIPayload
import Idealize.ShloMosaic.Lib.Pipeline.Value

set_option maxRecDepth 16384

noncomputable section

namespace Cert.KernelIdeal.HandValue

open Cert.KernelIdeal Cert.KernelIdeal.Gen Cert.KernelIdeal.Hand Idealize.ShloMosaic Idealize.ShloMosaic.TcCoe Idealize.ShloMosaic.ValueIdx Idealize.SL.Sem

variable (m : (ℓ : Loc nD τ sig) → Buf (Elt Ideal) ℓ)

/-! ## The printed index maps, decided over the grid -/

private theorem hz2 : (![0, 0] : Fin 2 → Nat) = fun _ => 0 := funext fun a => by fin_cases a <;> rfl
private theorem hz1 : (![0] : Fin 1 → Nat) = fun _ => 0 := funext fun a => by fin_cases a <;> rfl

/-- The two node windows and the output window are at block (t, 0) at point t. -/
private theorem idx_rows0 : ∀ t : Fin cfg0.N, win0_0.index t (0 : Fin 2) = t.val ∧ win0_0.index t (1 : Fin 2) = 0 :=
  (by decide +kernel : ∀ t : Fin grid0.N, _)
private theorem idx_rows1 : ∀ t : Fin cfg0.N, win0_1.index t (0 : Fin 2) = t.val ∧ win0_1.index t (1 : Fin 2) = 0 :=
  (by decide +kernel : ∀ t : Fin grid0.N, _)
private theorem idx_rows10 : ∀ t : Fin cfg0.N, win0_10.index t (0 : Fin 2) = t.val ∧ win0_10.index t (1 : Fin 2) = 0 :=
  (by decide +kernel : ∀ t : Fin grid0.N, _)
/-- The weight, bias, gain and shift windows are at block zero at every point. -/
private theorem idx_whole2 : ∀ t : Fin cfg0.N, win0_2.index t (0 : Fin 2) = 0 ∧ win0_2.index t (1 : Fin 2) = 0 :=
  (by decide +kernel : ∀ t : Fin grid0.N, _)
private theorem idx_whole3 : ∀ t : Fin cfg0.N, win0_3.index t (0 : Fin 1) = 0 :=
  (by decide +kernel : ∀ t : Fin grid0.N, _)
private theorem idx_whole4 : ∀ t : Fin cfg0.N, win0_4.index t (0 : Fin 2) = 0 ∧ win0_4.index t (1 : Fin 2) = 0 :=
  (by decide +kernel : ∀ t : Fin grid0.N, _)
private theorem idx_whole5 : ∀ t : Fin cfg0.N, win0_5.index t (0 : Fin 1) = 0 :=
  (by decide +kernel : ∀ t : Fin grid0.N, _)
private theorem idx_whole6 : ∀ t : Fin cfg0.N, win0_6.index t (0 : Fin 2) = 0 ∧ win0_6.index t (1 : Fin 2) = 0 :=
  (by decide +kernel : ∀ t : Fin grid0.N, _)
private theorem idx_whole7 : ∀ t : Fin cfg0.N, win0_7.index t (0 : Fin 1) = 0 :=
  (by decide +kernel : ∀ t : Fin grid0.N, _)
private theorem idx_whole8 : ∀ t : Fin cfg0.N, win0_8.index t (0 : Fin 1) = 0 :=
  (by decide +kernel : ∀ t : Fin grid0.N, _)
private theorem idx_whole9 : ∀ t : Fin cfg0.N, win0_9.index t (0 : Fin 1) = 0 :=
  (by decide +kernel : ∀ t : Fin grid0.N, _)

/-! ## Each input block, read off its argument -/

/-- Input window 0's block at point t is rows 2048·t … 2048·t + 2047 of argument 0. -/
private theorem iblk0_apply (c : Dev nD) (t : Fin cfg0.N) (k : S2048x128.Idx) (l : S262144x128.Idx)
    (hl0 : (l 0).val = 2048 * t.val + (k 0).val) (hl1 : (l 1).val = (k 1).val) :
    (iblk m c 0 t : Vec Ideal S2048x128 .f32) k
      = (m ((c : Thread nD τ).loc main_arg0) : S262144x128.Idx → Elt Ideal .f32) l := by
  obtain ⟨e0, e1⟩ := idx_rows0 t
  unfold iblk
  rw [View.read_apply]
  show V m c main_arg0 _ = m ((c : Thread nD τ).loc main_arg0) l
  refine (congrFun (V_eq m c main_arg0) _).trans (congrArg (m ((c : Thread nD τ).loc main_arg0)) ?_)
  funext a
  apply Fin.ext
  match a with
  | ⟨0, _⟩ => show win0_0.index t (0 : Fin 2) * 2048 + 1 * (k 0).val = (l 0).val; rw [e0, hl0]; omega
  | ⟨1, _⟩ => show win0_0.index t (1 : Fin 2) * 128 + 1 * (k 1).val = (l 1).val; rw [e1, hl1]; omega

/-- Input window 1's block at point t is rows 2048·t … 2048·t + 2047 of argument 1. -/
private theorem iblk1_apply (c : Dev nD) (t : Fin cfg0.N) (k : S2048x128.Idx) (l : S262144x128.Idx)
    (hl0 : (l 0).val = 2048 * t.val + (k 0).val) (hl1 : (l 1).val = (k 1).val) :
    (iblk m c 1 t : Vec Ideal S2048x128 .f32) k
      = (m ((c : Thread nD τ).loc main_arg1) : S262144x128.Idx → Elt Ideal .f32) l := by
  obtain ⟨e0, e1⟩ := idx_rows1 t
  unfold iblk
  rw [View.read_apply]
  show V m c main_arg1 _ = m ((c : Thread nD τ).loc main_arg1) l
  refine (congrFun (V_eq m c main_arg1) _).trans (congrArg (m ((c : Thread nD τ).loc main_arg1)) ?_)
  funext a
  apply Fin.ext
  match a with
  | ⟨0, _⟩ => show win0_1.index t (0 : Fin 2) * 2048 + 1 * (k 0).val = (l 0).val; rw [e0, hl0]; omega
  | ⟨1, _⟩ => show win0_1.index t (1 : Fin 2) * 128 + 1 * (k 1).val = (l 1).val; rw [e1, hl1]; omega

/-- Input window 2's block at any point is the whole of argument 7: its block index is zero on every axis and the
    block is as large as the array. -/
private theorem iblk2_eq (c : Dev nD) (t : Fin cfg0.N) :
    (iblk m c 2 t : Vec Ideal S256x128 .f32) = m ((c : Thread nD τ).loc main_arg7) := by
  obtain ⟨e0, e1⟩ := idx_whole2 t
  funext x
  unfold iblk
  rw [View.read_apply]
  show V m c main_arg7 _ = m ((c : Thread nD τ).loc main_arg7) x
  refine (congrFun (V_eq m c main_arg7) _).trans (congrArg (m ((c : Thread nD τ).loc main_arg7)) ?_)
  funext a
  apply Fin.ext
  match a with
  | ⟨0, _⟩ => show win0_2.index t (0 : Fin 2) * 256 + 1 * (x 0).val = (x 0).val; rw [e0]; omega
  | ⟨1, _⟩ => show win0_2.index t (1 : Fin 2) * 128 + 1 * (x 1).val = (x 1).val; rw [e1]; omega

/-- Input window 3's block at any point is the whole of argument 8: its block index is zero and the block is as
    large as the array. -/
private theorem iblk3_eq (c : Dev nD) (t : Fin cfg0.N) :
    (iblk m c 3 t : Vec Ideal S128 .f32) = m ((c : Thread nD τ).loc main_arg8) := by
  have e0 := idx_whole3 t
  funext x
  unfold iblk
  rw [View.read_apply]
  show V m c main_arg8 _ = m ((c : Thread nD τ).loc main_arg8) x
  refine (congrFun (V_eq m c main_arg8) _).trans (congrArg (m ((c : Thread nD τ).loc main_arg8)) ?_)
  funext a
  apply Fin.ext
  match a with
  | ⟨0, _⟩ => show win0_3.index t (0 : Fin 1) * 128 + 1 * (x 0).val = (x 0).val; rw [e0]; omega

/-- Input window 4's block at any point is the whole of argument 9: its block index is zero on every axis and the
    block is as large as the array. -/
private theorem iblk4_eq (c : Dev nD) (t : Fin cfg0.N) :
    (iblk m c 4 t : Vec Ideal S128x128 .f32) = m ((c : Thread nD τ).loc main_arg9) := by
  obtain ⟨e0, e1⟩ := idx_whole4 t
  funext x
  unfold iblk
  rw [View.read_apply]
  show V m c main_arg9 _ = m ((c : Thread nD τ).loc main_arg9) x
  refine (congrFun (V_eq m c main_arg9) _).trans (congrArg (m ((c : Thread nD τ).loc main_arg9)) ?_)
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- Input window 5's block at any point is the whole of argument 10: its block index is zero and the block is as
    large as the array. -/
private theorem iblk5_eq (c : Dev nD) (t : Fin cfg0.N) :
    (iblk m c 5 t : Vec Ideal S128 .f32) = m ((c : Thread nD τ).loc main_arg10) := by
  have e0 := idx_whole5 t
  funext x
  unfold iblk
  rw [View.read_apply]
  show V m c main_arg10 _ = m ((c : Thread nD τ).loc main_arg10) x
  refine (congrFun (V_eq m c main_arg10) _).trans (congrArg (m ((c : Thread nD τ).loc main_arg10)) ?_)
  funext a
  apply Fin.ext
  match a with
  | ⟨0, _⟩ => show win0_5.index t (0 : Fin 1) * 128 + 1 * (x 0).val = (x 0).val; rw [e0]; omega

/-- Input window 6's block at any point is the whole of argument 11: its block index is zero on every axis and the
    block is as large as the array. -/
private theorem iblk6_eq (c : Dev nD) (t : Fin cfg0.N) :
    (iblk m c 6 t : Vec Ideal S128x128 .f32) = m ((c : Thread nD τ).loc main_arg11) := by
  obtain ⟨e0, e1⟩ := idx_whole6 t
  funext x
  unfold iblk
  rw [View.read_apply]
  show V m c main_arg11 _ = m ((c : Thread nD τ).loc main_arg11) x
  refine (congrFun (V_eq m c main_arg11) _).trans (congrArg (m ((c : Thread nD τ).loc main_arg11)) ?_)
  funext a
  apply Fin.ext
  match a with
  | ⟨0, _⟩ => show win0_6.index t (0 : Fin 2) * 128 + 1 * (x 0).val = (x 0).val; rw [e0]; omega
  | ⟨1, _⟩ => show win0_6.index t (1 : Fin 2) * 128 + 1 * (x 1).val = (x 1).val; rw [e1]; omega

/-- Input window 7's block at any point is the whole of argument 12: its block index is zero and the block is as
    large as the array. -/
private theorem iblk7_eq (c : Dev nD) (t : Fin cfg0.N) :
    (iblk m c 7 t : Vec Ideal S128 .f32) = m ((c : Thread nD τ).loc main_arg12) := by
  have e0 := idx_whole7 t
  funext x
  unfold iblk
  rw [View.read_apply]
  show V m c main_arg12 _ = m ((c : Thread nD τ).loc main_arg12) x
  refine (congrFun (V_eq m c main_arg12) _).trans (congrArg (m ((c : Thread nD τ).loc main_arg12)) ?_)
  funext a
  apply Fin.ext
  match a with
  | ⟨0, _⟩ => show win0_7.index t (0 : Fin 1) * 128 + 1 * (x 0).val = (x 0).val; rw [e0]; omega

/-- Input window 8's block at any point is the whole of argument 13: its block index is zero and the block is as
    large as the array. -/
private theorem iblk8_eq (c : Dev nD) (t : Fin cfg0.N) :
    (iblk m c 8 t : Vec Ideal S128 .f32) = m ((c : Thread nD τ).loc main_arg13) := by
  have e0 := idx_whole8 t
  funext x
  unfold iblk
  rw [View.read_apply]
  show V m c main_arg13 _ = m ((c : Thread nD τ).loc main_arg13) x
  refine (congrFun (V_eq m c main_arg13) _).trans (congrArg (m ((c : Thread nD τ).loc main_arg13)) ?_)
  funext a
  apply Fin.ext
  match a with
  | ⟨0, _⟩ => show win0_8.index t (0 : Fin 1) * 128 + 1 * (x 0).val = (x 0).val; rw [e0]; omega

/-- Input window 9's block at any point is the whole of argument 14: its block index is zero and the block is as
    large as the array. -/
private theorem iblk9_eq (c : Dev nD) (t : Fin cfg0.N) :
    (iblk m c 9 t : Vec Ideal S128 .f32) = m ((c : Thread nD τ).loc main_arg14) := by
  have e0 := idx_whole9 t
  funext x
  unfold iblk
  rw [View.read_apply]
  show V m c main_arg14 _ = m ((c : Thread nD τ).loc main_arg14) x
  refine (congrFun (V_eq m c main_arg14) _).trans (congrArg (m ((c : Thread nD τ).loc main_arg14)) ?_)
  funext a
  apply Fin.ext
  match a with
  | ⟨0, _⟩ => show win0_9.index t (0 : Fin 1) * 128 + 1 * (x 0).val = (x 0).val; rw [e0]; omega

/-! ## What a point writes back -/

/-- The body's result at entry (p, q) is the edge network at (p, q) of the ten blocks it loaded: its one store covers
    the buffer, each load reads a whole buffer. -/
private theorem out_at (x0 x1 : Vec Ideal S2048x128 .f32) (x2 : Vec Ideal S256x128 .f32) (x3 : Vec Ideal S128 .f32)
    (x4 : Vec Ideal S128x128 .f32) (x5 : Vec Ideal S128 .f32) (x6 : Vec Ideal S128x128 .f32) (x7 x8 x9 : Vec Ideal S128 .f32)
    (p : Fin 2048) (q : Fin 128) :
    out0_10 x0 x1 x2 x3 x4 x5 x6 x7 x8 x9 (ix2 p q) = EdgeMlp.mlpAt (R := 2048) x0 x1 x2 x3 x4 x5 x6 x7 x8 x9 p q := by
  unfold out0_10
  rw [View.canon_unit_zero hz2]
  simp only [View.ld_unit_zero (S := S2048x128) hz2, View.ld_unit_zero (S := S256x128) hz2,
    View.ld_unit_zero (S := S128x128) hz2, View.ld_unit_zero (S := S128) hz1]
  exact Pay.pay_at x0 x1 x2 x3 x4 x5 x6 x7 x8 x9 p q

/-- The body's result on blocks that are rows 2048·n … of two node arrays A0, A1 and the whole of the eight other
    arrays, at a block entry j, is the edge network of the arrays at the array entry i under j: the network looks at
    its own row only. -/
private theorem point_eq (x0 x1 : Vec Ideal S2048x128 .f32) (x2 : Vec Ideal S256x128 .f32) (x3 : Vec Ideal S128 .f32)
    (x4 : Vec Ideal S128x128 .f32) (x5 : Vec Ideal S128 .f32) (x6 : Vec Ideal S128x128 .f32) (x7 x8 x9 : Vec Ideal S128 .f32)
    (A0 A1 : Vec Ideal S262144x128 .f32) (B2 : Vec Ideal S256x128 .f32) (B3 : Vec Ideal S128 .f32)
    (B4 : Vec Ideal S128x128 .f32) (B5 : Vec Ideal S128 .f32) (B6 : Vec Ideal S128x128 .f32) (B7 B8 B9 : Vec Ideal S128 .f32)
    (n : Nat)
    (h0 : ∀ (k : S2048x128.Idx) (l : S262144x128.Idx), (l 0).val = 2048 * n + (k 0).val → (l 1).val = (k 1).val → x0 k = A0 l)
    (h1 : ∀ (k : S2048x128.Idx) (l : S262144x128.Idx), (l 0).val = 2048 * n + (k 0).val → (l 1).val = (k 1).val → x1 k = A1 l)
    (e2 : x2 = B2) (e3 : x3 = B3) (e4 : x4 = B4) (e5 : x5 = B5) (e6 : x6 = B6) (e7 : x7 = B7) (e8 : x8 = B8) (e9 : x9 = B9)
    (j : S2048x128.Idx) (i : S262144x128.Idx) (hi0 : (i 0).val = 2048 * n + (j 0).val) (hi1 : (i 1).val = (j 1).val) :
    out0_10 x0 x1 x2 x3 x4 x5 x6 x7 x8 x9 j = EdgeMlp.mlpArr (R := 262144) A0 A1 B2 B3 B4 B5 B6 B7 B8 B9 i := by
  subst e2 e3 e4 e5 e6 e7 e8 e9
  obtain ⟨p, q, rfl⟩ : ∃ (p : Fin 2048) (q : Fin 128), j = ix2 p q := ⟨j 0, j 1, eq_ix2 j⟩
  obtain ⟨r, q', rfl⟩ : ∃ (r : Fin 262144) (q' : Fin 128), i = ix2 r q' := ⟨i 0, i 1, eq_ix2 i⟩
  have hq : q'.val = q.val := hi1
  obtain rfl : q = q' := Fin.ext hq.symm
  have hr : r.val = 2048 * n + p.val := hi0
  rw [out_at, EdgeMlp.mlpArr_apply]
  exact EdgeMlp.mlpAt_block A0 A1 x0 x1 x2 x3 x4 x5 x6 x7 x8 x9 r p q
    (fun k => h0 (ix2 p k) (ix2 r k) hr rfl) (fun k => h1 (ix2 p k) (ix2 r k) hr rfl)

/-- What point t writes back is block t of the edge network of the argument arrays. -/
theorem flushed_eq (c : Dev nD) (t : Fin cfg0.N) :
    (dats (F := Ideal) m 0 c).flushed 10 t
      = ((cfg0.win 10).blk t).view.read (Elt Ideal) (EdgeMlp.mlpArr (R := 262144) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 10).cut (grid0.coords t) ((dats (F := Ideal) m 0 c).after 10 t) = _
  rw [after0_10]
  obtain ⟨e0, e1⟩ := idx_rows10 t
  funext j
  rw [View.read_apply]
  refine point_eq (iblk m c 0 t) (iblk m c 1 t) (iblk m c 2 t) (iblk m c 3 t) (iblk m c 4 t) (iblk m c 5 t) (iblk m c 6 t)
    (iblk m c 7 t) (iblk m c 8 t) (iblk m c 9 t)
    (m ((c : Thread nD τ).loc main_arg0)) (m ((c : Thread nD τ).loc main_arg1)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) t.val
    (iblk0_apply m c t) (iblk1_apply m c t) (iblk2_eq m c t) (iblk3_eq m c t) (iblk4_eq m c t) (iblk5_eq m c t)
    (iblk6_eq m c t) (iblk7_eq m c t) (iblk8_eq m c t) (iblk9_eq m c t) j (((cfg0.win 10).blk t).view.emb j) ?_ ?_
  · show win0_10.index t (0 : Fin 2) * 2048 + 1 * (j 0).val = 2048 * t.val + (j 0).val
    rw [e0]; omega
  · show win0_10.index t (1 : Fin 2) * 128 + 1 * (j 1).val = (j 1).val
    rw [e1]; omega

/-! ## The cover -/

/-- An entry of the output array is in point t's block iff each coordinate is in the block's range on its axis. -/
private theorem mem_blk (t : Fin cfg0.N) (i : S262144x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v0).slice (win0_10.rect t)).set ↔ _
  rw [View.set_slice_whole, Rect.mem_set_unit]
  exact Iff.rfl

/-- Row r of the output array is in the block of point r / 2048, which writes back. -/
private theorem cover (i : S262144x128.Idx) :
    ∃ t : Fin cfg0.N, (cfg0.win 10).flush t = true ∧ i ∈ ((cfg0.win 10).blk t).view.set := by
  have hi0 : (i 0).val < 262144 := (i 0).isLt
  have hi1 : (i 1).val < 128 := (i 1).isLt
  obtain ⟨t, ht⟩ : ∃ t : Fin cfg0.N, t.val = (i 0).val / 2048 :=
    ⟨⟨(i 0).val / 2048, (by omega : (i 0).val / 2048 < 128).trans_eq N_0.symm⟩, rfl⟩
  obtain ⟨e0, e1⟩ := idx_rows10 t
  refine ⟨t, flush0_10 t, ?_⟩
  rw [mem_blk]
  intro a
  match a with
  | ⟨0, _⟩ =>
    show win0_10.index t (0 : Fin 2) * 2048 ≤ (i 0).val ∧ (i 0).val < win0_10.index t (0 : Fin 2) * 2048 + 2048
    rw [e0, ht]; omega
  | ⟨1, _⟩ =>
    show win0_10.index t (1 : Fin 2) * 128 ≤ (i 1).val ∧ (i 1).val < win0_10.index t (1 : Fin 2) * 128 + 128
    rw [e1]; omega

/-! ## The array after the region -/

/-- After the region the output array is the edge network of the argument arrays. -/
theorem final (c : Dev nD) :
    (dats (F := Ideal) m 0 c).arrAt 10 cfg0.N
      = EdgeMlp.mlpArr (R := 262144) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats (F := Ideal) m 0 c).arrAt_eq_of_cover 10 _ (fun t _ => flushed_eq m c t) cover

end Cert.KernelIdeal.HandValue

end
-- ==== Proof.RefOpsList.lean ====
import proofs.«128313_j69415261438102_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 80 operations. -/
abbrev opsMlp : List (HloOp τ sig (Elt F)) :=
  [ StableHlo.binary main_arg0 main_arg1 main_v0 ((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)),
    StableHlo.binary main_v0 main_arg7 main_v1 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    StableHlo.unary main_arg8 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S262144x128 ![0, 1] bcast_S1x128_S262144x128_0_1 : (⟨S1x128, .f32⟩ : BufTy).Contents (Elt F) → (⟨S262144x128, .f32⟩ : BufTy).Contents (Elt F)),
    StableHlo.binary main_v1 main_v3 main_v4 (addf : (⟨S262144x128, .f32⟩ : BufTy).Contents (Elt F) → (⟨S262144x128, .f32⟩ : BufTy).Contents (Elt F) → (⟨S262144x128, .f32⟩ : BufTy).Contents (Elt F)),
    StableHlo.TRef.nullary main_call0.cst (constant S_ .f32 0x3FD62D7D#32),
    StableHlo.TRef.nullary main_call0.call0.cst (constant S_ .f32 0x00000000#32),
    StableHlo.TRef.unary main_call0.call0.cst main_call0.call0.v0 (broadcastInDim S262144x128 ![] bcast_S_S262144x128),
    StableHlo.TRef.binary (.of main_v4 : StableHlo.TRef sig ⟨S262144x128, .f32⟩) main_call0.call0.v0 main_call0.call0.v1 (cmpf .ogt),
    StableHlo.TRef.nullary main_call0.call0.cst_0 (constant S_ .f32 0x00000000#32),
    StableHlo.TRef.unary main_call0.call0.cst_0 main_call0.call0.v2 (broadcastInDim S262144x128 ![] bcast_S_S262144x128),
    StableHlo.TRef.binary (.of main_v4 : StableHlo.TRef sig ⟨S262144x128, .f32⟩) main_call0.call0.v2 main_call0.call0.v3 (cmpf .ogt),
    StableHlo.TRef.nullary main_call0.call0.cst_1 (constant S_ .f32 0x00000000#32),
    StableHlo.TRef.unary main_call0.call0.cst_1 main_call0.call0.call0.v0 id,
    StableHlo.TRef.unary main_call0.call0.call0.v0 main_call0.call0.call0.v1 (broadcastInDim S262144x128 ![] bcast_S_S262144x128),
    StableHlo.TRef.ternary main_call0.call0.v3 main_call0.call0.call0.v1 (.of main_v4 : StableHlo.TRef sig ⟨S262144x128, .f32⟩) main_call0.call0.call0.v2 select,
    StableHlo.TRef.unary main_call0.call0.call0.v2 main_call0.call0.v5 Host.expm1,
    StableHlo.TRef.unary main_call0.cst main_call0.call0.v6 id,
    StableHlo.TRef.unary main_call0.call0.v6 main_call0.call0.v7 (broadcastInDim S262144x128 ![] bcast_S_S262144x128),
    StableHlo.TRef.binary main_call0.call0.v7 main_call0.call0.v5 main_call0.call0.v8 mulf,
    StableHlo.TRef.ternary main_call0.call0.v1 (.of main_v4 : StableHlo.TRef sig ⟨S262144x128, .f32⟩) main_call0.call0.v8 main_call0.call0.call1.v0 select,
    StableHlo.TRef.nullary main_call0.cst_0 (constant S_ .f32 0x3F867D5F#32),
    StableHlo.TRef.unary main_call0.cst_0 main_call0.v1 (broadcastInDim S262144x128 ![] bcast_S_S262144x128),
    StableHlo.TRef.binary main_call0.v1 main_call0.call0.call1.v0 main_call0.v2 mulf,
    StableHlo.binary main_v5 main_arg9 main_v6 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg10 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S262144x128 ![0, 1] bcast_S1x128_S262144x128_0_1 : (⟨S1x128, .f32⟩ : BufTy).Contents (Elt F) → (⟨S262144x128, .f32⟩ : BufTy).Contents (Elt F)),
    StableHlo.binary main_v6 main_v8 main_v9 (addf : (⟨S262144x128, .f32⟩ : BufTy).Contents (Elt F) → (⟨S262144x128, .f32⟩ : BufTy).Contents (Elt F) → (⟨S262144x128, .f32⟩ : BufTy).Contents (Elt F)),
    StableHlo.TRef.nullary main_call1.cst (constant S_ .f32 0x3FD62D7D#32),
    StableHlo.TRef.nullary main_call1.call0.cst (constant S_ .f32 0x00000000#32),
    StableHlo.TRef.unary main_call1.call0.cst main_call1.call0.v0 (broadcastInDim S262144x128 ![] bcast_S_S262144x128),
    StableHlo.TRef.binary (.of main_v9 : StableHlo.TRef sig ⟨S262144x128, .f32⟩) main_call1.call0.v0 main_call1.call0.v1 (cmpf .ogt),
    StableHlo.TRef.nullary main_call1.call0.cst_0 (constant S_ .f32 0x00000000#32),
    StableHlo.TRef.unary main_call1.call0.cst_0 main_call1.call0.v2 (broadcastInDim S262144x128 ![] bcast_S_S262144x128),
    StableHlo.TRef.binary (.of main_v9 : StableHlo.TRef sig ⟨S262144x128, .f32⟩) main_call1.call0.v2 main_call1.call0.v3 (cmpf .ogt),
    StableHlo.TRef.nullary main_call1.call0.cst_1 (constant S_ .f32 0x00000000#32),
    StableHlo.TRef.unary main_call1.call0.cst_1 main_call1.call0.call0.v0 id,
    StableHlo.TRef.unary main_call1.call0.call0.v0 main_call1.call0.call0.v1 (broadcastInDim S262144x128 ![] bcast_S_S262144x128),
    StableHlo.TRef.ternary main_call1.call0.v3 main_call1.call0.call0.v1 (.of main_v9 : StableHlo.TRef sig ⟨S262144x128, .f32⟩) main_call1.call0.call0.v2 select,
    StableHlo.TRef.unary main_call1.call0.call0.v2 main_call1.call0.v5 Host.expm1,
    StableHlo.TRef.unary main_call1.cst main_call1.call0.v6 id,
    StableHlo.TRef.unary main_call1.call0.v6 main_call1.call0.v7 (broadcastInDim S262144x128 ![] bcast_S_S262144x128),
    StableHlo.TRef.binary main_call1.call0.v7 main_call1.call0.v5 main_call1.call0.v8 mulf,
    StableHlo.TRef.ternary main_call1.call0.v1 (.of main_v9 : StableHlo.TRef sig ⟨S262144x128, .f32⟩) main_call1.call0.v8 main_call1.call0.call1.v0 select,
    StableHlo.TRef.nullary main_call1.cst_0 (constant S_ .f32 0x3F867D5F#32),
    StableHlo.TRef.unary main_call1.cst_0 main_call1.v1 (broadcastInDim S262144x128 ![] bcast_S_S262144x128),
    StableHlo.TRef.binary main_call1.v1 main_call1.call0.call1.v0 main_call1.v2 mulf,
    StableHlo.binary main_v10 main_arg11 main_v11 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg12 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S262144x128 ![0, 1] bcast_S1x128_S262144x128_0_1 : (⟨S1x128, .f32⟩ : BufTy).Contents (Elt F) → (⟨S262144x128, .f32⟩ : BufTy).Contents (Elt F)),
    StableHlo.binary main_v11 main_v13 main_v14 (addf : (⟨S262144x128, .f32⟩ : BufTy).Contents (Elt F) → (⟨S262144x128, .f32⟩ : BufTy).Contents (Elt F) → (⟨S262144x128, .f32⟩ : BufTy).Contents (Elt F)),
    StableHlo.nullary main_cst (constant S_ .f32 0x00000000#32),
    StableHlo.binary main_v14 main_cst main_v15 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    StableHlo.unary main_v15 main_v16 (broadcastInDim S262144x1 ![0] bcast_S262144_S262144x1_0 : (⟨S262144, .f32⟩ : BufTy).Contents (Elt F) → (⟨S262144x1, .f32⟩ : BufTy).Contents (Elt F)),
    StableHlo.nullary main_cst_0 (constant S_ .f32 0x43000000#32),
    StableHlo.unary main_cst_0 main_v17 (broadcastInDim S262144x1 ![] bcast_S_S262144x1 : (⟨S_, .f32⟩ : BufTy).Contents (Elt F) → (⟨S262144x1, .f32⟩ : BufTy).Contents (Elt F)),
    StableHlo.binary main_v16 main_v17 main_v18 (Host.divf : (⟨S262144x1, .f32⟩ : BufTy).Contents (Elt F) → (⟨S262144x1, .f32⟩ : BufTy).Contents (Elt F) → (⟨S262144x1, .f32⟩ : BufTy).Contents (Elt F)),
    StableHlo.unary main_v18 main_v19 (broadcastInDim S262144x128 ![0, 1] bcast_S262144x1_S262144x128_0_1 : (⟨S262144x1, .f32⟩ : BufTy).Contents (Elt F) → (⟨S262144x128, .f32⟩ : BufTy).Contents (Elt F)),
    StableHlo.binary main_v14 main_v19 main_v20 (subf : (⟨S262144x128, .f32⟩ : BufTy).Contents (Elt F) → (⟨S262144x128, .f32⟩ : BufTy).Contents (Elt F) → (⟨S262144x128, .f32⟩ : BufTy).Contents (Elt F)),
    StableHlo.binary main_v20 main_v20 main_v21 (mulf : (⟨S262144x128, .f32⟩ : BufTy).Contents (Elt F) → (⟨S262144x128, .f32⟩ : BufTy).Contents (Elt F) → (⟨S262144x128, .f32⟩ : BufTy).Contents (Elt F)),
    StableHlo.nullary main_cst_1 (constant S_ .f32 0x00000000#32),
    StableHlo.binary main_v21 main_cst_1 main_v22 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    StableHlo.unary main_v22 main_v23 (broadcastInDim S262144x1 ![0] bcast_S262144_S262144x1_0 : (⟨S262144, .f32⟩ : BufTy).Contents (Elt F) → (⟨S262144x1, .f32⟩ : BufTy).Contents (Elt F)),
    StableHlo.nullary main_cst_2 (constant S_ .f32 0x43000000#32),
    StableHlo.unary main_cst_2 main_v24 (broadcastInDim S262144x1 ![] bcast_S_S262144x1 : (⟨S_, .f32⟩ : BufTy).Contents (Elt F) → (⟨S262144x1, .f32⟩ : BufTy).Contents (Elt F)),
    StableHlo.binary main_v23 main_v24 main_v25 (Host.divf : (⟨S262144x1, .f32⟩ : BufTy).Contents (Elt F) → (⟨S262144x1, .f32⟩ : BufTy).Contents (Elt F) → (⟨S262144x1, .f32⟩ : BufTy).Contents (Elt F)),
    StableHlo.unary main_v18 main_v26 (broadcastInDim S262144x128 ![0, 1] bcast_S262144x1_S262144x128_0_1 : (⟨S262144x1, .f32⟩ : BufTy).Contents (Elt F) → (⟨S262144x128, .f32⟩ : BufTy).Contents (Elt F)),
    StableHlo.binary main_v14 main_v26 main_v27 (subf : (⟨S262144x128, .f32⟩ : BufTy).Contents (Elt F) → (⟨S262144x128, .f32⟩ : BufTy).Contents (Elt F) → (⟨S262144x128, .f32⟩ : BufTy).Contents (Elt F)),
    StableHlo.nullary main_cst_3 (constant S_ .f32 0x3727C5AC#32),
    StableHlo.unary main_cst_3 main_v28 (broadcastInDim S262144x1 ![] bcast_S_S262144x1 : (⟨S_, .f32⟩ : BufTy).Contents (Elt F) → (⟨S262144x1, .f32⟩ : BufTy).Contents (Elt F)),
    StableHlo.binary main_v25 main_v28 main_v29 (addf : (⟨S262144x1, .f32⟩ : BufTy).Contents (Elt F) → (⟨S262144x1, .f32⟩ : BufTy).Contents (Elt F) → (⟨S262144x1, .f32⟩ : BufTy).Contents (Elt F)),
    StableHlo.unary main_v29 main_v30 (Host.rsqrt : (⟨S262144x1, .f32⟩ : BufTy).Contents (Elt F) → (⟨S262144x1, .f32⟩ : BufTy).Contents (Elt F)),
    StableHlo.unary main_v30 main_v31 (broadcastInDim S262144x128 ![0, 1] bcast_S262144x1_S262144x128_0_1 : (⟨S262144x1, .f32⟩ : BufTy).Contents (Elt F) → (⟨S262144x128, .f32⟩ : BufTy).Contents (Elt F)),
    StableHlo.binary main_v27 main_v31 main_v32 (mulf : (⟨S262144x128, .f32⟩ : BufTy).Contents (Elt F) → (⟨S262144x128, .f32⟩ : BufTy).Contents (Elt F) → (⟨S262144x128, .f32⟩ : BufTy).Contents (Elt F)),
    StableHlo.unary main_arg13 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S262144x128 ![0, 1] bcast_S1x128_S262144x128_0_1 : (⟨S1x128, .f32⟩ : BufTy).Contents (Elt F) → (⟨S262144x128, .f32⟩ : BufTy).Contents (Elt F)),
    StableHlo.binary main_v32 main_v34 main_v35 (mulf : (⟨S262144x128, .f32⟩ : BufTy).Contents (Elt F) → (⟨S262144x128, .f32⟩ : BufTy).Contents (Elt F) → (⟨S262144x128, .f32⟩ : BufTy).Contents (Elt F)),
    StableHlo.unary main_arg14 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S262144x128 ![0, 1] bcast_S1x128_S262144x128_0_1 : (⟨S1x128, .f32⟩ : BufTy).Contents (Elt F) → (⟨S262144x128, .f32⟩ : BufTy).Contents (Elt F)),
    StableHlo.binary main_v35 main_v37 main_v38 (addf : (⟨S262144x128, .f32⟩ : BufTy).Contents (Elt F) → (⟨S262144x128, .f32⟩ : BufTy).Contents (Elt F) → (⟨S262144x128, .f32⟩ : BufTy).Contents (Elt F)) ]

theorem opsMlp_sub : (opsMlp : List (HloOp τ sig (Elt F))).Forall fun op => op.bufs ⊆ tcRefs τ sig :=
  ⟨StableHlo.binary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- 16 operations. -/
abbrev opsT0 : List (HloOp τ sig (Elt F)) :=
  [ StableHlo.nullary main_cst_4 (constant S_ .f32 0x00000000#32),
    StableHlo.unary main_cst_4 main_v39 (broadcastInDim S65536x128 ![] bcast_S_S65536x128 : (⟨S_, .f32⟩ : BufTy).Contents (Elt F) → (⟨S65536x128, .f32⟩ : BufTy).Contents (Elt F)),
    StableHlo.unary main_arg3 main_v40 (broadcastInDim S262144x1 ![0] bcast_S262144_S262144x1_0 : (⟨S262144, .i32⟩ : BufTy).Contents (Elt F) → (⟨S262144x1, .i32⟩ : BufTy).Contents (Elt F)),
    StableHlo.ternary main_v39 main_v40 main_v38 main_v41 ((fun x i u => Host.scatterAdd scatter_S65536x128_S262144x1_S262144x128_1_0_0_1 x i u) : (⟨S65536x128, .f32⟩ : BufTy).Contents (Elt F) → (⟨S262144x1, .i32⟩ : BufTy).Contents (Elt F) → (⟨S262144x128, .f32⟩ : BufTy).Contents (Elt F) → (⟨S65536x128, .f32⟩ : BufTy).Contents (Elt F)),
    StableHlo.nullary main_cst_5 (constant S_ .f32 0x3F800000#32),
    StableHlo.unary main_cst_5 main_v42 (broadcastInDim S262144 ![] bcast_S_S262144 : (⟨S_, .f32⟩ : BufTy).Contents (Elt F) → (⟨S262144, .f32⟩ : BufTy).Contents (Elt F)),
    StableHlo.nullary main_cst_6 (constant S_ .f32 0x00000000#32),
    StableHlo.unary main_cst_6 main_v43 (broadcastInDim S65536 ![] bcast_S_S65536 : (⟨S_, .f32⟩ : BufTy).Contents (Elt F) → (⟨S65536, .f32⟩ : BufTy).Contents (Elt F)),
    StableHlo.unary main_arg3 main_v44 (broadcastInDim S262144x1 ![0] bcast_S262144_S262144x1_0 : (⟨S262144, .i32⟩ : BufTy).Contents (Elt F) → (⟨S262144x1, .i32⟩ : BufTy).Contents (Elt F)),
    StableHlo.ternary main_v43 main_v44 main_v42 main_v45 ((fun x i u => Host.scatterAdd scatter_S65536_S262144x1_S262144_n_0_0_1 x i u) : (⟨S65536, .f32⟩ : BufTy).Contents (Elt F) → (⟨S262144x1, .i32⟩ : BufTy).Contents (Elt F) → (⟨S262144, .f32⟩ : BufTy).Contents (Elt F) → (⟨S65536, .f32⟩ : BufTy).Contents (Elt F)),
    StableHlo.nullary main_cst_7 (constant S_ .f32 0x3F800000#32),
    StableHlo.unary main_cst_7 main_v46 (broadcastInDim S65536 ![] bcast_S_S65536 : (⟨S_, .f32⟩ : BufTy).Contents (Elt F) → (⟨S65536, .f32⟩ : BufTy).Contents (Elt F)),
    StableHlo.binary main_v45 main_v46 main_v47 (maximumf : (⟨S65536, .f32⟩ : BufTy).Contents (Elt F) → (⟨S65536, .f32⟩ : BufTy).Contents (Elt F) → (⟨S65536, .f32⟩ : BufTy).Contents (Elt F)),
    StableHlo.unary main_v47 main_v48 (broadcastInDim S65536x1 ![0] bcast_S65536_S65536x1_0 : (⟨S65536, .f32⟩ : BufTy).Contents (Elt F) → (⟨S65536x1, .f32⟩ : BufTy).Contents (Elt F)),
    StableHlo.unary main_v48 main_v49 (broadcastInDim S65536x128 ![0, 1] bcast_S65536x1_S65536x128_0_1 : (⟨S65536x1, .f32⟩ : BufTy).Contents (Elt F) → (⟨S65536x128, .f32⟩ : BufTy).Contents (Elt F)),
    StableHlo.binary main_v41 main_v49 main_v50 (Host.divf : (⟨S65536x128, .f32⟩ : BufTy).Contents (Elt F) → (⟨S65536x128, .f32⟩ : BufTy).Contents (Elt F) → (⟨S65536x128, .f32⟩ : BufTy).Contents (Elt F)) ]

theorem opsT0_sub : (opsT0 : List (HloOp τ sig (Elt F))).Forall fun op => op.bufs ⊆ tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

/-- 67 operations. -/
abbrev opsT1 : List (HloOp τ sig (Elt F)) :=
  [ StableHlo.nullary main_c (constantI S_ 32 0#32),
    StableHlo.unary main_c main_v51 (broadcastInDim S57344 ![] bcast_S_S57344 : (⟨S_, .i32⟩ : BufTy).Contents (Elt F) → (⟨S57344, .i32⟩ : BufTy).Contents (Elt F)),
    StableHlo.binary main_arg4 main_v51 main_v52 (cmpi .slt : (⟨S57344, .i32⟩ : BufTy).Contents (Elt F) → (⟨S57344, .i32⟩ : BufTy).Contents (Elt F) → (⟨S57344, .i1⟩ : BufTy).Contents (Elt F)),
    StableHlo.nullary main_c_8 (constantI S_ 32 65536#32),
    StableHlo.unary main_c_8 main_v53 (broadcastInDim S57344 ![] bcast_S_S57344 : (⟨S_, .i32⟩ : BufTy).Contents (Elt F) → (⟨S57344, .i32⟩ : BufTy).Contents (Elt F)),
    StableHlo.binary main_arg4 main_v53 main_v54 (addi : (⟨S57344, .i32⟩ : BufTy).Contents (Elt F) → (⟨S57344, .i32⟩ : BufTy).Contents (Elt F) → (⟨S57344, .i32⟩ : BufTy).Contents (Elt F)),
    StableHlo.ternary main_v52 main_v54 main_arg4 main_v55 (select : (⟨S57344, .i1⟩ : BufTy).Contents (Elt F) → (⟨S57344, .i32⟩ : BufTy).Contents (Elt F) → (⟨S57344, .i32⟩ : BufTy).Contents (Elt F) → (⟨S57344, .i32⟩ : BufTy).Contents (Elt F)),
    StableHlo.unary main_v55 main_v56 (broadcastInDim S57344x1 ![0] bcast_S57344_S57344x1_0 : (⟨S57344, .i32⟩ : BufTy).Contents (Elt F) → (⟨S57344x1, .i32⟩ : BufTy).Contents (Elt F)),
    StableHlo.binary main_v50 main_v56 main_v57 ((fun x i => Host.gather gather_S65536x128_S57344x1_S57344x128_1_0_n_n_0_1_1128 x i) : (⟨S65536x128, .f32⟩ : BufTy).Contents (Elt F) → (⟨S57344x1, .i32⟩ : BufTy).Contents (Elt F) → (⟨S57344x128, .f32⟩ : BufTy).Contents (Elt F)),
    StableHlo.unary main_arg6 main_v58 ((extractStridedSlice S1x2097152 ![0, 0] · slices_S2x2097152_S1x2097152_0_0) : (⟨S2x2097152, .i32⟩ : BufTy).Contents (Elt F) → (⟨S1x2097152, .i32⟩ : BufTy).Contents (Elt F)),
    StableHlo.reshape main_v58 main_v59 rfl shapeCasts_S1x2097152_S2097152,
    StableHlo.nullary main_c_9 (constantI S_ 32 0#32),
    StableHlo.unary main_c_9 main_v60 (broadcastInDim S2097152 ![] bcast_S_S2097152 : (⟨S_, .i32⟩ : BufTy).Contents (Elt F) → (⟨S2097152, .i32⟩ : BufTy).Contents (Elt F)),
    StableHlo.binary main_v59 main_v60 main_v61 (cmpi .slt : (⟨S2097152, .i32⟩ : BufTy).Contents (Elt F) → (⟨S2097152, .i32⟩ : BufTy).Contents (Elt F) → (⟨S2097152, .i1⟩ : BufTy).Contents (Elt F)),
    StableHlo.nullary main_c_10 (constantI S_ 32 262144#32),
    StableHlo.unary main_c_10 main_v62 (broadcastInDim S2097152 ![] bcast_S_S2097152 : (⟨S_, .i32⟩ : BufTy).Contents (Elt F) → (⟨S2097152, .i32⟩ : BufTy).Contents (Elt F)),
    StableHlo.binary main_v59 main_v62 main_v63 (addi : (⟨S2097152, .i32⟩ : BufTy).Contents (Elt F) → (⟨S2097152, .i32⟩ : BufTy).Contents (Elt F) → (⟨S2097152, .i32⟩ : BufTy).Contents (Elt F)),
    StableHlo.ternary main_v61 main_v63 main_v59 main_v64 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v64 main_v65 (broadcastInDim S2097152x1 ![0] bcast_S2097152_S2097152x1_0 : (⟨S2097152, .i32⟩ : BufTy).Contents (Elt F) → (⟨S2097152x1, .i32⟩ : BufTy).Contents (Elt F)),
    StableHlo.binary main_arg5 main_v65 main_v66 ((fun x i => Host.gather gather_S262144_S2097152x1_S2097152_n_0_n_n_0_1_1 x i) : (⟨S262144, .i32⟩ : BufTy).Contents (Elt F) → (⟨S2097152x1, .i32⟩ : BufTy).Contents (Elt F) → (⟨S2097152, .i32⟩ : BufTy).Contents (Elt F)),
    StableHlo.unary main_arg6 main_v67 ((extractStridedSlice S1x2097152 ![1, 0] · slices_S2x2097152_S1x2097152_1_0) : (⟨S2x2097152, .i32⟩ : BufTy).Contents (Elt F) → (⟨S1x2097152, .i32⟩ : BufTy).Contents (Elt F)),
    StableHlo.reshape main_v67 main_v68 rfl shapeCasts_S1x2097152_S2097152,
    StableHlo.nullary main_c_11 (constantI S_ 32 0#32),
    StableHlo.unary main_c_11 main_v69 (broadcastInDim S2097152 ![] bcast_S_S2097152 : (⟨S_, .i32⟩ : BufTy).Contents (Elt F) → (⟨S2097152, .i32⟩ : BufTy).Contents (Elt F)),
    StableHlo.binary main_v68 main_v69 main_v70 (cmpi .slt : (⟨S2097152, .i32⟩ : BufTy).Contents (Elt F) → (⟨S2097152, .i32⟩ : BufTy).Contents (Elt F) → (⟨S2097152, .i1⟩ : BufTy).Contents (Elt F)),
    StableHlo.nullary main_c_12 (constantI S_ 32 262144#32),
    StableHlo.unary main_c_12 main_v71 (broadcastInDim S2097152 ![] bcast_S_S2097152 : (⟨S_, .i32⟩ : BufTy).Contents (Elt F) → (⟨S2097152, .i32⟩ : BufTy).Contents (Elt F)),
    StableHlo.binary main_v68 main_v71 main_v72 (addi : (⟨S2097152, .i32⟩ : BufTy).Contents (Elt F) → (⟨S2097152, .i32⟩ : BufTy).Contents (Elt F) → (⟨S2097152, .i32⟩ : BufTy).Contents (Elt F)),
    StableHlo.ternary main_v70 main_v72 main_v68 main_v73 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v73 main_v74 (broadcastInDim S2097152x1 ![0] bcast_S2097152_S2097152x1_0 : (⟨S2097152, .i32⟩ : BufTy).Contents (Elt F) → (⟨S2097152x1, .i32⟩ : BufTy).Contents (Elt F)),
    StableHlo.binary main_arg5 main_v74 main_v75 ((fun x i => Host.gather gather_S262144_S2097152x1_S2097152_n_0_n_n_0_1_1 x i) : (⟨S262144, .i32⟩ : BufTy).Contents (Elt F) → (⟨S2097152x1, .i32⟩ : BufTy).Contents (Elt F) → (⟨S2097152, .i32⟩ : BufTy).Contents (Elt F)),
    StableHlo.binary main_v66 main_v75 main_v76 (cmpi .eq : (⟨S2097152, .i32⟩ : BufTy).Contents (Elt F) → (⟨S2097152, .i32⟩ : BufTy).Contents (Elt F) → (⟨S2097152, .i1⟩ : BufTy).Contents (Elt F)),
    StableHlo.nullary main_c_13 (constantI S_ 32 65536#32),
    StableHlo.TRef.unary (.of main_c_13 : StableHlo.TRef sig ⟨S_, .i32⟩) main_call2.v0 id,
    StableHlo.TRef.unary main_call2.v0 main_call2.v1 (broadcastInDim S2097152 ![] bcast_S_S2097152),
    StableHlo.TRef.ternary (.of main_v76 : StableHlo.TRef sig ⟨S2097152, .i1⟩) main_call2.v1 (.of main_v66 : StableHlo.TRef sig ⟨S2097152, .i32⟩) main_call2.v2 select,
    StableHlo.nullary main_c_14 (constantI S_ 32 65536#32),
    StableHlo.TRef.unary (.of main_c_14 : StableHlo.TRef sig ⟨S_, .i32⟩) main_call3.v0 id,
    StableHlo.TRef.unary main_call3.v0 main_call3.v1 (broadcastInDim S2097152 ![] bcast_S_S2097152),
    StableHlo.TRef.ternary (.of main_v76 : StableHlo.TRef sig ⟨S2097152, .i1⟩) main_call3.v1 (.of main_v75 : StableHlo.TRef sig ⟨S2097152, .i32⟩) main_call3.v2 select,
    StableHlo.TRef.nullary main_call4.v0 (iotaInDim S2097152 32 0),
    StableHlo.TRef.ternary (.of main_v77 : StableHlo.TRef sig ⟨S2097152, .i32⟩) (.of main_v78 : StableHlo.TRef sig ⟨S2097152, .i32⟩) main_call4.v0 main_call4.v1_0 (fun x y z => (Host.sort3 S2097152 0 comparator_i32_i32_i32_d0 x y z).1),
    StableHlo.TRef.ternary (.of main_v77 : StableHlo.TRef sig ⟨S2097152, .i32⟩) (.of main_v78 : StableHlo.TRef sig ⟨S2097152, .i32⟩) main_call4.v0 main_call4.v1_1 (fun x y z => (Host.sort3 S2097152 0 comparator_i32_i32_i32_d0 x y z).2.1),
    StableHlo.TRef.ternary (.of main_v77 : StableHlo.TRef sig ⟨S2097152, .i32⟩) (.of main_v78 : StableHlo.TRef sig ⟨S2097152, .i32⟩) main_call4.v0 main_call4.v1_2 (fun x y z => (Host.sort3 S2097152 0 comparator_i32_i32_i32_d0 x y z).2.2),
    StableHlo.nullary main_c_15 (constantI S_ 32 0#32),
    StableHlo.unary main_c_15 main_v80 (broadcastInDim S2097152 ![] bcast_S_S2097152 : (⟨S_, .i32⟩ : BufTy).Contents (Elt F) → (⟨S2097152, .i32⟩ : BufTy).Contents (Elt F)),
    StableHlo.binary main_v79 main_v80 main_v81 (cmpi .slt : (⟨S2097152, .i32⟩ : BufTy).Contents (Elt F) → (⟨S2097152, .i32⟩ : BufTy).Contents (Elt F) → (⟨S2097152, .i1⟩ : BufTy).Contents (Elt F)),
    StableHlo.nullary main_c_16 (constantI S_ 32 2097152#32),
    StableHlo.unary main_c_16 main_v82 (broadcastInDim S2097152 ![] bcast_S_S2097152 : (⟨S_, .i32⟩ : BufTy).Contents (Elt F) → (⟨S2097152, .i32⟩ : BufTy).Contents (Elt F)),
    StableHlo.binary main_v79 main_v82 main_v83 (addi : (⟨S2097152, .i32⟩ : BufTy).Contents (Elt F) → (⟨S2097152, .i32⟩ : BufTy).Contents (Elt F) → (⟨S2097152, .i32⟩ : BufTy).Contents (Elt F)),
    StableHlo.ternary main_v81 main_v83 main_v79 main_v84 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v84 main_v85 (broadcastInDim S2097152x1 ![0] bcast_S2097152_S2097152x1_0 : (⟨S2097152, .i32⟩ : BufTy).Contents (Elt F) → (⟨S2097152x1, .i32⟩ : BufTy).Contents (Elt F)),
    StableHlo.binary main_v77 main_v85 main_v86 ((fun x i => Host.gather gather_S2097152_S2097152x1_S2097152_n_0_n_n_0_1_1 x i) : (⟨S2097152, .i32⟩ : BufTy).Contents (Elt F) → (⟨S2097152x1, .i32⟩ : BufTy).Contents (Elt F) → (⟨S2097152, .i32⟩ : BufTy).Contents (Elt F)),
    StableHlo.nullary main_c_17 (constantI S_ 32 0#32),
    StableHlo.unary main_c_17 main_v87 (broadcastInDim S2097152 ![] bcast_S_S2097152 : (⟨S_, .i32⟩ : BufTy).Contents (Elt F) → (⟨S2097152, .i32⟩ : BufTy).Contents (Elt F)),
    StableHlo.binary main_v79 main_v87 main_v88 (cmpi .slt : (⟨S2097152, .i32⟩ : BufTy).Contents (Elt F) → (⟨S2097152, .i32⟩ : BufTy).Contents (Elt F) → (⟨S2097152, .i1⟩ : BufTy).Contents (Elt F)),
    StableHlo.nullary main_c_18 (constantI S_ 32 2097152#32),
    StableHlo.unary main_c_18 main_v89 (broadcastInDim S2097152 ![] bcast_S_S2097152 : (⟨S_, .i32⟩ : BufTy).Contents (Elt F) → (⟨S2097152, .i32⟩ : BufTy).Contents (Elt F)),
    StableHlo.binary main_v79 main_v89 main_v90 (addi : (⟨S2097152, .i32⟩ : BufTy).Contents (Elt F) → (⟨S2097152, .i32⟩ : BufTy).Contents (Elt F) → (⟨S2097152, .i32⟩ : BufTy).Contents (Elt F)),
    StableHlo.ternary main_v88 main_v90 main_v79 main_v91 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v91 main_v92 (broadcastInDim S2097152x1 ![0] bcast_S2097152_S2097152x1_0 : (⟨S2097152, .i32⟩ : BufTy).Contents (Elt F) → (⟨S2097152x1, .i32⟩ : BufTy).Contents (Elt F)),
    StableHlo.binary main_v78 main_v92 main_v93 ((fun x i => Host.gather gather_S2097152_S2097152x1_S2097152_n_0_n_n_0_1_1 x i) : (⟨S2097152, .i32⟩ : BufTy).Contents (Elt F) → (⟨S2097152x1, .i32⟩ : BufTy).Contents (Elt F) → (⟨S2097152, .i32⟩ : BufTy).Contents (Elt F)),
    StableHlo.nullary main_c_19 (constantI S_ 32 0#32),
    StableHlo.unary main_c_19 main_v94 (broadcastInDim S1 ![] bcast_S_S1 : (⟨S_, .i32⟩ : BufTy).Contents (Elt F) → (⟨S1, .i32⟩ : BufTy).Contents (Elt F)),
    StableHlo.unary main_v86 main_v95 ((extractStridedSlice S2097151 ![1] · slices_S2097152_S2097151_1) : (⟨S2097152, .i32⟩ : BufTy).Contents (Elt F) → (⟨S2097151, .i32⟩ : BufTy).Contents (Elt F)),
    StableHlo.unary main_v86 main_v96 ((extractStridedSlice S2097151 ![0] · slices_S2097152_S2097151_0) : (⟨S2097152, .i32⟩ : BufTy).Contents (Elt F) → (⟨S2097151, .i32⟩ : BufTy).Contents (Elt F)),
    StableHlo.binary main_v95 main_v96 main_v97 (cmpi .ne : (⟨S2097151, .i32⟩ : BufTy).Contents (Elt F) → (⟨S2097151, .i32⟩ : BufTy).Contents (Elt F) → (⟨S2097151, .i1⟩ : BufTy).Contents (Elt F)) ]

theorem opsT1_sub : (opsT1 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.ternary_bufs_sub .., StableHlo.ternary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub ..⟩

/-- 62 operations. -/
abbrev opsT2 : List (HloOp τ sig (Elt F)) :=
  [ StableHlo.unary main_v93 main_v98 ((extractStridedSlice S2097151 ![1] · slices_S2097152_S2097151_1) : (⟨S2097152, .i32⟩ : BufTy).Contents (Elt F) → (⟨S2097151, .i32⟩ : BufTy).Contents (Elt F)),
    StableHlo.unary main_v93 main_v99 ((extractStridedSlice S2097151 ![0] · slices_S2097152_S2097151_0) : (⟨S2097152, .i32⟩ : BufTy).Contents (Elt F) → (⟨S2097151, .i32⟩ : BufTy).Contents (Elt F)),
    StableHlo.binary main_v98 main_v99 main_v100 (cmpi .ne : (⟨S2097151, .i32⟩ : BufTy).Contents (Elt F) → (⟨S2097151, .i32⟩ : BufTy).Contents (Elt F) → (⟨S2097151, .i1⟩ : BufTy).Contents (Elt F)),
    StableHlo.binary main_v97 main_v100 main_v101 (ori : (⟨S2097151, .i1⟩ : BufTy).Contents (Elt F) → (⟨S2097151, .i1⟩ : BufTy).Contents (Elt F) → (⟨S2097151, .i1⟩ : BufTy).Contents (Elt F)),
    StableHlo.unary main_v101 main_v102 ((extui 32 · natLt_1_32) : (⟨S2097151, .i1⟩ : BufTy).Contents (Elt F) → (⟨S2097151, .i32⟩ : BufTy).Contents (Elt F)),
    StableHlo.binary main_v94 main_v102 main_v103 ((fun a b => concatenate S2097152 0 [⟨S1, a⟩, ⟨S2097151, b⟩] concatenates_S1_S2097151_S2097152_d0) : (⟨S1, .i32⟩ : BufTy).Contents (Elt F) → (⟨S2097151, .i32⟩ : BufTy).Contents (Elt F) → (⟨S2097152, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v103 : StableHlo.TRef sig ⟨S2097152, .i32⟩) main_call5.call0.v0 main_call5.call0.v1 (fun x v => Host.reduceWindow IntOp.addi ![2097152] ![1] ![2097151] ![0] x v reduceWindows_S2097152_S2097152_w2097152s1p2097151_0 h_S_),
    StableHlo.nullary main_c_20 (constantI S_ 32 0#32),
    StableHlo.unary main_c_20 main_v105 (broadcastInDim S2097152 ![] bcast_S_S2097152 : (⟨S_, .i32⟩ : BufTy).Contents (Elt F) → (⟨S2097152, .i32⟩ : BufTy).Contents (Elt F)),
    StableHlo.binary main_v79 main_v105 main_v106 (cmpi .slt : (⟨S2097152, .i32⟩ : BufTy).Contents (Elt F) → (⟨S2097152, .i32⟩ : BufTy).Contents (Elt F) → (⟨S2097152, .i1⟩ : BufTy).Contents (Elt F)),
    StableHlo.nullary main_c_21 (constantI S_ 32 2097152#32),
    StableHlo.unary main_c_21 main_v107 (broadcastInDim S2097152 ![] bcast_S_S2097152 : (⟨S_, .i32⟩ : BufTy).Contents (Elt F) → (⟨S2097152, .i32⟩ : BufTy).Contents (Elt F)),
    StableHlo.binary main_v79 main_v107 main_v108 (addi : (⟨S2097152, .i32⟩ : BufTy).Contents (Elt F) → (⟨S2097152, .i32⟩ : BufTy).Contents (Elt F) → (⟨S2097152, .i32⟩ : BufTy).Contents (Elt F)),
    StableHlo.ternary main_v106 main_v108 main_v79 main_v109 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v109 main_v110 (broadcastInDim S2097152x1 ![0] bcast_S2097152_S2097152x1_0 : (⟨S2097152, .i32⟩ : BufTy).Contents (Elt F) → (⟨S2097152x1, .i32⟩ : BufTy).Contents (Elt F)),
    StableHlo.binary main_arg2 main_v110 main_v111 ((fun x i => Host.gather gather_S2097152x3_S2097152x1_S2097152x3_1_0_n_n_0_1_13 x i) : (⟨S2097152x3, .f32⟩ : BufTy).Contents (Elt F) → (⟨S2097152x1, .i32⟩ : BufTy).Contents (Elt F) → (⟨S2097152x3, .f32⟩ : BufTy).Contents (Elt F)),
    StableHlo.nullary main_cst_22 (constant S_ .f32 0x00000000#32),
    StableHlo.unary main_cst_22 main_v112 (broadcastInDim S2097152x3 ![] bcast_S_S2097152x3 : (⟨S_, .f32⟩ : BufTy).Contents (Elt F) → (⟨S2097152x3, .f32⟩ : BufTy).Contents (Elt F)),
    StableHlo.unary main_v104 main_v113 (broadcastInDim S2097152x1 ![0] bcast_S2097152_S2097152x1_0 : (⟨S2097152, .i32⟩ : BufTy).Contents (Elt F) → (⟨S2097152x1, .i32⟩ : BufTy).Contents (Elt F)),
    StableHlo.ternary main_v112 main_v113 main_v111 main_v114 ((fun x i u => Host.scatterAdd scatter_S2097152x3_S2097152x1_S2097152x3_1_0_0_1 x i u) : (⟨S2097152x3, .f32⟩ : BufTy).Contents (Elt F) → (⟨S2097152x1, .i32⟩ : BufTy).Contents (Elt F) → (⟨S2097152x3, .f32⟩ : BufTy).Contents (Elt F) → (⟨S2097152x3, .f32⟩ : BufTy).Contents (Elt F)),
    StableHlo.nullary main_cst_23 (constant S_ .f32 0x3F800000#32),
    StableHlo.unary main_cst_23 main_v115 (broadcastInDim S2097152 ![] bcast_S_S2097152 : (⟨S_, .f32⟩ : BufTy).Contents (Elt F) → (⟨S2097152, .f32⟩ : BufTy).Contents (Elt F)),
    StableHlo.nullary main_cst_24 (constant S_ .f32 0x00000000#32),
    StableHlo.unary main_cst_24 main_v116 (broadcastInDim S2097152 ![] bcast_S_S2097152 : (⟨S_, .f32⟩ : BufTy).Contents (Elt F) → (⟨S2097152, .f32⟩ : BufTy).Contents (Elt F)),
    StableHlo.unary main_v104 main_v117 (broadcastInDim S2097152x1 ![0] bcast_S2097152_S2097152x1_0 : (⟨S2097152, .i32⟩ : BufTy).Contents (Elt F) → (⟨S2097152x1, .i32⟩ : BufTy).Contents (Elt F)),
    StableHlo.ternary main_v116 main_v117 main_v115 main_v118 ((fun x i u => Host.scatterAdd scatter_S2097152_S2097152x1_S2097152_n_0_0_1 x i u) : (⟨S2097152, .f32⟩ : BufTy).Contents (Elt F) → (⟨S2097152x1, .i32⟩ : BufTy).Contents (Elt F) → (⟨S2097152, .f32⟩ : BufTy).Contents (Elt F) → (⟨S2097152, .f32⟩ : BufTy).Contents (Elt F)),
    StableHlo.nullary main_cst_25 (constant S_ .f32 0x3F800000#32),
    StableHlo.unary main_cst_25 main_v119 (broadcastInDim S2097152 ![] bcast_S_S2097152 : (⟨S_, .f32⟩ : BufTy).Contents (Elt F) → (⟨S2097152, .f32⟩ : BufTy).Contents (Elt F)),
    StableHlo.binary main_v118 main_v119 main_v120 (maximumf : (⟨S2097152, .f32⟩ : BufTy).Contents (Elt F) → (⟨S2097152, .f32⟩ : BufTy).Contents (Elt F) → (⟨S2097152, .f32⟩ : BufTy).Contents (Elt F)),
    StableHlo.unary main_v120 main_v121 (broadcastInDim S2097152x1 ![0] bcast_S2097152_S2097152x1_0 : (⟨S2097152, .f32⟩ : BufTy).Contents (Elt F) → (⟨S2097152x1, .f32⟩ : BufTy).Contents (Elt F)),
    StableHlo.unary main_v121 main_v122 (broadcastInDim S2097152x3 ![0, 1] bcast_S2097152x1_S2097152x3_0_1 : (⟨S2097152x1, .f32⟩ : BufTy).Contents (Elt F) → (⟨S2097152x3, .f32⟩ : BufTy).Contents (Elt F)),
    StableHlo.binary main_v114 main_v122 main_v123 (Host.divf : (⟨S2097152x3, .f32⟩ : BufTy).Contents (Elt F) → (⟨S2097152x3, .f32⟩ : BufTy).Contents (Elt F) → (⟨S2097152x3, .f32⟩ : BufTy).Contents (Elt F)),
    StableHlo.nullary main_c_26 (constantI S_ 32 4294967295#32),
    StableHlo.unary main_c_26 main_v124 (broadcastInDim S2097152 ![] bcast_S_S2097152 : (⟨S_, .i32⟩ : BufTy).Contents (Elt F) → (⟨S2097152, .i32⟩ : BufTy).Contents (Elt F)),
    StableHlo.nullary main_c_27 (constantI S_ 32 0#32),
    StableHlo.unary main_c_27 main_v125 (broadcastInDim S2097152 ![] bcast_S_S2097152 : (⟨S_, .i32⟩ : BufTy).Contents (Elt F) → (⟨S2097152, .i32⟩ : BufTy).Contents (Elt F)),
    StableHlo.binary main_v104 main_v125 main_v126 (cmpi .slt : (⟨S2097152, .i32⟩ : BufTy).Contents (Elt F) → (⟨S2097152, .i32⟩ : BufTy).Contents (Elt F) → (⟨S2097152, .i1⟩ : BufTy).Contents (Elt F)),
    StableHlo.nullary main_c_28 (constantI S_ 32 2097152#32),
    StableHlo.unary main_c_28 main_v127 (broadcastInDim S2097152 ![] bcast_S_S2097152 : (⟨S_, .i32⟩ : BufTy).Contents (Elt F) → (⟨S2097152, .i32⟩ : BufTy).Contents (Elt F)),
    StableHlo.binary main_v104 main_v127 main_v128 (addi : (⟨S2097152, .i32⟩ : BufTy).Contents (Elt F) → (⟨S2097152, .i32⟩ : BufTy).Contents (Elt F) → (⟨S2097152, .i32⟩ : BufTy).Contents (Elt F)),
    StableHlo.ternary main_v126 main_v128 main_v104 main_v129 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v129 main_v130 (broadcastInDim S2097152x1 ![0] bcast_S2097152_S2097152x1_0 : (⟨S2097152, .i32⟩ : BufTy).Contents (Elt F) → (⟨S2097152x1, .i32⟩ : BufTy).Contents (Elt F)),
    StableHlo.ternary main_v124 main_v130 main_v86 main_v131 ((fun x i u => Host.scatter scatter_S2097152_S2097152x1_S2097152_n_0_0_1 (fun _ b => b) x i u) : (⟨S2097152, .i32⟩ : BufTy).Contents (Elt F) → (⟨S2097152x1, .i32⟩ : BufTy).Contents (Elt F) → (⟨S2097152, .i32⟩ : BufTy).Contents (Elt F) → (⟨S2097152, .i32⟩ : BufTy).Contents (Elt F)),
    StableHlo.nullary main_c_29 (constantI S_ 32 4294967295#32),
    StableHlo.unary main_c_29 main_v132 (broadcastInDim S2097152 ![] bcast_S_S2097152 : (⟨S_, .i32⟩ : BufTy).Contents (Elt F) → (⟨S2097152, .i32⟩ : BufTy).Contents (Elt F)),
    StableHlo.nullary main_c_30 (constantI S_ 32 0#32),
    StableHlo.unary main_c_30 main_v133 (broadcastInDim S2097152 ![] bcast_S_S2097152 : (⟨S_, .i32⟩ : BufTy).Contents (Elt F) → (⟨S2097152, .i32⟩ : BufTy).Contents (Elt F)),
    StableHlo.binary main_v104 main_v133 main_v134 (cmpi .slt : (⟨S2097152, .i32⟩ : BufTy).Contents (Elt F) → (⟨S2097152, .i32⟩ : BufTy).Contents (Elt F) → (⟨S2097152, .i1⟩ : BufTy).Contents (Elt F)),
    StableHlo.nullary main_c_31 (constantI S_ 32 2097152#32),
    StableHlo.unary main_c_31 main_v135 (broadcastInDim S2097152 ![] bcast_S_S2097152 : (⟨S_, .i32⟩ : BufTy).Contents (Elt F) → (⟨S2097152, .i32⟩ : BufTy).Contents (Elt F)),
    StableHlo.binary main_v104 main_v135 main_v136 (addi : (⟨S2097152, .i32⟩ : BufTy).Contents (Elt F) → (⟨S2097152, .i32⟩ : BufTy).Contents (Elt F) → (⟨S2097152, .i32⟩ : BufTy).Contents (Elt F)),
    StableHlo.ternary main_v134 main_v136 main_v104 main_v137 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v137 main_v138 (broadcastInDim S2097152x1 ![0] bcast_S2097152_S2097152x1_0 : (⟨S2097152, .i32⟩ : BufTy).Contents (Elt F) → (⟨S2097152x1, .i32⟩ : BufTy).Contents (Elt F)),
    StableHlo.ternary main_v132 main_v138 main_v93 main_v139 ((fun x i u => Host.scatter scatter_S2097152_S2097152x1_S2097152_n_0_0_1 (fun _ b => b) x i u) : (⟨S2097152, .i32⟩ : BufTy).Contents (Elt F) → (⟨S2097152x1, .i32⟩ : BufTy).Contents (Elt F) → (⟨S2097152, .i32⟩ : BufTy).Contents (Elt F) → (⟨S2097152, .i32⟩ : BufTy).Contents (Elt F)),
    StableHlo.nullary main_c_32 (constantI S_ 32 0#32),
    StableHlo.unary main_c_32 main_v140 (broadcastInDim S2097152 ![] bcast_S_S2097152 : (⟨S_, .i32⟩ : BufTy).Contents (Elt F) → (⟨S2097152, .i32⟩ : BufTy).Contents (Elt F)),
    StableHlo.binary main_v131 main_v140 main_v141 (cmpi .sge : (⟨S2097152, .i32⟩ : BufTy).Contents (Elt F) → (⟨S2097152, .i32⟩ : BufTy).Contents (Elt F) → (⟨S2097152, .i1⟩ : BufTy).Contents (Elt F)),
    StableHlo.nullary main_c_33 (constantI S_ 32 65536#32),
    StableHlo.unary main_c_33 main_v142 (broadcastInDim S2097152 ![] bcast_S_S2097152 : (⟨S_, .i32⟩ : BufTy).Contents (Elt F) → (⟨S2097152, .i32⟩ : BufTy).Contents (Elt F)),
    StableHlo.binary main_v131 main_v142 main_v143 (cmpi .slt : (⟨S2097152, .i32⟩ : BufTy).Contents (Elt F) → (⟨S2097152, .i32⟩ : BufTy).Contents (Elt F) → (⟨S2097152, .i1⟩ : BufTy).Contents (Elt F)) ]

theorem opsT2_sub : (opsT2 : List (HloOp τ sig (Elt F))).Forall fun op => op.bufs ⊆ tcRefs τ sig :=
  ⟨StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub ..⟩

/-- 18 operations. -/
abbrev opsT3 : List (HloOp τ sig (Elt F)) :=
  [ StableHlo.binary main_v141 main_v143 main_v144 (andi : (⟨S2097152, .i1⟩ : BufTy).Contents (Elt F) → (⟨S2097152, .i1⟩ : BufTy).Contents (Elt F) → (⟨S2097152, .i1⟩ : BufTy).Contents (Elt F)),
    StableHlo.nullary main_c_34 (constantI S_ 32 4294967295#32),
    StableHlo.TRef.unary (.of main_c_34 : StableHlo.TRef sig ⟨S_, .i32⟩) main_call6.v0 id,
    StableHlo.TRef.unary main_call6.v0 main_call6.v1 (broadcastInDim S2097152 ![] bcast_S_S2097152),
    StableHlo.TRef.ternary (.of main_v144 : StableHlo.TRef sig ⟨S2097152, .i1⟩) (.of main_v131 : StableHlo.TRef sig ⟨S2097152, .i32⟩) main_call6.v1 main_call6.v2 select,
    StableHlo.nullary main_c_35 (constantI S_ 32 4294967295#32),
    StableHlo.TRef.unary (.of main_c_35 : StableHlo.TRef sig ⟨S_, .i32⟩) main_call7.v0 id,
    StableHlo.TRef.unary main_call7.v0 main_call7.v1 (broadcastInDim S2097152 ![] bcast_S_S2097152),
    StableHlo.TRef.ternary (.of main_v144 : StableHlo.TRef sig ⟨S2097152, .i1⟩) (.of main_v139 : StableHlo.TRef sig ⟨S2097152, .i32⟩) main_call7.v1 main_call7.v2 select,
    StableHlo.unary main_v145 main_v147 (broadcastInDim S1x2097152 ![1] bcast_S2097152_S1x2097152_1 : (⟨S2097152, .i32⟩ : BufTy).Contents (Elt F) → (⟨S1x2097152, .i32⟩ : BufTy).Contents (Elt F)),
    StableHlo.unary main_v146 main_v148 (broadcastInDim S1x2097152 ![1] bcast_S2097152_S1x2097152_1 : (⟨S2097152, .i32⟩ : BufTy).Contents (Elt F) → (⟨S1x2097152, .i32⟩ : BufTy).Contents (Elt F)),
    StableHlo.binary main_v147 main_v148 main_v149 ((fun a b => concatenate S2x2097152 0 [⟨S1x2097152, a⟩, ⟨S1x2097152, b⟩] concatenates_S1x2097152_S1x2097152_S2x2097152_d0) : (⟨S1x2097152, .i32⟩ : BufTy).Contents (Elt F) → (⟨S1x2097152, .i32⟩ : BufTy).Contents (Elt F) → (⟨S2x2097152, .i32⟩ : BufTy).Contents (Elt F)),
    StableHlo.unary main_v144 main_v150 (broadcastInDim S2097152x1 ![0] bcast_S2097152_S2097152x1_0 : (⟨S2097152, .i1⟩ : BufTy).Contents (Elt F) → (⟨S2097152x1, .i1⟩ : BufTy).Contents (Elt F)),
    StableHlo.nullary main_cst_36 (constant S_ .f32 0x00000000#32),
    StableHlo.TRef.unary (.of main_cst_36 : StableHlo.TRef sig ⟨S_, .f32⟩) main_call8.v0 id,
    StableHlo.TRef.unary (.of main_v150 : StableHlo.TRef sig ⟨S2097152x1, .i1⟩) main_call8.v1 (broadcastInDim S2097152x3 ![0, 1] bcast_S2097152x1_S2097152x3_0_1),
    StableHlo.TRef.unary main_call8.v0 main_call8.v2 (broadcastInDim S2097152x3 ![] bcast_S_S2097152x3),
    StableHlo.TRef.ternary main_call8.v1 (.of main_v123 : StableHlo.TRef sig ⟨S2097152x3, .f32⟩) main_call8.v2 main_call8.v3 select ]

theorem opsT3_sub : (opsT3 : List (HloOp τ sig (Elt F))).Forall fun op => op.bufs ⊆ tcRefs τ sig :=
  ⟨StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub ..⟩

end Cert.ReferenceIdeal.Hand

end
-- ==== Proof.RefRun.lean ====
/-
  The reference program's run.  @main is a straight line of host operations (the outlined functions' lines written at
  their calls), so every weakly fair execution terminates with each buffer at the fold of those operations over the launch
  contents.  No operation writes an argument.  The line is the edge network's operations followed by the pooling's.
-/
import proofs.«128313_j69415261438102_1_alg».proof.Proof.RefOpsList
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The pooling's operations: everything after the edge network's result. -/
abbrev opsTail : List (HloOp τ sig (Elt F)) := opsT0 ++ opsT1 ++ opsT2 ++ opsT3
/-- @main's operations, in order. -/
abbrev ops : List (HloOp τ sig (Elt F)) := opsMlp ++ opsTail

/-! ### The line is @main

Each window of @main, its outlined functions' bodies written at their calls, is a chain of single steps; sequencing
reassociated, it is the window's list run in order. -/

set_option maxRecDepth 8192 in
/-- The first window runs the edge network's operations and then the pooling's first sixteen. -/
private theorem part0_eq (c : Dev nD) :
    main_part0 (F := F) c = seq opsMlp >>= fun _ => seq opsT0 := by
  simp only [main_part0, fn_selu.body, fn_elu.body, fn_where.body, fn_where_0.body, seq, bind_assoc, pure_bind]
  rfl

set_option maxRecDepth 8192 in
/-- The second window. -/
private theorem part1_eq (c : Dev nD) : main_part1 (F := F) c = seq opsT1 := by
  simp only [main_part1, fn_where_1.body, fn_lexsort.body, seq, bind_assoc, pure_bind]
  rfl

set_option maxRecDepth 8192 in
/-- The third window. -/
private theorem part2_eq (c : Dev nD) : main_part2 (F := F) c = seq opsT2 := by
  simp only [main_part2, fn_cumsum.body, fn_cumsum_2.body, seq, bind_assoc, pure_bind]
  rfl

set_option maxRecDepth 8192 in
/-- The fourth window. -/
private theorem part3_eq (c : Dev nD) : main_part3 (F := F) c = seq opsT3 := by
  simp only [main_part3, fn_where_3.body, fn_where_4.body, seq, bind_assoc, pure_bind]

theorem main_eq (c : Dev nD) : main (F := F) c = seq ops := by
  show (main_part0 c >>= fun _ => main_part1 c >>= fun _ => main_part2 c >>= fun _ => main_part3 c) = seq ops
  rw [part0_eq, part1_eq, part2_eq, part3_eq]
  simp only [ops, opsTail, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
private theorem forall_append' {α : Type _} {p : α → Prop} {l₁ l₂ : List α} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

theorem ops_sub : (ops : List (HloOp τ sig (Elt F))).Forall fun op => op.bufs ⊆ tcRefs τ sig :=
  forall_append' opsMlp_sub (forall_append' (forall_append' (forall_append' opsT0_sub opsT1_sub) opsT2_sub) opsT3_sub)

/-! ### Every operation determines its result -/

private theorem opsMlp_fresh : (opsMlp : List (HloOp τ sig (Elt F))).Forall fun op => op.fresh = ∅ := by
  simp only [List.Forall]; repeat' constructor
private theorem opsT0_fresh : (opsT0 : List (HloOp τ sig (Elt F))).Forall fun op => op.fresh = ∅ := by
  simp only [List.Forall]; repeat' constructor
private theorem opsT1_fresh : (opsT1 : List (HloOp τ sig (Elt F))).Forall fun op => op.fresh = ∅ := by
  simp only [List.Forall]; repeat' constructor
private theorem opsT2_fresh : (opsT2 : List (HloOp τ sig (Elt F))).Forall fun op => op.fresh = ∅ := by
  simp only [List.Forall]; repeat' constructor
private theorem opsT3_fresh : (opsT3 : List (HloOp τ sig (Elt F))).Forall fun op => op.fresh = ∅ := by
  simp only [List.Forall]; repeat' constructor

/-- No operation of the line leaves a buffer at contents it does not determine. -/
private theorem ops_fresh : ∀ op ∈ (ops : List (HloOp τ sig (Elt F))), op.fresh = ∅ :=
  List.forall_iff_forall_mem.mp
    (forall_append' opsMlp_fresh (forall_append' (forall_append' (forall_append' opsT0_fresh opsT1_fresh) opsT2_fresh) opsT3_fresh))

/-- Every weakly fair execution of @main terminates, each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold of the whole line is the pooling's fold over the edge network's. -/
theorem after_ops (V : Valuation τ sig (Elt F)) : after ops V = after opsTail (after opsMlp V) :=
  StableHlo.after_append opsMlp opsTail V

/-! ### No operation writes an argument

Each operation writes one buffer, and that buffer is none of @main's fifteen arguments: told apart as references,
once per operation. -/

/-- @main's arguments. -/
private abbrev argRefs : List (Ref sig .tc) :=
  [main_arg0, main_arg1, main_arg2, main_arg3, main_arg4, main_arg5, main_arg6, main_arg7, main_arg8, main_arg9,
    main_arg10, main_arg11, main_arg12, main_arg13, main_arg14]

/-- A reference that is no argument is, as a device buffer, different from each argument. -/
private theorem off_of_not_mem {y : Ref sig .tc} (hy : y ∉ argRefs) :
    ∀ r ∈ argRefs, ¬ (Proc.devRef (τ := τ) .tc r = Proc.devRef .tc y) :=
  fun r hr e => hy (Proc.devRef_injective _ e ▸ hr)

private theorem opsMlp_off : (opsMlp : List (HloOp τ sig (Elt F))).Forall fun op =>
    ∀ r ∈ argRefs, Proc.devRef (τ := τ) .tc r ∉ op.writes := by
  simp only [opsMlp, List.Forall, nullary_writes, unary_writes, binary_writes, ternary_writes, reshape_writes, Finset.mem_singleton]
  repeat' apply And.intro
  all_goals exact off_of_not_mem (by decide)

private theorem opsT0_off : (opsT0 : List (HloOp τ sig (Elt F))).Forall fun op =>
    ∀ r ∈ argRefs, Proc.devRef (τ := τ) .tc r ∉ op.writes := by
  simp only [opsT0, List.Forall, nullary_writes, unary_writes, binary_writes, ternary_writes, reshape_writes, Finset.mem_singleton]
  repeat' apply And.intro
  all_goals exact off_of_not_mem (by decide)

private theorem opsT1_off : (opsT1 : List (HloOp τ sig (Elt F))).Forall fun op =>
    ∀ r ∈ argRefs, Proc.devRef (τ := τ) .tc r ∉ op.writes := by
  simp only [opsT1, List.Forall, nullary_writes, unary_writes, binary_writes, ternary_writes, reshape_writes, Finset.mem_singleton]
  repeat' apply And.intro
  all_goals exact off_of_not_mem (by decide)

private theorem opsT2_off : (opsT2 : List (HloOp τ sig (Elt F))).Forall fun op =>
    ∀ r ∈ argRefs, Proc.devRef (τ := τ) .tc r ∉ op.writes := by
  simp only [opsT2, List.Forall, nullary_writes, unary_writes, binary_writes, ternary_writes, reshape_writes, Finset.mem_singleton]
  repeat' apply And.intro
  all_goals exact off_of_not_mem (by decide)

private theorem opsT3_off : (opsT3 : List (HloOp τ sig (Elt F))).Forall fun op =>
    ∀ r ∈ argRefs, Proc.devRef (τ := τ) .tc r ∉ op.writes := by
  simp only [opsT3, List.Forall, nullary_writes, unary_writes, binary_writes, ternary_writes, reshape_writes, Finset.mem_singleton]
  repeat' apply And.intro
  all_goals exact off_of_not_mem (by decide)

private theorem ops_off : (ops : List (HloOp τ sig (Elt F))).Forall fun op =>
    ∀ r ∈ argRefs, Proc.devRef (τ := τ) .tc r ∉ op.writes :=
  forall_append' opsMlp_off (forall_append' (forall_append' (forall_append' opsT0_off opsT1_off) opsT2_off) opsT3_off)

/-- A line none of whose operations writes an argument leaves each argument at its contents. -/
private theorem kept_of_off {l : List (HloOp τ sig (Elt F))}
    (h : l.Forall fun op => ∀ r ∈ argRefs, Proc.devRef (τ := τ) .tc r ∉ op.writes)
    (V : Valuation τ sig (Elt F)) {r : Ref sig .tc} (hr : r ∈ argRefs) :
    after l V (Proc.devRef .tc r) = V (Proc.devRef .tc r) :=
  after_of_forall_not_mem l V fun op hop => List.forall_iff_forall_mem.mp h op hop r hr

/-- No operation writes argument 0. -/
theorem kept_arg0 (V : Valuation τ sig (Elt F)) : after ops V (main_arg0 : DevRef τ sig) = V (main_arg0 : DevRef τ sig) :=
  kept_of_off ops_off V (by decide)

/-- No operation writes argument 1. -/
theorem kept_arg1 (V : Valuation τ sig (Elt F)) : after ops V (main_arg1 : DevRef τ sig) = V (main_arg1 : DevRef τ sig) :=
  kept_of_off ops_off V (by decide)

/-- No operation writes argument 2. -/
theorem kept_arg2 (V : Valuation τ sig (Elt F)) : after ops V (main_arg2 : DevRef τ sig) = V (main_arg2 : DevRef τ sig) :=
  kept_of_off ops_off V (by decide)

/-- No operation writes argument 3. -/
theorem kept_arg3 (V : Valuation τ sig (Elt F)) : after ops V (main_arg3 : DevRef τ sig) = V (main_arg3 : DevRef τ sig) :=
  kept_of_off ops_off V (by decide)

/-- No operation writes argument 4. -/
theorem kept_arg4 (V : Valuation τ sig (Elt F)) : after ops V (main_arg4 : DevRef τ sig) = V (main_arg4 : DevRef τ sig) :=
  kept_of_off ops_off V (by decide)

/-- No operation writes argument 5. -/
theorem kept_arg5 (V : Valuation τ sig (Elt F)) : after ops V (main_arg5 : DevRef τ sig) = V (main_arg5 : DevRef τ sig) :=
  kept_of_off ops_off V (by decide)

/-- No operation writes argument 6. -/
theorem kept_arg6 (V : Valuation τ sig (Elt F)) : after ops V (main_arg6 : DevRef τ sig) = V (main_arg6 : DevRef τ sig) :=
  kept_of_off ops_off V (by decide)

/-- No operation writes argument 7. -/
theorem kept_arg7 (V : Valuation τ sig (Elt F)) : after ops V (main_arg7 : DevRef τ sig) = V (main_arg7 : DevRef τ sig) :=
  kept_of_off ops_off V (by decide)

/-- No operation writes argument 8. -/
theorem kept_arg8 (V : Valuation τ sig (Elt F)) : after ops V (main_arg8 : DevRef τ sig) = V (main_arg8 : DevRef τ sig) :=
  kept_of_off ops_off V (by decide)

/-- No operation writes argument 9. -/
theorem kept_arg9 (V : Valuation τ sig (Elt F)) : after ops V (main_arg9 : DevRef τ sig) = V (main_arg9 : DevRef τ sig) :=
  kept_of_off ops_off V (by decide)

/-- No operation writes argument 10. -/
theorem kept_arg10 (V : Valuation τ sig (Elt F)) : after ops V (main_arg10 : DevRef τ sig) = V (main_arg10 : DevRef τ sig) :=
  kept_of_off ops_off V (by decide)

/-- No operation writes argument 11. -/
theorem kept_arg11 (V : Valuation τ sig (Elt F)) : after ops V (main_arg11 : DevRef τ sig) = V (main_arg11 : DevRef τ sig) :=
  kept_of_off ops_off V (by decide)

/-- No operation writes argument 12. -/
theorem kept_arg12 (V : Valuation τ sig (Elt F)) : after ops V (main_arg12 : DevRef τ sig) = V (main_arg12 : DevRef τ sig) :=
  kept_of_off ops_off V (by decide)

/-- No operation writes argument 13. -/
theorem kept_arg13 (V : Valuation τ sig (Elt F)) : after ops V (main_arg13 : DevRef τ sig) = V (main_arg13 : DevRef τ sig) :=
  kept_of_off ops_off V (by decide)

/-- No operation writes argument 14. -/
theorem kept_arg14 (V : Valuation τ sig (Elt F)) : after ops V (main_arg14 : DevRef τ sig) = V (main_arg14 : DevRef τ sig) :=
  kept_of_off ops_off V (by decide)

/-- The edge network's operations do not write argument 2. -/
theorem mlp_kept_arg2 (V : Valuation τ sig (Elt F)) : after opsMlp V (main_arg2 : DevRef τ sig) = V (main_arg2 : DevRef τ sig) :=
  kept_of_off opsMlp_off V (by decide)

/-- The edge network's operations do not write argument 3. -/
theorem mlp_kept_arg3 (V : Valuation τ sig (Elt F)) : after opsMlp V (main_arg3 : DevRef τ sig) = V (main_arg3 : DevRef τ sig) :=
  kept_of_off opsMlp_off V (by decide)

/-- The edge network's operations do not write argument 4. -/
theorem mlp_kept_arg4 (V : Valuation τ sig (Elt F)) : after opsMlp V (main_arg4 : DevRef τ sig) = V (main_arg4 : DevRef τ sig) :=
  kept_of_off opsMlp_off V (by decide)

/-- The edge network's operations do not write argument 5. -/
theorem mlp_kept_arg5 (V : Valuation τ sig (Elt F)) : after opsMlp V (main_arg5 : DevRef τ sig) = V (main_arg5 : DevRef τ sig) :=
  kept_of_off opsMlp_off V (by decide)

/-- The edge network's operations do not write argument 6. -/
theorem mlp_kept_arg6 (V : Valuation τ sig (Elt F)) : after opsMlp V (main_arg6 : DevRef τ sig) = V (main_arg6 : DevRef τ sig) :=
  kept_of_off opsMlp_off V (by decide)

end Cert.ReferenceIdeal.Hand

end
-- ==== Proof.RefMlp.lean ====
/-
  The reference's edge network read back.  Its first eighty operations (a concatenation, three products with bias, two
  scaled exponential linear units written through two selects and an exponential less one, and the layer normalisation)
  leave, at the exact instance, the edge network of the argument arrays in their result buffer, entry by entry.

  The operations compose to six stages, each an array function of the stage before: the concatenation, an affine map,
  the unit, an affine map, the unit, an affine map, the normalisation.  Each stage is read at an entry (p, q): the
  concatenation reads the left array below column 128 and the right one from there on; an affine map is the sum over
  the contracted axis plus the bias's entry q; the unit is a function of the one entry (above zero the outer select
  takes the entry itself, otherwise the inner select hands the entry to the exponential); a row's mean is the sum of
  its 128 entries over the word of 128, the same for every column; the normalisation is the entry less its row's mean,
  times the reciprocal root of the mean square deviation plus the small word, times the gain, plus the bias.
-/
import proofs.«128313_j69415261438102_1_alg».proof.Proof.RefOpsList
import proofs.«128313_j69415261438102_1_alg».proof.Proof.RowSpec
import proofs.«128313_j69415261438102_1_alg».proof.Proof.LibPlainDot
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.HandMlp

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-! ### The stages as array functions -/

/-- The two node arrays side by side. -/
private def catArr (e f : FVec Ideal S262144x128 .f32) : FVec Ideal S262144x256 .f32 :=
  concatenate S262144x256 1 [⟨S262144x128, e⟩, ⟨S262144x128, f⟩] concatenates_S262144x128_S262144x128_S262144x256_d1

/-- A row of 128 entries on every row. -/
private def biasArr (b : FVec Ideal S128 .f32) : FVec Ideal S262144x128 .f32 :=
  broadcastInDim S262144x128 ![0, 1] bcast_S1x128_S262144x128_0_1 (broadcastInDim S1x128 ![1] bcast_S128_S1x128_1 b)

/-- The first affine map. -/
private def lin1Arr (x : FVec Ideal S262144x256 .f32) (W : FVec Ideal S256x128 .f32) (b : FVec Ideal S128 .f32) : FVec Ideal S262144x128 .f32 :=
  addf (Host.dotGeneral dot_S262144x256_S256x128_S262144x128_1_0_0_1_n_n none x W) (biasArr b)

/-- The later affine maps. -/
private def lin2Arr (x : FVec Ideal S262144x128 .f32) (W : FVec Ideal S128x128 .f32) (b : FVec Ideal S128 .f32) : FVec Ideal S262144x128 .f32 :=
  addf (Host.dotGeneral dot_S262144x128_S128x128_S262144x128_1_0_0_1_n_n none x W) (biasArr b)

/-- One word at every entry. -/
private def splat (w : BitVec 32) : FVec Ideal S262144x128 .f32 :=
  broadcastInDim S262144x128 ![] bcast_S_S262144x128 (constant S_ .f32 w)

/-- The scaled exponential linear unit, as the two selects write it. -/
private def seluArr (x : FVec Ideal S262144x128 .f32) : FVec Ideal S262144x128 .f32 :=
  mulf (splat 0x3F867D5F#32)
    (select (cmpf .ogt x (splat 0x00000000#32)) x
      (mulf (splat 0x3FD62D7D#32) (Host.expm1 (select (cmpf .ogt x (splat 0x00000000#32)) (splat 0x00000000#32) x))))

/-- One word at every entry of a column. -/
private def colSplat (w : BitVec 32) : FVec Ideal S262144x1 .f32 :=
  broadcastInDim S262144x1 ![] bcast_S_S262144x1 (constant S_ .f32 w)

/-- The rows' means, as a column. -/
private def rowMean (x : FVec Ideal S262144x128 .f32) : FVec Ideal S262144x1 .f32 :=
  Host.divf (broadcastInDim S262144x1 ![0] bcast_S262144_S262144x1_0
    (Host.reduceAdd x (constant S_ .f32 0x00000000#32) reducesTo_S262144x128_S262144_d1 h_S_)) (colSplat 0x43000000#32)

/-- A column on every column. -/
private def spread (c : FVec Ideal S262144x1 .f32) : FVec Ideal S262144x128 .f32 :=
  broadcastInDim S262144x128 ![0, 1] bcast_S262144x1_S262144x128_0_1 c

/-- The layer normalisation. -/
private def lnArr (h : FVec Ideal S262144x128 .f32) (g b : FVec Ideal S128 .f32) : FVec Ideal S262144x128 .f32 :=
  addf (mulf (mulf (subf h (spread (rowMean h)))
    (spread (Host.rsqrt (addf (rowMean (mulf (subf h (spread (rowMean h))) (subf h (spread (rowMean h))))) (colSplat 0x3727C5AC#32)))))
    (biasArr g)) (biasArr b)

/-- The edge network's result buffer is the six stages composed: each operation's result is its function of its operands'
    contents, the typed buffers of the two unit calls hold what was written to them, and a conversion to the same
    format is the identity. -/
private theorem term_eq (V : Valuation τ sig (Elt Ideal)) :
    after (opsMlp (F := Ideal)) V (main_v38 : DevRef τ sig)
      = lnArr (lin2Arr (seluArr (lin2Arr (seluArr (lin1Arr (catArr (V (main_arg0 : DevRef τ sig)) (V (main_arg1 : DevRef τ sig)))
          (V (main_arg7 : DevRef τ sig)) (V (main_arg8 : DevRef τ sig)))) (V (main_arg9 : DevRef τ sig)) (V (main_arg10 : DevRef τ sig))))
          (V (main_arg11 : DevRef τ sig)) (V (main_arg12 : DevRef τ sig))) (V (main_arg13 : DevRef τ sig)) (V (main_arg14 : DevRef τ sig)) := by
  after_results_simp
  simp only [cast_cast, cast_eq, id_eq]
  rfl

/-! ### Each stage read at an entry -/

/-- The two products contract the left operand's columns with the right operand's rows, nothing batched. -/
private theorem plain1 : PlainDot.IsPlain dot_S262144x256_S256x128_S262144x128_1_0_0_1_n_n := ⟨rfl, rfl, rfl, rfl, rfl, rfl⟩
private theorem plain2 : PlainDot.IsPlain dot_S262144x128_S128x128_S262144x128_1_0_0_1_n_n := ⟨rfl, rfl, rfl, rfl, rfl, rfl⟩

/-- The concatenation at (p, k): the left array's row p below column 128, the right one's from there on. -/
private theorem catArr_apply (e f : FVec Ideal S262144x128 .f32) (p : Fin 262144) (k : Fin 256) :
    catArr e f (ix2 p k) = EdgeMlp.catRow (fun k => e (ix2 p k)) (fun k => f (ix2 p k)) k := by
  unfold catArr EdgeMlp.catRow
  by_cases hk : k.val < 128
  · rw [dif_pos hk]
    exact concatenate_pair_apply_left _ e f _ (ix2 p k) rfl (ix2 p ⟨k.val, hk⟩)
      (fun b => by match b with | ⟨0, _⟩ => rfl | ⟨1, _⟩ => rfl)
  · rw [dif_neg hk]
    exact concatenate_pair_apply_right _ e f _ (ix2 p k) rfl rfl (ix2 p ⟨k.val - 128, by omega⟩)
      (fun b hb => by match b, hb with | ⟨0, _⟩, _ => rfl | ⟨1, _⟩, hb => exact absurd rfl hb)
      (by show (k.val - 128) + 128 = k.val; omega)

/-- The bias on every row: entry (p, q) is the bias's entry q. -/
private theorem biasArr_apply (b : FVec Ideal S128 .f32) (p : Fin 262144) (q : Fin 128) : biasArr b (ix2 p q) = b (ix1 q) :=
  (broadcastInDim_apply _ _ _ (ix2 p q) (ix2 (0 : Fin 1) q) (fun a => by match a with | ⟨0, _⟩ => rfl | ⟨1, _⟩ => rfl)).trans
    (broadcastInDim_apply _ _ _ (ix2 (0 : Fin 1) q) (ix1 q) (fun a => by match a with | ⟨0, _⟩ => rfl))

/-- The first affine map at (p, q): row p of the operand against column q of the weights, plus the bias's entry q. -/
private theorem lin1Arr_apply (x : FVec Ideal S262144x256 .f32) (W : FVec Ideal S256x128 .f32) (b : FVec Ideal S128 .f32)
    (p : Fin 262144) (q : Fin 128) :
    lin1Arr x W b (ix2 p q) = EdgeMlp.affine (fun k => x (ix2 p k)) (fun k j => W (ix2 k j)) (fun j => b (ix1 j)) q := by
  unfold lin1Arr EdgeMlp.affine
  rw [addf_apply, biasArr_apply]
  simp only [Host.dotGeneral]
  rw [PlainDot.dotGeneral_apply plain1 none .single x W p q]

/-- The later affine maps at (p, q), likewise. -/
private theorem lin2Arr_apply (x : FVec Ideal S262144x128 .f32) (W : FVec Ideal S128x128 .f32) (b : FVec Ideal S128 .f32)
    (p : Fin 262144) (q : Fin 128) :
    lin2Arr x W b (ix2 p q) = EdgeMlp.affine (fun k => x (ix2 p k)) (fun k j => W (ix2 k j)) (fun j => b (ix1 j)) q := by
  unfold lin2Arr EdgeMlp.affine
  rw [addf_apply, biasArr_apply]
  simp only [Host.dotGeneral]
  rw [PlainDot.dotGeneral_apply plain2 none .single x W p q]

/-- A word at every entry reads that word. -/
private theorem splat_apply (w : BitVec 32) (i : S262144x128.Idx) : splat w i = Ideal.ofBits .f32 w := by
  unfold splat
  rw [broadcastInDim_scalar_apply, constant_apply]

/-- The two selects on one number. -/
private theorem selu_scalar (X : EReal) :
    Ideal.ofBits .f32 0x3F867D5F#32 * Scalar.select (Ideal.cmp .ogt X (Ideal.ofBits .f32 0x00000000#32)) X
        (Ideal.ofBits .f32 0x3FD62D7D#32 * (Ideal.exp (Scalar.select (Ideal.cmp .ogt X (Ideal.ofBits .f32 0x00000000#32))
          (Ideal.ofBits .f32 0x00000000#32) X) - 1))
      = EdgeMlp.selu X := by
  unfold EdgeMlp.selu
  rw [Ideal.ofBits_zero_f32]
  by_cases h : (0 : EReal) < X
  · have hc : Ideal.cmp .ogt X 0 = 1#1 := by unfold Ideal.cmp; simp [h]
    rw [hc, select_one, if_pos h]
  · have hc : Ideal.cmp .ogt X 0 = 0#1 := by unfold Ideal.cmp; simp [h]
    simp only [hc, select_zero, if_neg h]

/-- The unit at (p, q) is the unit of the operand's entry. -/
private theorem seluArr_apply (x : FVec Ideal S262144x128 .f32) (p : Fin 262144) (q : Fin 128) :
    seluArr x (ix2 p q) = EdgeMlp.selu (x (ix2 p q)) := by
  unfold seluArr
  rw [← selu_scalar]
  simp only [mulf_apply, select_apply, cmpf_apply, splat_apply, Ideal.cmpf_def]
  rfl

/-- A word at every entry of a column reads that word. -/
private theorem colSplat_apply (w : BitVec 32) (i : S262144x1.Idx) : colSplat w i = Ideal.ofBits .f32 w := by
  unfold colSplat
  rw [broadcastInDim_scalar_apply, constant_apply]

/-- A row's sum, read in the column: the sum of the row's 128 entries. -/
private theorem rowSum_apply (x : FVec Ideal S262144x128 .f32) (p : Fin 262144) (u : Fin 1) :
    broadcastInDim S262144x1 ![0] bcast_S262144_S262144x1_0
        (Host.reduceAdd x (constant S_ .f32 0x00000000#32) reducesTo_S262144x128_S262144_d1 h_S_) (ix2 p u)
      = ∑ j : Fin 128, x (ix2 p j) := by
  refine (broadcastInDim_apply _ _ _ (ix2 p u) (ix1 p) (fun a => by match a with | ⟨0, _⟩ => rfl)).trans ?_
  rw [hostReduceAdd_apply]
  refine (Ideal.hostReduceAdd_single _ (by decide : S262144x128.Reduces [1] S262144) x _ (ix1 p)).trans ?_
  rw [constant_apply, Ideal.ofBits_zero_f32, zero_add]
  refine Finset.sum_congr rfl fun k _ => congrArg x (funext fun c => Fin.ext ?_)
  match c with
  | ⟨0, _⟩ => rfl
  | ⟨1, _⟩ => rfl

/-- A row's mean, read in the column: the row's sum over the word of 128. -/
private theorem rowMean_apply (x : FVec Ideal S262144x128 .f32) (p : Fin 262144) (u : Fin 1) :
    rowMean x (ix2 p u) = EdgeMlp.mean128 (fun j => x (ix2 p j)) := by
  unfold rowMean EdgeMlp.mean128
  rw [hostDivf_apply, colSplat_apply, rowSum_apply]

/-- A column on every column: entry (p, q) is the column's entry p. -/
private theorem spread_apply (c : FVec Ideal S262144x1 .f32) (p : Fin 262144) (q : Fin 128) :
    spread c (ix2 p q) = c (ix2 p (0 : Fin 1)) :=
  broadcastInDim_apply _ _ _ (ix2 p q) (ix2 p (0 : Fin 1)) (fun a => by match a with | ⟨0, _⟩ => rfl | ⟨1, _⟩ => rfl)

/-- The normalisation at (p, q) is the row's normalisation at q. -/
private theorem lnArr_apply (h : FVec Ideal S262144x128 .f32) (g b : FVec Ideal S128 .f32) (p : Fin 262144) (q : Fin 128) :
    lnArr h g b (ix2 p q) = EdgeMlp.layerNorm (fun k => h (ix2 p k)) (fun j => g (ix1 j)) (fun j => b (ix1 j)) q := by
  unfold lnArr EdgeMlp.layerNorm
  have hr : ∀ (v : FVec Ideal S262144x1 .f32) (i : S262144x1.Idx), Host.rsqrt v i = Ideal.rsqrt (v i) := fun _ _ => rfl
  simp only [addf_apply, mulf_apply, subf_apply, spread_apply, rowMean_apply, biasArr_apply, hr, colSplat_apply]

/-- The edge network's result buffer after its operations, at the exact instance, from any contents V. -/
theorem mlp_result (V : Valuation τ sig (Elt Ideal)) :
    after (opsMlp (F := Ideal)) V (main_v38 : DevRef τ sig)
      = EdgeMlp.mlpArr (R := 262144) (V (main_arg0 : DevRef τ sig)) (V (main_arg1 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  refine (term_eq V).trans ?_
  funext i
  obtain ⟨p, q, rfl⟩ : ∃ (p : Fin 262144) (q : Fin 128), i = ix2 p q := ⟨i 0, i 1, eq_ix2 i⟩
  rw [EdgeMlp.mlpArr_apply, lnArr_apply]
  simp only [lin1Arr_apply, lin2Arr_apply, seluArr_apply, catArr_apply]
  rfl

end Cert.ReferenceIdeal.HandMlp

end
-- ==== Proof.TailEq.lean ====
/-
  The pooling is one function.  After the edge network both programs run the same host operations, in the same order, on
  the same kinds of buffers: a scatter-add of the network's rows by cluster with a count, a quotient and a gather for the
  pooled node features; two gathers, a sort, a running sum, scatters and selects for the pooled edges.  So from contents
  that agree on what those operations read, the two folds leave equal results.  The operations are never opened.
-/
import proofs.«128313_j69415261438102_1_alg».proof.Proof.KIFrameTail
import proofs.«128313_j69415261438102_1_alg».proof.Proof.RefRun
import Idealize.ShloMosaic.PureOps.Ideal

set_option maxRecDepth 16384

noncomputable section

namespace Cert.TailEq

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

/-- Two pieces laid end to end along an axis, with the pieces as arguments of their own: the evidence that the extents add up
    speaks of the two shapes alone, so either piece may be replaced by an equal one. -/
private def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A concatenation of two pieces is that function of its pieces. -/
private theorem cat2_def {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = cat2 t a s₁ s₂ h x₁ x₂ := rfl

/-- Both lines written out operation by operation: the program's thirteen stretches laid end to end, and the reference's four. -/
local macro "both_lines" : tactic =>
  `(tactic| (dsimp only [Cert.KernelIdeal.Hand.tailOps, Cert.ReferenceIdeal.Hand.opsTail]
             simp only [Cert.KernelIdeal.Gen.hostOps1, Cert.KernelIdeal.Gen.hostOps1_1, Cert.KernelIdeal.Gen.hostOps1_2,
               Cert.KernelIdeal.Gen.hostOps1_3, Cert.KernelIdeal.Gen.hostOps1_4, Cert.KernelIdeal.Gen.hostOps1_5,
               Cert.KernelIdeal.Gen.hostOps1_6, Cert.KernelIdeal.Gen.hostOps1_7, Cert.KernelIdeal.Gen.hostOps1_8,
               Cert.KernelIdeal.Gen.hostOps1_9, Cert.KernelIdeal.Gen.hostOps1_10, Cert.KernelIdeal.Gen.hostOps1_11,
               Cert.KernelIdeal.Gen.hostOps1_12,
               Cert.ReferenceIdeal.Hand.opsT0, Cert.ReferenceIdeal.Hand.opsT1, Cert.ReferenceIdeal.Hand.opsT2,
               Cert.ReferenceIdeal.Hand.opsT3,
               List.flatten_cons, List.flatten_nil, List.append_nil, List.cons_append, List.nil_append]))

/-- A fold of a written-out line read at one buffer, as the composed value: an operation's result at its own buffer is its
    function of what its operands held, at any other buffer what was there before it; every buffer is written once, so
    the reading ends at the buffers no operation writes.  A two-piece concatenation is read as `cat2` of its pieces, which
    lets the pieces be read in turn. -/
local macro "composed_value" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      cat2_def]))

-- Both sides are one composed term: the gather, at the wrapped kept indices, of the cluster sums of the network's rows
-- divided by the cluster counts (at least one).  The two terms differ in the names of the shapes and of the scatter and
-- gather records, which are the same literals, and in the contents read, which agree by hypothesis; no operation is opened.
attribute [local irreducible] Host.scatterAdd Host.scatter Host.gather Host.sort3 Host.reduceWindow Host.divf concatenate
  broadcastInDim select cmpi addi maximumf extractStridedSlice shapeCast extui ori andi iotaInDim constant constantI cat2 in
set_option maxHeartbeats 4000000 in
/-- The pooled node features: equal when the network's result, the clusters and the kept indices agree. -/
theorem field_eq (h0 : VK (Cert.KernelIdeal.main_v0 : DevRef Cert.KernelIdeal.τ Cert.KernelIdeal.sig) = VR (Cert.ReferenceIdeal.main_v38 : DevRef Cert.ReferenceIdeal.τ Cert.ReferenceIdeal.sig))
    (h3 : VK (Cert.KernelIdeal.main_arg3 : DevRef Cert.KernelIdeal.τ Cert.KernelIdeal.sig) = VR (Cert.ReferenceIdeal.main_arg3 : DevRef Cert.ReferenceIdeal.τ Cert.ReferenceIdeal.sig)) (h4 : VK (Cert.KernelIdeal.main_arg4 : DevRef Cert.KernelIdeal.τ Cert.KernelIdeal.sig) = VR (Cert.ReferenceIdeal.main_arg4 : DevRef Cert.ReferenceIdeal.τ Cert.ReferenceIdeal.sig)) :
    after (Cert.KernelIdeal.Hand.tailOps (F := Ideal)).flatten VK (Cert.KernelIdeal.main_v19 : DevRef Cert.KernelIdeal.τ Cert.KernelIdeal.sig) = after (Cert.ReferenceIdeal.Hand.opsTail (F := Ideal)) VR (Cert.ReferenceIdeal.main_v57 : DevRef Cert.ReferenceIdeal.τ Cert.ReferenceIdeal.sig) := by
  both_lines
  composed_value
  rw [h0, h3, h4]
  rfl

-- Both sides are one composed term over the node map and the edge list: the two endpoint gathers, the self-loop mask, the
-- sort by the pair of endpoints, the first-of-its-run marks and their running sum, the scatter of each run's endpoints to
-- its rank, the range mask, and the two rows laid one over the other.  Same literals under two sets of names; the
-- contents read agree by hypothesis; no operation is opened.
attribute [local irreducible] Host.scatterAdd Host.scatter Host.gather Host.sort3 Host.reduceWindow Host.divf concatenate
  broadcastInDim select cmpi addi maximumf extractStridedSlice shapeCast extui ori andi iotaInDim constant constantI cat2 in
set_option maxHeartbeats 4000000 in
/-- The pooled edges' endpoints: equal when the node map and the edge list agree. -/
theorem ei_eq (h5 : VK (Cert.KernelIdeal.main_arg5 : DevRef Cert.KernelIdeal.τ Cert.KernelIdeal.sig) = VR (Cert.ReferenceIdeal.main_arg5 : DevRef Cert.ReferenceIdeal.τ Cert.ReferenceIdeal.sig)) (h6 : VK (Cert.KernelIdeal.main_arg6 : DevRef Cert.KernelIdeal.τ Cert.KernelIdeal.sig) = VR (Cert.ReferenceIdeal.main_arg6 : DevRef Cert.ReferenceIdeal.τ Cert.ReferenceIdeal.sig)) :
    after (Cert.KernelIdeal.Hand.tailOps (F := Ideal)).flatten VK (Cert.KernelIdeal.main_v111 : DevRef Cert.KernelIdeal.τ Cert.KernelIdeal.sig) = after (Cert.ReferenceIdeal.Hand.opsTail (F := Ideal)) VR (Cert.ReferenceIdeal.main_v149 : DevRef Cert.ReferenceIdeal.τ Cert.ReferenceIdeal.sig) := by
  both_lines
  composed_value
  rw [h5, h6]
  rfl

-- As for the endpoints, with the edge attributes gathered in sorted order, summed by run, divided by the run lengths (at
-- least one) and masked by the same range test.
attribute [local irreducible] Host.scatterAdd Host.scatter Host.gather Host.sort3 Host.reduceWindow Host.divf concatenate
  broadcastInDim select cmpi addi maximumf extractStridedSlice shapeCast extui ori andi iotaInDim constant constantI cat2 in
set_option maxHeartbeats 4000000 in
/-- The pooled edges' attributes: equal when the edge attributes, the node map and the edge list agree. -/
theorem ea_eq (h2 : VK (Cert.KernelIdeal.main_arg2 : DevRef Cert.KernelIdeal.τ Cert.KernelIdeal.sig) = VR (Cert.ReferenceIdeal.main_arg2 : DevRef Cert.ReferenceIdeal.τ Cert.ReferenceIdeal.sig)) (h5 : VK (Cert.KernelIdeal.main_arg5 : DevRef Cert.KernelIdeal.τ Cert.KernelIdeal.sig) = VR (Cert.ReferenceIdeal.main_arg5 : DevRef Cert.ReferenceIdeal.τ Cert.ReferenceIdeal.sig))
    (h6 : VK (Cert.KernelIdeal.main_arg6 : DevRef Cert.KernelIdeal.τ Cert.KernelIdeal.sig) = VR (Cert.ReferenceIdeal.main_arg6 : DevRef Cert.ReferenceIdeal.τ Cert.ReferenceIdeal.sig)) :
    after (Cert.KernelIdeal.Hand.tailOps (F := Ideal)).flatten VK (Cert.KernelIdeal.main_v113 : DevRef Cert.KernelIdeal.τ Cert.KernelIdeal.sig) = after (Cert.ReferenceIdeal.Hand.opsTail (F := Ideal)) VR (Cert.ReferenceIdeal.main_v151 : DevRef Cert.ReferenceIdeal.τ Cert.ReferenceIdeal.sig) := by
  both_lines
  composed_value
  rw [h2, h5, h6]
  rfl

end Cert.TailEq

end
-- ==== Proof.lean ====
/-
  The kernel program runs an edge network on the two node arrays in one pipelined region, 2048 rows at a grid point, and
  then pools on the host: the network's rows are summed by cluster and divided by the cluster's size, and the kept
  clusters gathered; the edges are mapped to clusters, sorted, merged and averaged.  The reference computes the same
  network with whole-array host operations and then pools with the same host operations.

  Frames.  The kernel program's region is run point by point (each input block found in its staging buffer, the one output
  block stored whole) and the later host lines run from its exit; they write no argument.  The reference is a straight line
  of host operations that writes no argument.

  Values, at the exact instance.  The region leaves the edge network of the argument arrays in its output array: at an
  entry the body's value is the network on that row (a matrix product into a zero accumulator is the host's product; a
  lane sum is the host's sum; the exponential less the word of one is the host's exponential-minus-one, and its inner
  select only matters where the outer one does not look).  The reference's first eighty operations leave the same array.
  From there both programs apply the same operations to the same values, so the three results agree.
-/
import proofs.«128313_j69415261438102_1_alg».proof.Defs
import proofs.«128313_j69415261438102_1_alg».proof.Proof.Gen.Kernel
import proofs.«128313_j69415261438102_1_alg».proof.Proof.Gen.KernelIdeal
import proofs.«128313_j69415261438102_1_alg».proof.Proof.Gen.ReferenceIdeal
import proofs.«128313_j69415261438102_1_alg».proof.Proof.Gen.Pre_finite_inputs
import proofs.«128313_j69415261438102_1_alg».proof.Proof.KFrameBody
import proofs.«128313_j69415261438102_1_alg».proof.Proof.KIFrameBody
import proofs.«128313_j69415261438102_1_alg».proof.Proof.KIValue
import proofs.«128313_j69415261438102_1_alg».proof.Proof.RefRun
import proofs.«128313_j69415261438102_1_alg».proof.Proof.RefMlp
import proofs.«128313_j69415261438102_1_alg».proof.Proof.TailEq
import Idealize.ShloMosaic.Adequacy
import Idealize.ShloMosaic.Init

set_option maxRecDepth 16384

noncomputable section

namespace Cert.Proof

open Idealize.ShloMosaic Idealize.SL.Sem Idealize.ShloMosaic.TcCoe Idealize.ShloMosaic.StableHlo

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame: its run with the results dropped; no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _),
      (h c Cert.ReferenceIdeal.main_arg14).trans (Cert.ReferenceIdeal.Hand.kept_arg14 _)⟩)
    (Cert.ReferenceIdeal.Hand.run (F := Ideal) m ρ)

/-- What the pooling's operations read of the kernel program's memory at the region's exit, against the reference's after its
    edge network: the network's array (both are the edge network of arguments that agree) and the arguments. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) Cert.KernelIdeal.Hand.tailOps c Cert.KernelIdeal.main_v19,
    fun c => Pipeline.afterTail₀ Cert.KernelIdeal.cfgs (Cert.KernelIdeal.Hand.dats m) 0 (Cert.KernelIdeal.Hand.V0 m) Cert.KernelIdeal.Hand.tailOps c Cert.KernelIdeal.main_v111,
    fun c => Pipeline.afterTail₀ Cert.KernelIdeal.cfgs (Cert.KernelIdeal.Hand.dats m) 0 (Cert.KernelIdeal.Hand.V0 m) Cert.KernelIdeal.Hand.tailOps c Cert.KernelIdeal.main_v113,
    Cert.KernelIdeal.Hand.run_full (F := Ideal) m ρ, ?_⟩
  refine (θ_run Cert.ReferenceIdeal.defs _ _).mono (fun _ h c => ?_) (Cert.ReferenceIdeal.Hand.run (F := Ideal) m' ρ')
  obtain ⟨a0, a1, a2, a3, a4, a5, a6, a7, a8, a9, a10, a11, a12, a13, a14⟩ := hagree c
  -- a buffer that is no array of the pipeline is, at the region's exit, as launched
  have hne : ∀ b : Ref Cert.KernelIdeal.sig .tc, (∀ w, Pipeline.arrRef Cert.KernelIdeal.spec0 w ≠ b) →
      Pipeline.withArrays Cert.KernelIdeal.spec0 c (Cert.KernelIdeal.Hand.V0 m c) (fun w => (Cert.KernelIdeal.Hand.dats m 0 c).arrAt w Cert.KernelIdeal.cfg0.N) (Proc.devRef .tc b)
        = m ((c : Thread Cert.KernelIdeal.nD Cert.KernelIdeal.τ).loc b) := fun b hb =>
    (Pipeline.withArrays_of_ne _ c _ _ b hb).trans (Cert.KernelIdeal.Hand.V_eq m c b)
  -- the network's array at the region's exit is the reference's after its edge network
  have h0 : Pipeline.withArrays Cert.KernelIdeal.spec0 c (Cert.KernelIdeal.Hand.V0 m c) (fun w => (Cert.KernelIdeal.Hand.dats m 0 c).arrAt w Cert.KernelIdeal.cfg0.N) (Cert.KernelIdeal.main_v0 : DevRef Cert.KernelIdeal.τ Cert.KernelIdeal.sig)
      = after (Cert.ReferenceIdeal.Hand.opsMlp (F := Ideal)) (launchContents m' c) (Cert.ReferenceIdeal.main_v38 : DevRef Cert.ReferenceIdeal.τ Cert.ReferenceIdeal.sig) := by
    refine ((Pipeline.withArrays_arr Cert.KernelIdeal.spec0 Cert.KernelIdeal.Gen.launch0.win.arr_inj c _ _ 10).trans (Cert.KernelIdeal.HandValue.final m c)).trans ?_
    rw [Cert.ReferenceIdeal.HandMlp.mlp_result]
    rw [show launchContents m' c (Cert.ReferenceIdeal.main_arg0 : DevRef Cert.ReferenceIdeal.τ Cert.ReferenceIdeal.sig) = m ((c : Thread Cert.KernelIdeal.nD Cert.KernelIdeal.τ).loc Cert.KernelIdeal.main_arg0) from a0,
      show launchContents m' c (Cert.ReferenceIdeal.main_arg1 : DevRef Cert.ReferenceIdeal.τ Cert.ReferenceIdeal.sig) = m ((c : Thread Cert.KernelIdeal.nD Cert.KernelIdeal.τ).loc Cert.KernelIdeal.main_arg1) from a1,
      show launchContents m' c (Cert.ReferenceIdeal.main_arg7 : DevRef Cert.ReferenceIdeal.τ Cert.ReferenceIdeal.sig) = m ((c : Thread Cert.KernelIdeal.nD Cert.KernelIdeal.τ).loc Cert.KernelIdeal.main_arg7) from a7,
      show launchContents m' c (Cert.ReferenceIdeal.main_arg8 : DevRef Cert.ReferenceIdeal.τ Cert.ReferenceIdeal.sig) = m ((c : Thread Cert.KernelIdeal.nD Cert.KernelIdeal.τ).loc Cert.KernelIdeal.main_arg8) from a8,
      show launchContents m' c (Cert.ReferenceIdeal.main_arg9 : DevRef Cert.ReferenceIdeal.τ Cert.ReferenceIdeal.sig) = m ((c : Thread Cert.KernelIdeal.nD Cert.KernelIdeal.τ).loc Cert.KernelIdeal.main_arg9) from a9,
      show launchContents m' c (Cert.ReferenceIdeal.main_arg10 : DevRef Cert.ReferenceIdeal.τ Cert.ReferenceIdeal.sig) = m ((c : Thread Cert.KernelIdeal.nD Cert.KernelIdeal.τ).loc Cert.KernelIdeal.main_arg10) from a10,
      show launchContents m' c (Cert.ReferenceIdeal.main_arg11 : DevRef Cert.ReferenceIdeal.τ Cert.ReferenceIdeal.sig) = m ((c : Thread Cert.KernelIdeal.nD Cert.KernelIdeal.τ).loc Cert.KernelIdeal.main_arg11) from a11,
      show launchContents m' c (Cert.ReferenceIdeal.main_arg12 : DevRef Cert.ReferenceIdeal.τ Cert.ReferenceIdeal.sig) = m ((c : Thread Cert.KernelIdeal.nD Cert.KernelIdeal.τ).loc Cert.KernelIdeal.main_arg12) from a12,
      show launchContents m' c (Cert.ReferenceIdeal.main_arg13 : DevRef Cert.ReferenceIdeal.τ Cert.ReferenceIdeal.sig) = m ((c : Thread Cert.KernelIdeal.nD Cert.KernelIdeal.τ).loc Cert.KernelIdeal.main_arg13) from a13,
      show launchContents m' c (Cert.ReferenceIdeal.main_arg14 : DevRef Cert.ReferenceIdeal.τ Cert.ReferenceIdeal.sig) = m ((c : Thread Cert.KernelIdeal.nD Cert.KernelIdeal.τ).loc Cert.KernelIdeal.main_arg14) from a14]
  refine ⟨(h c Cert.ReferenceIdeal.main_v57).trans ?_, (h c Cert.ReferenceIdeal.main_v149).trans ?_, (h c Cert.ReferenceIdeal.main_v151).trans ?_,
    (h c Cert.ReferenceIdeal.main_arg0).trans (Cert.ReferenceIdeal.Hand.kept_arg0 _),
    (h c Cert.ReferenceIdeal.main_arg1).trans (Cert.ReferenceIdeal.Hand.kept_arg1 _),
    (h c Cert.ReferenceIdeal.main_arg2).trans (Cert.ReferenceIdeal.Hand.kept_arg2 _),
    (h c Cert.ReferenceIdeal.main_arg3).trans (Cert.ReferenceIdeal.Hand.kept_arg3 _),
    (h c Cert.ReferenceIdeal.main_arg4).trans (Cert.ReferenceIdeal.Hand.kept_arg4 _),
    (h c Cert.ReferenceIdeal.main_arg5).trans (Cert.ReferenceIdeal.Hand.kept_arg5 _),
    (h c Cert.ReferenceIdeal.main_arg6).trans (Cert.ReferenceIdeal.Hand.kept_arg6 _),
    (h c Cert.ReferenceIdeal.main_arg7).trans (Cert.ReferenceIdeal.Hand.kept_arg7 _),
    (h c Cert.ReferenceIdeal.main_arg8).trans (Cert.ReferenceIdeal.Hand.kept_arg8 _),
    (h c Cert.ReferenceIdeal.main_arg9).trans (Cert.ReferenceIdeal.Hand.kept_arg9 _),
    (h c Cert.ReferenceIdeal.main_arg10).trans (Cert.ReferenceIdeal.Hand.kept_arg10 _),
    (h c Cert.ReferenceIdeal.main_arg11).trans (Cert.ReferenceIdeal.Hand.kept_arg11 _),
    (h c Cert.ReferenceIdeal.main_arg12).trans (Cert.ReferenceIdeal.Hand.kept_arg12 _),
    (h c Cert.ReferenceIdeal.main_arg13).trans (Cert.ReferenceIdeal.Hand.kept_arg13 _),
    (h c Cert.ReferenceIdeal.main_arg14).trans (Cert.ReferenceIdeal.Hand.kept_arg14 _)⟩
  · rw [Cert.ReferenceIdeal.Hand.after_ops]
    refine (Cert.TailEq.field_eq _ _ h0 ?_ ?_).symm
    · exact (hne Cert.KernelIdeal.main_arg3 (by decide)).trans ((Cert.ReferenceIdeal.Hand.mlp_kept_arg3 _).trans a3).symm
    · exact (hne Cert.KernelIdeal.main_arg4 (by decide)).trans ((Cert.ReferenceIdeal.Hand.mlp_kept_arg4 _).trans a4).symm
  · rw [Cert.ReferenceIdeal.Hand.after_ops]
    refine (Cert.TailEq.ei_eq _ _ ?_ ?_).symm
    · exact (hne Cert.KernelIdeal.main_arg5 (by decide)).trans ((Cert.ReferenceIdeal.Hand.mlp_kept_arg5 _).trans a5).symm
    · exact (hne Cert.KernelIdeal.main_arg6 (by decide)).trans ((Cert.ReferenceIdeal.Hand.mlp_kept_arg6 _).trans a6).symm
  · rw [Cert.ReferenceIdeal.Hand.after_ops]
    refine (Cert.TailEq.ea_eq _ _ ?_ ?_ ?_).symm
    · exact (hne Cert.KernelIdeal.main_arg2 (by decide)).trans ((Cert.ReferenceIdeal.Hand.mlp_kept_arg2 _).trans a2).symm
    · exact (hne Cert.KernelIdeal.main_arg5 (by decide)).trans ((Cert.ReferenceIdeal.Hand.mlp_kept_arg5 _).trans a5).symm
    · exact (hne Cert.KernelIdeal.main_arg6 (by decide)).trans ((Cert.ReferenceIdeal.Hand.mlp_kept_arg6 _).trans a6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
